-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x4096 .f32) (main_arg8 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S1024x4096 .f32) (main_arg8 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x2048 .f32) (main_arg1 : FVec F S4096x2048 .f32) (main_arg2 : FVec F S4096 .f32) (main_arg3 : FVec F S4096x4096 .f32) (main_arg4 : FVec F S4096 .f32) (main_arg5 : FVec F S4096x4096 .f32) (main_arg6 : FVec F S4096 .f32) (main_arg7 : FVec F S1024x4096 .f32) (main_arg8 : FVec F S1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x2048 : Shape := ⟨2, ![4096, 2048]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S512x512 : Shape := ⟨2, ![512, 512]⟩
abbrev S1024x512 : Shape := ⟨2, ![1024, 512]⟩
abbrev S1x1024 : Shape := ⟨2, ![1, 1024]⟩
abbrev S512x1024 : Shape := ⟨2, ![512, 1024]⟩
abbrev S4096x1024 : Shape := ⟨2, ![4096, 1024]⟩

abbrev nBuf : Space → Nat
  | .hbm => 17
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S1x4096, .f32⟩
  | .hbm, ⟨10, _⟩ => ⟨S4096x4096, .bf16⟩
  | .hbm, ⟨11, _⟩ => ⟨S1x4096, .f32⟩
  | .hbm, ⟨12, _⟩ => ⟨S4096x4096, .bf16⟩
  | .hbm, ⟨13, _⟩ => ⟨S1x4096, .f32⟩
  | .hbm, ⟨14, _⟩ => ⟨S4096x4096, .bf16⟩
  | .hbm, ⟨15, _⟩ => ⟨S1x1024, .f32⟩
  | .hbm, ⟨16, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S1024x512, .f32⟩
  | .local _ .vmem, ⟨12, _⟩ => ⟨S1024x512, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x512, .bf16⟩
  | .local _ .vmem, ⟨19, _⟩ => ⟨S512x512, .bf16⟩
  | .local _ .vmem, ⟨20, _⟩ => ⟨S1024x512, .f32⟩
  | .local _ .vmem, ⟨21, _⟩ => ⟨S1024x512, .f32⟩
  | .local _ .vmem, ⟨22, _⟩ => ⟨S1x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x512, .bf16⟩
  | .local _ .vmem, ⟨28, _⟩ => ⟨S512x512, .bf16⟩
  | .local _ .vmem, ⟨29, _⟩ => ⟨S1024x512, .f32⟩
  | .local _ .vmem, ⟨30, _⟩ => ⟨S1024x512, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 8], ![false, false, false]⟩

def k2_cond2 (i : grid2.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 8], ![false, false, false]⟩

def k3_cond2 (i : grid3.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S512x512_S512x512 : S512x512.ShapeCasts S512x512
  shapeCasts_S1024_S1x1024 : S1024.ShapeCasts S1x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .f32 = 32 ∨ (Rect.block (s := S4096x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .f32 = 32 ∨ (Rect.block (s := S4096x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .bf16 = 32 ∨ (Rect.block (s := S4096x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .bf16 = 32 ∨ (Rect.block (s := S4096x4096) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .f32 = 32 ∨ (Rect.block (s := S4096x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x4096.size a
  hwx2_3 : ∀ i : grid2.Coords, EltTy.bits .bf16 = 32 ∨ (Rect.block (s := S4096x4096) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .bf16 = 32 ∨ (Rect.block (s := S4096x4096) S512x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x4096.size a
  hwx3_1 : ∀ i : grid3.Coords, EltTy.bits .f32 = 32 ∨ (Rect.block (s := S1024x4096) S1024x512.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S4096x1024.size a
  hwx3_3 : ∀ i : grid3.Coords, EltTy.bits .f32 = 32 ∨ (Rect.block (s := S4096x1024) S512x1024.size (cc3_transform_3 i) (hinb3_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v5) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x1024.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S2048x4096 : Shape := ⟨2, ![2048, 4096]⟩
abbrev S1x4096 : Shape := ⟨2, ![1, 4096]⟩
abbrev S_ : Shape := ⟨0, ![]⟩
abbrev S4096x1024 : Shape := ⟨2, ![4096, 1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S2048x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Kernel.Body0.lean ====
/-
  One dense layer's kernel, point by point.  The grid is (row block, column block, contraction block), the
  contraction block innermost.  A scratch accumulator is cleared where the contraction block is the first,
  every point adds the product of its activation block and its transposed weight block to it, and where the
  contraction block is the last the accumulator plus the bias row, clamped below at zero, is stored to the output block.
  Here: what the scratch holds after each point (a fold that restarts every 4 points), the body's run in
  each of the three positions of a point, the proof data of the pipeline over it, and the body obligation —
  all at a parameter `V`, the buffers' contents when the region is entered, and at any float instance.
-/
import proofs.«118080_j56341380989394_1_alg».proof.Proof.Gen.Kernel.Launch
import proofs.«118080_j56341380989394_1_alg».proof.Proof.Gen.Kernel.Skeleton
import proofs.«118080_j56341380989394_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 4 -/

/-- The contraction block is the first: the accumulator is cleared before it is added to. -/
abbrev isFirst (i : grid0.Coords) : Prop := (Scalar.cmpi .ne (Scalar.extui (Scalar.cmpi .eq (BitVec.ofNat 32 (i 2).val) 0#32)) 0#32) = 1#1
/-- The contraction block is the last: the output block is stored. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- Off the last contraction block nothing is stored into the output window and it is not written back; -/
theorem out_idle : ∀ t : Fin cfg0.N, ¬isLast (grid0.coords t) → cfg0.idle 3 (grid0.coords t) = true := by decide +kernel
theorem out_noflush : ∀ t : Fin cfg0.N, ¬isLast (grid0.coords t) → (cfg0.win 3).flush t = false := by decide +kernel
/-- on it the window is live. -/
theorem out_live : ∀ t : Fin cfg0.N, isLast (grid0.coords t) → cfg0.idle 3 (grid0.coords t) = false := by decide +kernel
theorem in_live0 : ∀ t : Fin cfg0.N, cfg0.idle 0 (grid0.coords t) = false := by decide +kernel
theorem in_live1 : ∀ t : Fin cfg0.N, cfg0.idle 1 (grid0.coords t) = false := by decide +kernel
theorem in_live2 : ∀ t : Fin cfg0.N, cfg0.idle 2 (grid0.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst i) (hl : ¬isLast i)
    (x0 : Vec F S512x512 .f32) (x1 : Vec F S1024x512 .f32) (x2 : Vec F S1x1024 .f32) (xo : Vec F S512x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay2 x0 x1 k0_pay1)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : ¬isLast i)
    (x0 : Vec F S512x512 .f32) (x1 : Vec F S1024x512 .f32) (x2 : Vec F S1x1024 .f32) (xo : Vec F S512x1024 .bf16) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay2 x0 x1 xs)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : isLast i)
    (x0 : Vec F S512x512 .f32) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (k0_pay2 x0 x1 xs) x2) ∗ owns (c : Thread nD τ) arg7 fullShare (k0_pay2 x0 x1 xs)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.Kernel.Layer0

end
-- ==== Proof.Kernel.Frame0.lean ====
/-
  One dense layer's pipeline data.  After point `n` the scratch holds the fold of the accumulate step over
  the points since the last multiple of 4: at a multiple of 4 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.Kernel.Body0

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The scratch after each point -/

/-- What the scratch holds after point `n`. -/
def accAt (c : Dev nD) : (n : ℕ) → n < cfg0.N → Vec F S512x1024 .f32
  | 0, hn => k0_pay2 (iblk V c 0 ⟨0, hn⟩) (iblk V c 1 ⟨0, hn⟩) k0_pay1
  | n + 1, hn =>
    if (n + 1) % 4 = 0 then k0_pay2 (iblk V c 0 ⟨n + 1, hn⟩) (iblk V c 1 ⟨n + 1, hn⟩) k0_pay1
    else k0_pay2 (iblk V c 0 ⟨n + 1, hn⟩) (iblk V c 1 ⟨n + 1, hn⟩) (accAt c n (Nat.lt_of_succ_lt hn))

/-- At a multiple of 4 the fold restarts from the zero fill. -/
theorem accAt_reset (c : Dev nD) (n : ℕ) (hn : n < cfg0.N) (h : n % 4 = 0) :
    accAt V c n hn = k0_pay2 (iblk V c 0 ⟨n, hn⟩) (iblk V c 1 ⟨n, hn⟩) k0_pay1 := by
  cases n with
  | zero => rfl
  | succ n => exact if_pos h

/-- Elsewhere it steps from what the point before left. -/
theorem accAt_step (c : Dev nD) (n : ℕ) (hn : n + 1 < cfg0.N) (h : ¬(n + 1) % 4 = 0) :
    accAt V c (n + 1) hn = k0_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc0_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg0.N), n = k + 1 → d = accAt V c k hk⌝ ∗ owns (c : Thread nD τ) scM fullShare d)
    ∗ Pipeline.scopedRestBut (Ix := Unit) (Name := ℕ) (U := UR sig nD τ) (Lvl := ℕ) (Val := Elt F) spec0 c [cc0_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt) (iblk V c 2 t)
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = k0_pay3 (accAt V c t.val t.isLt) (iblk V c 2 t) := by dsimp only [dat]

/-- An input's current staging buffer holds its block at every point, fetched there or not: where it is not
    fetched its block index has not moved. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 4 says
    which run applies; the invariant hands over the scratch at what the point before left and takes it back
    at this point's fold. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st0_0 t) fullShare ((dat V c).after 0 t) from by
      unfold Dat.leavesExact; rw [in_live0 t],
    show (dat V c).leavesExact 1 t = owns (c : Thread nD τ) (st0_1 t) fullShare ((dat V c).after 1 t) from by
      unfold Dat.leavesExact; rw [in_live1 t],
    show (dat V c).leavesExact 2 t = owns (c : Thread nD τ) (st0_2 t) fullShare ((dat V c).after 2 t) from by
      unfold Dat.leavesExact; rw [in_live2 t],
    after_0, after_1, after_2]
  unfold PhiS
  by_cases h0 : t.val % 4 = 0
  · have hf := (isFirst_iff t).mpr h0
    have hl : ¬isLast (grid0.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid0.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg0.N := by have := t.isLt; omega
    have hstep : accAt V c t.val t.isLt = k0_pay2 (iblk V c 0 t) (iblk V c 1 t) (accAt V c n hnN) := by
      obtain ⟨tv, ht⟩ := t
      dsimp only at hn h0 ⊢
      subst hn
      exact accAt_step V c n ht h0
    by_cases h1 : t.val % 4 = 3
    · have hf : ¬isFirst (grid0.coords t) := fun h => h0 ((isFirst_iff t).mp h)
      have hl := (isLast_iff t).mpr h1
      rw [show (dat V c).leavesExact 3 t = owns (c : Thread nD τ) (st0_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid0.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid0.coords t) := fun h => h0 ((isFirst_iff t).mp h)
      have hl : ¬isLast (grid0.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid0.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## Entering and leaving the region -/

/-- What the region is entered with — every scoped buffer that is no staging buffer at some contents, the
    generator register at some state — is the invariant before the first point. -/
theorem phi_in (c : Dev nD) : (Pipeline.ΦA spec0 c : sProp 𝕄) ⊢ (dat V c).Φ 0 := by
  rw [show (dat V c).Φ 0 = PhiS V c 0 from rfl]
  unfold Pipeline.ΦA PhiS
  rw [scopedRest0_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg0.N) ⊢ (Pipeline.ΦA spec0 c : sProp 𝕄) := by
  rw [show (dat V c).Φ (Fin.last cfg0.N) = PhiS V c cfg0.N from rfl]
  unfold Pipeline.ΦA PhiS
  rw [scopedRest0_split]
  simp only [owns_whole]
  iintro ⟨⟨%d, -, Hs⟩, Hrest, Hg⟩
  isplitl [Hs Hrest]
  · isplitl [Hs]
    · iexists d; iexact Hs
    iexact Hrest
  iexact Hg

end Cert.Kernel.Layer0

end
-- ==== Proof.Kernel.Body1.lean ====
/-
  One dense layer's kernel, point by point.  The grid is (row block, column block, contraction block), the
  contraction block innermost.  A scratch accumulator is cleared where the contraction block is the first,
  every point adds the product of its activation block and its transposed weight block to it, and where the
  contraction block is the last the accumulator plus the bias row, clamped below at zero, is stored to the output block.
  Here: what the scratch holds after each point (a fold that restarts every 8 points), the body's run in
  each of the three positions of a point, the proof data of the pipeline over it, and the body obligation —
  all at a parameter `V`, the buffers' contents when the region is entered, and at any float instance.
-/
import proofs.«118080_j56341380989394_1_alg».proof.Proof.Gen.Kernel.Launch
import proofs.«118080_j56341380989394_1_alg».proof.Proof.Gen.Kernel.Skeleton
import proofs.«118080_j56341380989394_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 8 -/

/-- The contraction block is the first: the accumulator is cleared before it is added to. -/
abbrev isFirst (i : grid1.Coords) : Prop := (Scalar.cmpi .ne (Scalar.extui (Scalar.cmpi .eq (BitVec.ofNat 32 (i 2).val) 0#32)) 0#32) = 1#1
/-- The contraction block is the last: the output block is stored. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-- Off the last contraction block nothing is stored into the output window and it is not written back; -/
theorem out_idle : ∀ t : Fin cfg1.N, ¬isLast (grid1.coords t) → cfg1.idle 3 (grid1.coords t) = true := by decide +kernel
theorem out_noflush : ∀ t : Fin cfg1.N, ¬isLast (grid1.coords t) → (cfg1.win 3).flush t = false := by decide +kernel
/-- on it the window is live. -/
theorem out_live : ∀ t : Fin cfg1.N, isLast (grid1.coords t) → cfg1.idle 3 (grid1.coords t) = false := by decide +kernel
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid1.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst i) (hl : ¬isLast i)
    (x0 : Vec F S512x512 .bf16) (x1 : Vec F S1024x512 .f32) (x2 : Vec F S1x1024 .f32) (xo : Vec F S512x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k1_pay2 x0 x1 k1_pay1)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid1.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : ¬isLast i)
    (x0 : Vec F S512x512 .bf16) (x1 : Vec F S1024x512 .f32) (x2 : Vec F S1x1024 .f32) (xo : Vec F S512x1024 .bf16) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k1_pay2 x0 x1 xs)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid1.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : isLast i)
    (x0 : Vec F S512x512 .bf16) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.Kernel.Layer1

end
-- ==== Proof.Kernel.Frame1.lean ====
/-
  One dense layer's pipeline data.  After point `n` the scratch holds the fold of the accumulate step over
  the points since the last multiple of 8: at a multiple of 8 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.Kernel.Body1

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch after each point -/

/-- What the scratch holds after point `n`. -/
def accAt (c : Dev nD) : (n : ℕ) → n < cfg1.N → Vec F S512x1024 .f32
  | 0, hn => k1_pay2 (iblk V c 0 ⟨0, hn⟩) (iblk V c 1 ⟨0, hn⟩) k1_pay1
  | n + 1, hn =>
    if (n + 1) % 8 = 0 then k1_pay2 (iblk V c 0 ⟨n + 1, hn⟩) (iblk V c 1 ⟨n + 1, hn⟩) k1_pay1
    else k1_pay2 (iblk V c 0 ⟨n + 1, hn⟩) (iblk V c 1 ⟨n + 1, hn⟩) (accAt c n (Nat.lt_of_succ_lt hn))

/-- At a multiple of 8 the fold restarts from the zero fill. -/
theorem accAt_reset (c : Dev nD) (n : ℕ) (hn : n < cfg1.N) (h : n % 8 = 0) :
    accAt V c n hn = k1_pay2 (iblk V c 0 ⟨n, hn⟩) (iblk V c 1 ⟨n, hn⟩) k1_pay1 := by
  cases n with
  | zero => rfl
  | succ n => exact if_pos h

/-- Elsewhere it steps from what the point before left. -/
theorem accAt_step (c : Dev nD) (n : ℕ) (hn : n + 1 < cfg1.N) (h : ¬(n + 1) % 8 = 0) :
    accAt V c (n + 1) hn = k1_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc1_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg1.N), n = k + 1 → d = accAt V c k hk⌝ ∗ owns (c : Thread nD τ) scM fullShare d)
    ∗ Pipeline.scopedRestBut (Ix := Unit) (Name := ℕ) (U := UR sig nD τ) (Lvl := ℕ) (Val := Elt F) spec1 c [cc1_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay3 (accAt V c t.val t.isLt) (iblk V c 2 t)
  Φ t := PhiS V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = k1_pay3 (accAt V c t.val t.isLt) (iblk V c 2 t) := by dsimp only [dat]

/-- An input's current staging buffer holds its block at every point, fetched there or not: where it is not
    fetched its block index has not moved. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 8 says
    which run applies; the invariant hands over the scratch at what the point before left and takes it back
    at this point's fold. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st1_0 t) fullShare ((dat V c).after 0 t) from by
      unfold Dat.leavesExact; rw [in_live0 t],
    show (dat V c).leavesExact 1 t = owns (c : Thread nD τ) (st1_1 t) fullShare ((dat V c).after 1 t) from by
      unfold Dat.leavesExact; rw [in_live1 t],
    show (dat V c).leavesExact 2 t = owns (c : Thread nD τ) (st1_2 t) fullShare ((dat V c).after 2 t) from by
      unfold Dat.leavesExact; rw [in_live2 t],
    after_0, after_1, after_2]
  unfold PhiS
  by_cases h0 : t.val % 8 = 0
  · have hf := (isFirst_iff t).mpr h0
    have hl : ¬isLast (grid1.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid1.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg1.N := by have := t.isLt; omega
    have hstep : accAt V c t.val t.isLt = k1_pay2 (iblk V c 0 t) (iblk V c 1 t) (accAt V c n hnN) := by
      obtain ⟨tv, ht⟩ := t
      dsimp only at hn h0 ⊢
      subst hn
      exact accAt_step V c n ht h0
    by_cases h1 : t.val % 8 = 7
    · have hf : ¬isFirst (grid1.coords t) := fun h => h0 ((isFirst_iff t).mp h)
      have hl := (isLast_iff t).mpr h1
      rw [show (dat V c).leavesExact 3 t = owns (c : Thread nD τ) (st1_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid1.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid1.coords t) := fun h => h0 ((isFirst_iff t).mp h)
      have hl : ¬isLast (grid1.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid1.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the region is entered with — every scoped buffer that is no staging buffer at some contents, the
    generator register at some state — is the invariant before the first point. -/
theorem phi_in (c : Dev nD) : (Pipeline.ΦA spec1 c : sProp 𝕄) ⊢ (dat V c).Φ 0 := by
  rw [show (dat V c).Φ 0 = PhiS V c 0 from rfl]
  unfold Pipeline.ΦA PhiS
  rw [scopedRest1_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg1.N) ⊢ (Pipeline.ΦA spec1 c : sProp 𝕄) := by
  rw [show (dat V c).Φ (Fin.last cfg1.N) = PhiS V c cfg1.N from rfl]
  unfold Pipeline.ΦA PhiS
  rw [scopedRest1_split]
  simp only [owns_whole]
  iintro ⟨⟨%d, -, Hs⟩, Hrest, Hg⟩
  isplitl [Hs Hrest]
  · isplitl [Hs]
    · iexists d; iexact Hs
    iexact Hrest
  iexact Hg

end Cert.Kernel.Layer1

end
-- ==== Proof.Kernel.Body2.lean ====
/-
  One dense layer's kernel, point by point.  The grid is (row block, column block, contraction block), the
  contraction block innermost.  A scratch accumulator is cleared where the contraction block is the first,
  every point adds the product of its activation block and its transposed weight block to it, and where the
  contraction block is the last the accumulator plus the bias row, clamped below at zero, is stored to the output block.
  Here: what the scratch holds after each point (a fold that restarts every 8 points), the body's run in
  each of the three positions of a point, the proof data of the pipeline over it, and the body obligation —
  all at a parameter `V`, the buffers' contents when the region is entered, and at any float instance.
-/
import proofs.«118080_j56341380989394_1_alg».proof.Proof.Gen.Kernel.Launch
import proofs.«118080_j56341380989394_1_alg».proof.Proof.Gen.Kernel.Skeleton
import proofs.«118080_j56341380989394_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 8 -/

/-- The contraction block is the first: the accumulator is cleared before it is added to. -/
abbrev isFirst (i : grid2.Coords) : Prop := (Scalar.cmpi .ne (Scalar.extui (Scalar.cmpi .eq (BitVec.ofNat 32 (i 2).val) 0#32)) 0#32) = 1#1
/-- The contraction block is the last: the output block is stored. -/
abbrev isLast (i : grid2.Coords) : Prop := k2_cond2 i = 1#1

theorem isFirst_iff : ∀ t : Fin cfg2.N, isFirst (grid2.coords t) ↔ t.val % 8 = 0 :=
  (by decide +kernel : ∀ t : Fin grid2.N, isFirst (grid2.coords t) ↔ t.val % 8 = 0)
theorem isLast_iff : ∀ t : Fin cfg2.N, isLast (grid2.coords t) ↔ t.val % 8 = 7 :=
  (by decide +kernel : ∀ t : Fin grid2.N, isLast (grid2.coords t) ↔ t.val % 8 = 7)

/-- Off the last contraction block nothing is stored into the output window and it is not written back; -/
theorem out_idle : ∀ t : Fin cfg2.N, ¬isLast (grid2.coords t) → cfg2.idle 3 (grid2.coords t) = true := by decide +kernel
theorem out_noflush : ∀ t : Fin cfg2.N, ¬isLast (grid2.coords t) → (cfg2.win 3).flush t = false := by decide +kernel
/-- on it the window is live. -/
theorem out_live : ∀ t : Fin cfg2.N, isLast (grid2.coords t) → cfg2.idle 3 (grid2.coords t) = false := by decide +kernel
theorem in_live0 : ∀ t : Fin cfg2.N, cfg2.idle 0 (grid2.coords t) = false := by decide +kernel
theorem in_live1 : ∀ t : Fin cfg2.N, cfg2.idle 1 (grid2.coords t) = false := by decide +kernel
theorem in_live2 : ∀ t : Fin cfg2.N, cfg2.idle 2 (grid2.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid2.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst i) (hl : ¬isLast i)
    (x0 : Vec F S512x512 .bf16) (x1 : Vec F S1024x512 .f32) (x2 : Vec F S1x1024 .f32) (xo : Vec F S512x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k2_pay2 x0 x1 k2_pay1)) -∗ K ⟨⟩))
      ⊢ wp frame (wpE (defs₀ (F := F)) Variants.none c none) E (cc2__linear_kernel i arg3 harg3 arg4 harg4 arg5 harg5 arg6 harg6 arg7 harg7) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid2.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : ¬isLast i)
    (x0 : Vec F S512x512 .bf16) (x1 : Vec F S1024x512 .f32) (x2 : Vec F S1x1024 .f32) (xo : Vec F S512x1024 .bf16) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k2_pay2 x0 x1 xs)) -∗ K ⟨⟩))
      ⊢ wp frame (wpE (defs₀ (F := F)) Variants.none c none) E (cc2__linear_kernel i arg3 harg3 arg4 harg4 arg5 harg5 arg6 harg6 arg7 harg7) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid2.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : isLast i)
    (x0 : Vec F S512x512 .bf16) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k2_pay3 (k2_pay2 x0 x1 xs) x2) ∗ owns (c : Thread nD τ) arg7 fullShare (k2_pay2 x0 x1 xs)) -∗ K ⟨⟩))
      ⊢ wp frame (wpE (defs₀ (F := F)) Variants.none c none) E (cc2__linear_kernel i arg3 harg3 arg4 harg4 arg5 harg5 arg6 harg6 arg7 harg7) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.Kernel.Layer2

end
-- ==== Proof.Kernel.Frame2.lean ====
/-
  One dense layer's pipeline data.  After point `n` the scratch holds the fold of the accumulate step over
  the points since the last multiple of 8: at a multiple of 8 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.Kernel.Body2

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch after each point -/

/-- What the scratch holds after point `n`. -/
def accAt (c : Dev nD) : (n : ℕ) → n < cfg2.N → Vec F S512x1024 .f32
  | 0, hn => k2_pay2 (iblk V c 0 ⟨0, hn⟩) (iblk V c 1 ⟨0, hn⟩) k2_pay1
  | n + 1, hn =>
    if (n + 1) % 8 = 0 then k2_pay2 (iblk V c 0 ⟨n + 1, hn⟩) (iblk V c 1 ⟨n + 1, hn⟩) k2_pay1
    else k2_pay2 (iblk V c 0 ⟨n + 1, hn⟩) (iblk V c 1 ⟨n + 1, hn⟩) (accAt c n (Nat.lt_of_succ_lt hn))

/-- At a multiple of 8 the fold restarts from the zero fill. -/
theorem accAt_reset (c : Dev nD) (n : ℕ) (hn : n < cfg2.N) (h : n % 8 = 0) :
    accAt V c n hn = k2_pay2 (iblk V c 0 ⟨n, hn⟩) (iblk V c 1 ⟨n, hn⟩) k2_pay1 := by
  cases n with
  | zero => rfl
  | succ n => exact if_pos h

/-- Elsewhere it steps from what the point before left. -/
theorem accAt_step (c : Dev nD) (n : ℕ) (hn : n + 1 < cfg2.N) (h : ¬(n + 1) % 8 = 0) :
    accAt V c (n + 1) hn = k2_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc2_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg2.N), n = k + 1 → d = accAt V c k hk⌝ ∗ owns (c : Thread nD τ) scM fullShare d)
    ∗ Pipeline.scopedRestBut (Ix := Unit) (Name := ℕ) (U := UR sig nD τ) (Lvl := ℕ) (Val := Elt F) spec2 c [cc2_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accAt V c t.val t.isLt) (iblk V c 2 t)
  Φ t := PhiS V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) :
    (dat V c).after 3 t = k2_pay3 (accAt V c t.val t.isLt) (iblk V c 2 t) := by dsimp only [dat]

/-- An input's current staging buffer holds its block at every point, fetched there or not: where it is not
    fetched its block index has not moved. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 8 says
    which run applies; the invariant hands over the scratch at what the point before left and takes it back
    at this point's fold. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st2_0 t) fullShare ((dat V c).after 0 t) from by
      unfold Dat.leavesExact; rw [in_live0 t],
    show (dat V c).leavesExact 1 t = owns (c : Thread nD τ) (st2_1 t) fullShare ((dat V c).after 1 t) from by
      unfold Dat.leavesExact; rw [in_live1 t],
    show (dat V c).leavesExact 2 t = owns (c : Thread nD τ) (st2_2 t) fullShare ((dat V c).after 2 t) from by
      unfold Dat.leavesExact; rw [in_live2 t],
    after_0, after_1, after_2]
  unfold PhiS
  by_cases h0 : t.val % 8 = 0
  · have hf := (isFirst_iff t).mpr h0
    have hl : ¬isLast (grid2.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid2.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg2.N := by have := t.isLt; omega
    have hstep : accAt V c t.val t.isLt = k2_pay2 (iblk V c 0 t) (iblk V c 1 t) (accAt V c n hnN) := by
      obtain ⟨tv, ht⟩ := t
      dsimp only at hn h0 ⊢
      subst hn
      exact accAt_step V c n ht h0
    by_cases h1 : t.val % 8 = 7
    · have hf : ¬isFirst (grid2.coords t) := fun h => h0 ((isFirst_iff t).mp h)
      have hl := (isLast_iff t).mpr h1
      rw [show (dat V c).leavesExact 3 t = owns (c : Thread nD τ) (st2_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid2.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid2.coords t) := fun h => h0 ((isFirst_iff t).mp h)
      have hl : ¬isLast (grid2.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid2.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-! ## Entering and leaving the region -/

/-- What the region is entered with — every scoped buffer that is no staging buffer at some contents, the
    generator register at some state — is the invariant before the first point. -/
theorem phi_in (c : Dev nD) : (Pipeline.ΦA spec2 c : sProp 𝕄) ⊢ (dat V c).Φ 0 := by
  rw [show (dat V c).Φ 0 = PhiS V c 0 from rfl]
  unfold Pipeline.ΦA PhiS
  rw [scopedRest2_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg2.N) ⊢ (Pipeline.ΦA spec2 c : sProp 𝕄) := by
  rw [show (dat V c).Φ (Fin.last cfg2.N) = PhiS V c cfg2.N from rfl]
  unfold Pipeline.ΦA PhiS
  rw [scopedRest2_split]
  simp only [owns_whole]
  iintro ⟨⟨%d, -, Hs⟩, Hrest, Hg⟩
  isplitl [Hs Hrest]
  · isplitl [Hs]
    · iexists d; iexact Hs
    iexact Hrest
  iexact Hg

end Cert.Kernel.Layer2

end
-- ==== Proof.Kernel.Body3.lean ====
/-
  One dense layer's kernel, point by point.  The grid is (row block, column block, contraction block), the
  contraction block innermost.  A scratch accumulator is cleared where the contraction block is the first,
  every point adds the product of its activation block and its transposed weight block to it, and where the
  contraction block is the last the accumulator plus the bias row is stored to the output block.
  Here: what the scratch holds after each point (a fold that restarts every 8 points), the body's run in
  each of the three positions of a point, the proof data of the pipeline over it, and the body obligation —
  all at a parameter `V`, the buffers' contents when the region is entered, and at any float instance.
-/
import proofs.«118080_j56341380989394_1_alg».proof.Proof.Gen.Kernel.Launch
import proofs.«118080_j56341380989394_1_alg».proof.Proof.Gen.Kernel.Skeleton
import proofs.«118080_j56341380989394_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 8 -/

/-- The contraction block is the first: the accumulator is cleared before it is added to. -/
abbrev isFirst (i : grid3.Coords) : Prop := (Scalar.cmpi .ne (Scalar.extui (Scalar.cmpi .eq (BitVec.ofNat 32 (i 2).val) 0#32)) 0#32) = 1#1
/-- The contraction block is the last: the output block is stored. -/
abbrev isLast (i : grid3.Coords) : Prop := k3_cond2 i = 1#1

theorem isFirst_iff : ∀ t : Fin cfg3.N, isFirst (grid3.coords t) ↔ t.val % 8 = 0 :=
  (by decide +kernel : ∀ t : Fin grid3.N, isFirst (grid3.coords t) ↔ t.val % 8 = 0)
theorem isLast_iff : ∀ t : Fin cfg3.N, isLast (grid3.coords t) ↔ t.val % 8 = 7 :=
  (by decide +kernel : ∀ t : Fin grid3.N, isLast (grid3.coords t) ↔ t.val % 8 = 7)

/-- Off the last contraction block nothing is stored into the output window and it is not written back; -/
theorem out_idle : ∀ t : Fin cfg3.N, ¬isLast (grid3.coords t) → cfg3.idle 3 (grid3.coords t) = true := by decide +kernel
theorem out_noflush : ∀ t : Fin cfg3.N, ¬isLast (grid3.coords t) → (cfg3.win 3).flush t = false := by decide +kernel
/-- on it the window is live. -/
theorem out_live : ∀ t : Fin cfg3.N, isLast (grid3.coords t) → cfg3.idle 3 (grid3.coords t) = false := by decide +kernel
theorem in_live0 : ∀ t : Fin cfg3.N, cfg3.idle 0 (grid3.coords t) = false := by decide +kernel
theorem in_live1 : ∀ t : Fin cfg3.N, cfg3.idle 1 (grid3.coords t) = false := by decide +kernel
theorem in_live2 : ∀ t : Fin cfg3.N, cfg3.idle 2 (grid3.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid3.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hf : isFirst i) (hl : ¬isLast i)
    (x0 : Vec F S512x512 .bf16) (x1 : Vec F S1024x512 .f32) (x2 : Vec F S1x1024 .f32) (xo : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k3_pay2 x0 x1 k3_pay1)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid3.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hf : ¬isFirst i) (hl : ¬isLast i)
    (x0 : Vec F S512x512 .bf16) (x1 : Vec F S1024x512 .f32) (x2 : Vec F S1x1024 .f32) (xo : Vec F S512x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k3_pay2 x0 x1 xs)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid3.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hf : ¬isFirst i) (hl : isLast i)
    (x0 : Vec F S512x512 .bf16) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k3_pay3 (k3_pay2 x0 x1 xs) x2) ∗ owns (c : Thread nD τ) arg7 fullShare (k3_pay2 x0 x1 xs)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.Kernel.Layer3

end
-- ==== Proof.Kernel.Frame3.lean ====
/-
  One dense layer's pipeline data.  After point `n` the scratch holds the fold of the accumulate step over
  the points since the last multiple of 8: at a multiple of 8 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.Kernel.Body3

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The scratch after each point -/

/-- What the scratch holds after point `n`. -/
def accAt (c : Dev nD) : (n : ℕ) → n < cfg3.N → Vec F S512x1024 .f32
  | 0, hn => k3_pay2 (iblk V c 0 ⟨0, hn⟩) (iblk V c 1 ⟨0, hn⟩) k3_pay1
  | n + 1, hn =>
    if (n + 1) % 8 = 0 then k3_pay2 (iblk V c 0 ⟨n + 1, hn⟩) (iblk V c 1 ⟨n + 1, hn⟩) k3_pay1
    else k3_pay2 (iblk V c 0 ⟨n + 1, hn⟩) (iblk V c 1 ⟨n + 1, hn⟩) (accAt c n (Nat.lt_of_succ_lt hn))

/-- At a multiple of 8 the fold restarts from the zero fill. -/
theorem accAt_reset (c : Dev nD) (n : ℕ) (hn : n < cfg3.N) (h : n % 8 = 0) :
    accAt V c n hn = k3_pay2 (iblk V c 0 ⟨n, hn⟩) (iblk V c 1 ⟨n, hn⟩) k3_pay1 := by
  cases n with
  | zero => rfl
  | succ n => exact if_pos h

/-- Elsewhere it steps from what the point before left. -/
theorem accAt_step (c : Dev nD) (n : ℕ) (hn : n + 1 < cfg3.N) (h : ¬(n + 1) % 8 = 0) :
    accAt V c (n + 1) hn = k3_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc3_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg3.N), n = k + 1 → d = accAt V c k hk⌝ ∗ owns (c : Thread nD τ) scM fullShare d)
    ∗ Pipeline.scopedRestBut (Ix := Unit) (Name := ℕ) (U := UR sig nD τ) (Lvl := ℕ) (Val := Elt F) spec3 c [cc3_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => k3_pay3 (accAt V c t.val t.isLt) (iblk V c 2 t)
  Φ t := PhiS V c t.val
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) :
    (dat V c).after 3 t = k3_pay3 (accAt V c t.val t.isLt) (iblk V c 2 t) := by dsimp only [dat]

/-- An input's current staging buffer holds its block at every point, fetched there or not: where it is not
    fetched its block index has not moved. -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 8 says
    which run applies; the invariant hands over the scratch at what the point before left and takes it back
    at this point's fold. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st3_0 t) fullShare ((dat V c).after 0 t) from by
      unfold Dat.leavesExact; rw [in_live0 t],
    show (dat V c).leavesExact 1 t = owns (c : Thread nD τ) (st3_1 t) fullShare ((dat V c).after 1 t) from by
      unfold Dat.leavesExact; rw [in_live1 t],
    show (dat V c).leavesExact 2 t = owns (c : Thread nD τ) (st3_2 t) fullShare ((dat V c).after 2 t) from by
      unfold Dat.leavesExact; rw [in_live2 t],
    after_0, after_1, after_2]
  unfold PhiS
  by_cases h0 : t.val % 8 = 0
  · have hf := (isFirst_iff t).mpr h0
    have hl : ¬isLast (grid3.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid3.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg3.N := by have := t.isLt; omega
    have hstep : accAt V c t.val t.isLt = k3_pay2 (iblk V c 0 t) (iblk V c 1 t) (accAt V c n hnN) := by
      obtain ⟨tv, ht⟩ := t
      dsimp only at hn h0 ⊢
      subst hn
      exact accAt_step V c n ht h0
    by_cases h1 : t.val % 8 = 7
    · have hf : ¬isFirst (grid3.coords t) := fun h => h0 ((isFirst_iff t).mp h)
      have hl := (isLast_iff t).mpr h1
      rw [show (dat V c).leavesExact 3 t = owns (c : Thread nD τ) (st3_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid3.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid3.coords t) := fun h => h0 ((isFirst_iff t).mp h)
      have hl : ¬isLast (grid3.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid3.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-! ## Entering and leaving the region -/

/-- What the region is entered with — every scoped buffer that is no staging buffer at some contents, the
    generator register at some state — is the invariant before the first point. -/
theorem phi_in (c : Dev nD) : (Pipeline.ΦA spec3 c : sProp 𝕄) ⊢ (dat V c).Φ 0 := by
  rw [show (dat V c).Φ 0 = PhiS V c 0 from rfl]
  unfold Pipeline.ΦA PhiS
  rw [scopedRest3_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg3.N) ⊢ (Pipeline.ΦA spec3 c : sProp 𝕄) := by
  rw [show (dat V c).Φ (Fin.last cfg3.N) = PhiS V c cfg3.N from rfl]
  unfold Pipeline.ΦA PhiS
  rw [scopedRest3_split]
  simp only [owns_whole]
  iintro ⟨⟨%d, -, Hs⟩, Hrest, Hg⟩
  isplitl [Hs Hrest]
  · isplitl [Hs]
    · iexists d; iexact Hs
    iexact Hrest
  iexact Hg

end Cert.Kernel.Layer3

end
-- ==== Proof.Kernel.Family.lean ====
/-
  The four layers' pipelines side by side: one family of proof data indexed by the pipeline, each layer's at the
  buffer contents its region is entered with, and what rides beside the buffers between @main's items (the
  generator register at some state, the core owing nothing).
-/
import proofs.«118080_j56341380989394_1_alg».proof.Proof.Kernel.Frame0
import proofs.«118080_j56341380989394_1_alg».proof.Proof.Kernel.Frame1
import proofs.«118080_j56341380989394_1_alg».proof.Proof.Kernel.Frame2
import proofs.«118080_j56341380989394_1_alg».proof.Proof.Kernel.Frame3
import proofs.«118080_j56341380989394_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Vof (W : Dev nD → Valuation τ sig (Elt F)) : (c : Dev nD) → (b : Ref sig .tc) → Buf (Elt F) ((c : Thread nD τ).loc b) :=
  fun c b => W c b

-- the buffer contents each of the four regions is entered with
variable (Wi : Fin 4 → Dev nD → Valuation τ sig (Elt F))

/-- Every pipeline's proof data, each at its region's entry contents. -/
def pdats : (p : Fin 4) → (c : Dev nD) → Dat τ (Elt F) Unit ℕ (UR sig nD τ) ℕ (cfgs p) c
  | ⟨0, _⟩ => fun c => Layer0.dat (Vof (Wi 0)) c
  | ⟨1, _⟩ => fun c => Layer1.dat (Vof (Wi 1)) c
  | ⟨2, _⟩ => fun c => Layer2.dat (Vof (Wi 2)) c
  | ⟨3, _⟩ => fun c => Layer3.dat (Vof (Wi 3)) c

/-- No core owes another anything: no level is assigned. -/
abbrev Lz : GSem nD τ sig → Finset Unit := fun _ => ∅
abbrev lvz : GSem nD τ sig → Unit → ℕ := fun _ _ => 0

/-- What rides beside the buffers through every item of @main. -/
abbrev Rr (c : Dev nD) : sProp 𝕄 :=
  iprop((∃ r, prngReg c r) ∗ ∃ W, owes (c : Thread nD τ) (0 : CellTallies nD τ sig Unit) W)

end Cert.Kernel.Whole

end
-- ==== Proof.Kernel.Reg0.lean ====
/-
  The layer's region as one item of @main: entered with every unscoped buffer at the contents `Wi 0`, left
  with them at `Wo`, which agrees with `Wi 0` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.Kernel.Family
import Idealize.ShloMosaic.Lib.Pipeline.RegionsLoop

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 0)) c).arrAt w cfg0.N = Whole.Vof Wo c (Pipeline.arrRef spec0 w))
    (hrest : ∀ c b, b ∉ Finset.univ.image (Pipeline.arrRef spec0) → Whole.Vof Wo c b = Whole.Vof (Wi 0) c b) :
    Pipeline.RegionSeg (pcfgs (F := F)) Gen.adm (Whole.pdats Wi) () defs₀ Variants.none Whole.Lz Whole.lvz 0 where
  win := launch0.win.to₀
  block_pos := launch0.block_pos
  stage_whole := launch0.stage_whole
  K := PEmpty
  osem k := k.elim
  ho := Pipeline.OwnSemFacts.none _
  hbody c := (body_obligation (Whole.Vof (Wi 0)) c).loose
  hwaits := Pipeline.hwaits_of_owed_zero _ _ _ _ Whole.Lz Whole.lvz 0 fun _ _ => rfl
  pre c := iprop(StableHlo.held (c : Thread nD τ) (Pipeline.ucRefs τ sig) (Wi 0 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec0 c (Whole.Vof (Wi 0) c)
  hentry c := by
    rw [Pipeline.ownSems0_none]
    have hsplit := Pipeline.arrays_of_unscopedBufs (p := 0) (pcfgs (F := F)) Gen.adm (Whole.pdats Wi) launch0.win launch0.arr_whole c
      ((Whole.pdats Wi 0 c).share_full fun _ => rfl) (Whole.Vof (Wi 0) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 0)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 0)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (Whole.pdats Wi) ((Whole.pdats Wi 0 c).share_full fun _ => rfl)
      (Whole.Vof (Wi 0) c) (Whole.Vof Wo c) ((Whole.pdats Wi 0 c).arrAt · cfg0.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer0

end
-- ==== Proof.Kernel.Reg1.lean ====
/-
  The layer's region as one item of @main: entered with every unscoped buffer at the contents `Wi 1`, left
  with them at `Wo`, which agrees with `Wi 1` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.Kernel.Family
import Idealize.ShloMosaic.Lib.Pipeline.RegionsLoop

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 1)) c).arrAt w cfg1.N = Whole.Vof Wo c (Pipeline.arrRef spec1 w))
    (hrest : ∀ c b, b ∉ Finset.univ.image (Pipeline.arrRef spec1) → Whole.Vof Wo c b = Whole.Vof (Wi 1) c b) :
    Pipeline.RegionSeg (pcfgs (F := F)) Gen.adm (Whole.pdats Wi) () defs₀ Variants.none Whole.Lz Whole.lvz 1 where
  win := launch1.win.to₀
  block_pos := launch1.block_pos
  stage_whole := launch1.stage_whole
  K := PEmpty
  osem k := k.elim
  ho := Pipeline.OwnSemFacts.none _
  hbody c := (body_obligation (Whole.Vof (Wi 1)) c).loose
  hwaits := Pipeline.hwaits_of_owed_zero _ _ _ _ Whole.Lz Whole.lvz 1 fun _ _ => rfl
  pre c := iprop(StableHlo.held (c : Thread nD τ) (Pipeline.ucRefs τ sig) (Wi 1 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec1 c (Whole.Vof (Wi 1) c)
  hentry c := by
    rw [Pipeline.ownSems0_none]
    have hsplit := Pipeline.arrays_of_unscopedBufs (p := 1) (pcfgs (F := F)) Gen.adm (Whole.pdats Wi) launch1.win launch1.arr_whole c
      ((Whole.pdats Wi 1 c).share_full fun _ => rfl) (Whole.Vof (Wi 1) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 1)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 1)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (Whole.pdats Wi) ((Whole.pdats Wi 1 c).share_full fun _ => rfl)
      (Whole.Vof (Wi 1) c) (Whole.Vof Wo c) ((Whole.pdats Wi 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer1

end
-- ==== Proof.Kernel.Reg2.lean ====
/-
  The layer's region as one item of @main: entered with every unscoped buffer at the contents `Wi 2`, left
  with them at `Wo`, which agrees with `Wi 2` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.Kernel.Family
import Idealize.ShloMosaic.Lib.Pipeline.RegionsLoop

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 2)) c).arrAt w cfg2.N = Whole.Vof Wo c (Pipeline.arrRef spec2 w))
    (hrest : ∀ c b, b ∉ Finset.univ.image (Pipeline.arrRef spec2) → Whole.Vof Wo c b = Whole.Vof (Wi 2) c b) :
    Pipeline.RegionSeg (pcfgs (F := F)) Gen.adm (Whole.pdats Wi) () defs₀ Variants.none Whole.Lz Whole.lvz 2 where
  win := launch2.win.to₀
  block_pos := launch2.block_pos
  stage_whole := launch2.stage_whole
  K := PEmpty
  osem k := k.elim
  ho := Pipeline.OwnSemFacts.none _
  hbody c := (body_obligation (Whole.Vof (Wi 2)) c).loose
  hwaits := Pipeline.hwaits_of_owed_zero _ _ _ _ Whole.Lz Whole.lvz 2 fun _ _ => rfl
  pre c := iprop(StableHlo.held (c : Thread nD τ) (Pipeline.ucRefs τ sig) (Wi 2 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec2 c (Whole.Vof (Wi 2) c)
  hentry c := by
    rw [Pipeline.ownSems0_none]
    have hsplit := Pipeline.arrays_of_unscopedBufs (p := 2) (pcfgs (F := F)) Gen.adm (Whole.pdats Wi) launch2.win launch2.arr_whole c
      ((Whole.pdats Wi 2 c).share_full fun _ => rfl) (Whole.Vof (Wi 2) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 2)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 2)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (Whole.pdats Wi) ((Whole.pdats Wi 2 c).share_full fun _ => rfl)
      (Whole.Vof (Wi 2) c) (Whole.Vof Wo c) ((Whole.pdats Wi 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer2

end
-- ==== Proof.Kernel.Reg3.lean ====
/-
  The layer's region as one item of @main: entered with every unscoped buffer at the contents `Wi 3`, left
  with them at `Wo`, which agrees with `Wi 3` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.Kernel.Family
import Idealize.ShloMosaic.Lib.Pipeline.RegionsLoop

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 3)) c).arrAt w cfg3.N = Whole.Vof Wo c (Pipeline.arrRef spec3 w))
    (hrest : ∀ c b, b ∉ Finset.univ.image (Pipeline.arrRef spec3) → Whole.Vof Wo c b = Whole.Vof (Wi 3) c b) :
    Pipeline.RegionSeg (pcfgs (F := F)) Gen.adm (Whole.pdats Wi) () defs₀ Variants.none Whole.Lz Whole.lvz 3 where
  win := launch3.win.to₀
  block_pos := launch3.block_pos
  stage_whole := launch3.stage_whole
  K := PEmpty
  osem k := k.elim
  ho := Pipeline.OwnSemFacts.none _
  hbody c := (body_obligation (Whole.Vof (Wi 3)) c).loose
  hwaits := Pipeline.hwaits_of_owed_zero _ _ _ _ Whole.Lz Whole.lvz 3 fun _ _ => rfl
  pre c := iprop(StableHlo.held (c : Thread nD τ) (Pipeline.ucRefs τ sig) (Wi 3 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec3 c (Whole.Vof (Wi 3) c)
  hentry c := by
    rw [Pipeline.ownSems0_none]
    have hsplit := Pipeline.arrays_of_unscopedBufs (p := 3) (pcfgs (F := F)) Gen.adm (Whole.pdats Wi) launch3.win launch3.arr_whole c
      ((Whole.pdats Wi 3 c).share_full fun _ => rfl) (Whole.Vof (Wi 3) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 3)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 3)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (Whole.pdats Wi) ((Whole.pdats Wi 3 c).share_full fun _ => rfl)
      (Whole.Vof (Wi 3) c) (Whole.Vof Wo c) ((Whole.pdats Wi 3 c).arrAt · cfg3.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer3

end
-- ==== Proof.Kernel.Whole.lean ====
/-
  The whole program: four dense layers one after the other, each a kernel region between one-operation host
  stretches that lay a bias vector out as a row.  The buffer contents between the items are the launch
  memory, then each host stretch applied, then each region's output array replaced by what its pipeline
  writes back.  With every region's record at those contents, every weakly fair execution terminates, the
  arguments end as launched, and the result buffer ends at what the last layer's pipeline writes back.
-/
import proofs.«118080_j56341380989394_1_alg».proof.Proof.Kernel.Reg0
import proofs.«118080_j56341380989394_1_alg».proof.Proof.Kernel.Reg1
import proofs.«118080_j56341380989394_1_alg».proof.Proof.Kernel.Reg2
import proofs.«118080_j56341380989394_1_alg».proof.Proof.Kernel.Reg3
import proofs.«118080_j56341380989394_1_alg».proof.Proof.Kernel.NamedRun

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave in their output arrays -/

/-- A table of contents with the entry of the reference `r₀` replaced. -/
def put (r₀ : Ref sig .tc) (x : (c : Dev nD) → Buf (Elt F) ((c : Thread nD τ).loc r₀)) (o : Gen.Outs (F := F)) : Gen.Outs (F := F) :=
  fun J r c => if h : r = r₀ then h ▸ x c else o J r c

theorem put_same (r₀ : Ref sig .tc) (x : (c : Dev nD) → Buf (Elt F) ((c : Thread nD τ).loc r₀)) (o : Gen.Outs (F := F)) (J : ℕ) (c : Dev nD) :
    put r₀ x o J r₀ c = x c := by unfold put; rw [dif_pos rfl]
theorem put_ne (r₀ : Ref sig .tc) (x : (c : Dev nD) → Buf (Elt F) ((c : Thread nD τ).loc r₀)) (o : Gen.Outs (F := F)) (J : ℕ) (r : Ref sig .tc) (c : Dev nD)
    (h : r ≠ r₀) : put r₀ x o J r c = o J r c := by unfold put; rw [dif_neg h]

/-- The first layer's output: what its pipeline writes back from the contents after the first host stretch. -/
def outsA : Gen.Outs (F := F) :=
  put main_v1 (fun c => (Layer0.dat (Vof (Gen.V1 m)) c).arrAt 3 cfg0.N) (fun _ r c => m ((c : Thread nD τ).loc r))
/-- The second layer's, from the contents that follow with the first layer's output in place. -/
def outsB : Gen.Outs (F := F) :=
  put main_v3 (fun c => (Layer1.dat (Vof (Gen.V3 m (outsA m))) c).arrAt 3 cfg1.N) (outsA m)
/-- The third layer's. -/
def outsC : Gen.Outs (F := F) :=
  put main_v5 (fun c => (Layer2.dat (Vof (Gen.V5 m (outsB m))) c).arrAt 3 cfg2.N) (outsB m)
/-- The fourth layer's: all four outputs. -/
def outs : Gen.Outs (F := F) :=
  put main_v7 (fun c => (Layer3.dat (Vof (Gen.V7 m (outsC m))) c).arrAt 3 cfg3.N) (outsC m)

theorem outsA_main_v1 (J : ℕ) (c : Dev nD) : outsA m J main_v1 c = (Layer0.dat (Vof (Gen.V1 m)) c).arrAt 3 cfg0.N := put_same _ _ _ J c
theorem outsB_main_v1 (J : ℕ) (c : Dev nD) : outsB m J main_v1 c = outsA m J main_v1 c := put_ne _ _ _ J _ c (by decide)
theorem outsB_main_v3 (J : ℕ) (c : Dev nD) : outsB m J main_v3 c = (Layer1.dat (Vof (Gen.V3 m (outsA m))) c).arrAt 3 cfg1.N := put_same _ _ _ J c
theorem outsC_main_v1 (J : ℕ) (c : Dev nD) : outsC m J main_v1 c = outsA m J main_v1 c := (put_ne _ _ _ J _ c (by decide)).trans (outsB_main_v1 m J c)
theorem outsC_main_v3 (J : ℕ) (c : Dev nD) : outsC m J main_v3 c = outsB m J main_v3 c := put_ne _ _ _ J _ c (by decide)
theorem outsC_main_v5 (J : ℕ) (c : Dev nD) : outsC m J main_v5 c = (Layer2.dat (Vof (Gen.V5 m (outsB m))) c).arrAt 3 cfg2.N := put_same _ _ _ J c
theorem outs_v1 (J : ℕ) (c : Dev nD) : outs m J main_v1 c = outsA m J main_v1 c := (put_ne _ _ _ J _ c (by decide)).trans (outsC_main_v1 m J c)
theorem outs_v3 (J : ℕ) (c : Dev nD) : outs m J main_v3 c = outsB m J main_v3 c := (put_ne _ _ _ J _ c (by decide)).trans (outsC_main_v3 m J c)
theorem outs_v5 (J : ℕ) (c : Dev nD) : outs m J main_v5 c = outsC m J main_v5 c := put_ne _ _ _ J _ c (by decide)
theorem outs_v7 (J : ℕ) (c : Dev nD) : outs m J main_v7 c = (Layer3.dat (Vof (Gen.V7 m (outsC m))) c).arrAt 3 cfg3.N := put_same _ _ _ J c

/-! ## The contents between the items depend only on the outputs already written -/

theorem V3_congr (o o' : Gen.Outs (F := F)) (h1 : ∀ c, o 2 main_v1 c = o' 2 main_v1 c) : Gen.V3 m o = Gen.V3 m o' := by
  funext c; simp only [Gen.V3, Gen.V2, h1 c]
theorem V5_congr (o o' : Gen.Outs (F := F)) (h1 : ∀ c, o 2 main_v1 c = o' 2 main_v1 c) (h3 : ∀ c, o 4 main_v3 c = o' 4 main_v3 c) :
    Gen.V5 m o = Gen.V5 m o' := by
  funext c; simp only [Gen.V5, Gen.V4, Gen.V3, Gen.V2, h1 c, h3 c]
theorem V7_congr (o o' : Gen.Outs (F := F)) (h1 : ∀ c, o 2 main_v1 c = o' 2 main_v1 c) (h3 : ∀ c, o 4 main_v3 c = o' 4 main_v3 c)
    (h5 : ∀ c, o 6 main_v5 c = o' 6 main_v5 c) : Gen.V7 m o = Gen.V7 m o' := by
  funext c; simp only [Gen.V7, Gen.V6, Gen.V5, Gen.V4, Gen.V3, Gen.V2, h1 c, h3 c, h5 c]

theorem V3_outs : Gen.V3 m (outs m) = Gen.V3 m (outsA m) := V3_congr m _ _ (fun c => outs_v1 m 2 c)
theorem V5_outs : Gen.V5 m (outs m) = Gen.V5 m (outsB m) :=
  V5_congr m _ _ (fun c => (outs_v1 m 2 c).trans (outsB_main_v1 m 2 c).symm) (fun c => outs_v3 m 4 c)
theorem V7_outs : Gen.V7 m (outs m) = Gen.V7 m (outsC m) :=
  V7_congr m _ _ (fun c => (outs_v1 m 2 c).trans (outsC_main_v1 m 2 c).symm) (fun c => (outs_v3 m 4 c).trans (outsC_main_v3 m 4 c).symm)
    (fun c => outs_v5 m 6 c)

/-- Right after a region the table's entry is what its output array holds. -/
theorem V2_v1 (o : Gen.Outs (F := F)) (c : Dev nD) : Gen.V2 m o c main_v1 = o 2 main_v1 c := by
  simp only [Gen.V2, Function.update_self]
theorem V4_v3 (o : Gen.Outs (F := F)) (c : Dev nD) : Gen.V4 m o c main_v3 = o 4 main_v3 c := by
  simp only [Gen.V4, Function.update_self]
theorem V6_v5 (o : Gen.Outs (F := F)) (c : Dev nD) : Gen.V6 m o c main_v5 = o 6 main_v5 c := by
  simp only [Gen.V6, Function.update_self]
theorem V8_v7 (o : Gen.Outs (F := F)) (c : Dev nD) : Gen.V8 m o c main_v7 = o 8 main_v7 c := by
  simp only [Gen.V8, Function.update_self]

/-! ## The regions' entry contents, and what each leaves, over the one table -/

/-- The contents each region is entered with. -/
def Wi : Fin 4 → Dev nD → Valuation τ sig (Elt F)
  | ⟨0, _⟩ => Gen.V1 m
  | ⟨1, _⟩ => Gen.V3 m (outs m)
  | ⟨2, _⟩ => Gen.V5 m (outs m)
  | ⟨3, _⟩ => Gen.V7 m (outs m)

theorem outs_main_v1 (J : ℕ) (c : Dev nD) : outs m J main_v1 c = (Layer0.dat (Vof (Wi m 0)) c).arrAt 3 cfg0.N :=
  (outs_v1 m J c).trans (outsA_main_v1 m J c)
theorem outs_main_v3 (J : ℕ) (c : Dev nD) : outs m J main_v3 c = (Layer1.dat (Vof (Wi m 1)) c).arrAt 3 cfg1.N := by
  rw [outs_v3, outsB_main_v3, show Wi m 1 = Gen.V3 m (outs m) from rfl, V3_outs]
theorem outs_main_v5 (J : ℕ) (c : Dev nD) : outs m J main_v5 c = (Layer2.dat (Vof (Wi m 2)) c).arrAt 3 cfg2.N := by
  rw [outs_v5, outsC_main_v5, show Wi m 2 = Gen.V5 m (outs m) from rfl, V5_outs]
theorem outs_main_v7 (J : ℕ) (c : Dev nD) : outs m J main_v7 c = (Layer3.dat (Vof (Wi m 3)) c).arrAt 3 cfg3.N := by
  rw [outs_v7, show Wi m 3 = Gen.V7 m (outs m) from rfl, V7_outs]

/-- Region 0 leaves its input arrays as it found them and its output array at what the pipeline wrote back; -/
theorem hF0 (c : Dev nD) (w : Fin cfg0.W) :
    (Layer0.dat (Vof (Wi m 0)) c).arrAt w cfg0.N = Vof (Gen.V2 m (outs m)) c (Pipeline.arrRef spec0 w) := by
  match w with
  | ⟨0, _⟩ => exact ((Layer0.dat (Vof (Wi m 0)) c).arrAt_in 0 rfl _).trans ((Layer0.A_eq (Vof (Wi m 0)) c 0).trans (Gen.V2_of m (outs m) c main_arg0 (by decide)).symm)
  | ⟨1, _⟩ => exact ((Layer0.dat (Vof (Wi m 0)) c).arrAt_in 1 rfl _).trans ((Layer0.A_eq (Vof (Wi m 0)) c 1).trans (Gen.V2_of m (outs m) c main_arg1 (by decide)).symm)
  | ⟨2, _⟩ => exact ((Layer0.dat (Vof (Wi m 0)) c).arrAt_in 2 rfl _).trans ((Layer0.A_eq (Vof (Wi m 0)) c 2).trans (Gen.V2_of m (outs m) c main_v0 (by decide)).symm)
  | ⟨3, _⟩ => exact (outs_main_v1 m 2 c).symm.trans (V2_v1 m (outs m) c).symm
/-- and every buffer that is none of its arrays as it found it. -/
theorem hrest0 (c : Dev nD) (b : Ref sig .tc) (hb : b ∉ Finset.univ.image (Pipeline.arrRef spec0)) :
    Vof (Gen.V2 m (outs m)) c b = Vof (Wi m 0) c b :=
  Gen.V2_of m (outs m) c b (fun h => hb (by
    rw [List.mem_singleton] at h; subst h
    exact Finset.mem_image.mpr ⟨3, Finset.mem_univ _, rfl⟩))

/-- Region 1 leaves its input arrays as it found them and its output array at what the pipeline wrote back; -/
theorem hF1 (c : Dev nD) (w : Fin cfg1.W) :
    (Layer1.dat (Vof (Wi m 1)) c).arrAt w cfg1.N = Vof (Gen.V4 m (outs m)) c (Pipeline.arrRef spec1 w) := by
  match w with
  | ⟨0, _⟩ => exact ((Layer1.dat (Vof (Wi m 1)) c).arrAt_in 0 rfl _).trans ((Layer1.A_eq (Vof (Wi m 1)) c 0).trans (Gen.V4_of m (outs m) c main_v1 (by decide)).symm)
  | ⟨1, _⟩ => exact ((Layer1.dat (Vof (Wi m 1)) c).arrAt_in 1 rfl _).trans ((Layer1.A_eq (Vof (Wi m 1)) c 1).trans (Gen.V4_of m (outs m) c main_arg3 (by decide)).symm)
  | ⟨2, _⟩ => exact ((Layer1.dat (Vof (Wi m 1)) c).arrAt_in 2 rfl _).trans ((Layer1.A_eq (Vof (Wi m 1)) c 2).trans (Gen.V4_of m (outs m) c main_v2 (by decide)).symm)
  | ⟨3, _⟩ => exact (outs_main_v3 m 4 c).symm.trans (V4_v3 m (outs m) c).symm
/-- and every buffer that is none of its arrays as it found it. -/
theorem hrest1 (c : Dev nD) (b : Ref sig .tc) (hb : b ∉ Finset.univ.image (Pipeline.arrRef spec1)) :
    Vof (Gen.V4 m (outs m)) c b = Vof (Wi m 1) c b :=
  Gen.V4_of m (outs m) c b (fun h => hb (by
    rw [List.mem_singleton] at h; subst h
    exact Finset.mem_image.mpr ⟨3, Finset.mem_univ _, rfl⟩))

/-- Region 2 leaves its input arrays as it found them and its output array at what the pipeline wrote back; -/
theorem hF2 (c : Dev nD) (w : Fin cfg2.W) :
    (Layer2.dat (Vof (Wi m 2)) c).arrAt w cfg2.N = Vof (Gen.V6 m (outs m)) c (Pipeline.arrRef spec2 w) := by
  match w with
  | ⟨0, _⟩ => exact ((Layer2.dat (Vof (Wi m 2)) c).arrAt_in 0 rfl _).trans ((Layer2.A_eq (Vof (Wi m 2)) c 0).trans (Gen.V6_of m (outs m) c main_v3 (by decide)).symm)
  | ⟨1, _⟩ => exact ((Layer2.dat (Vof (Wi m 2)) c).arrAt_in 1 rfl _).trans ((Layer2.A_eq (Vof (Wi m 2)) c 1).trans (Gen.V6_of m (outs m) c main_arg5 (by decide)).symm)
  | ⟨2, _⟩ => exact ((Layer2.dat (Vof (Wi m 2)) c).arrAt_in 2 rfl _).trans ((Layer2.A_eq (Vof (Wi m 2)) c 2).trans (Gen.V6_of m (outs m) c main_v4 (by decide)).symm)
  | ⟨3, _⟩ => exact (outs_main_v5 m 6 c).symm.trans (V6_v5 m (outs m) c).symm
/-- and every buffer that is none of its arrays as it found it. -/
theorem hrest2 (c : Dev nD) (b : Ref sig .tc) (hb : b ∉ Finset.univ.image (Pipeline.arrRef spec2)) :
    Vof (Gen.V6 m (outs m)) c b = Vof (Wi m 2) c b :=
  Gen.V6_of m (outs m) c b (fun h => hb (by
    rw [List.mem_singleton] at h; subst h
    exact Finset.mem_image.mpr ⟨3, Finset.mem_univ _, rfl⟩))

/-- Region 3 leaves its input arrays as it found them and its output array at what the pipeline wrote back; -/
theorem hF3 (c : Dev nD) (w : Fin cfg3.W) :
    (Layer3.dat (Vof (Wi m 3)) c).arrAt w cfg3.N = Vof (Gen.V8 m (outs m)) c (Pipeline.arrRef spec3 w) := by
  match w with
  | ⟨0, _⟩ => exact ((Layer3.dat (Vof (Wi m 3)) c).arrAt_in 0 rfl _).trans ((Layer3.A_eq (Vof (Wi m 3)) c 0).trans (Gen.V8_of m (outs m) c main_v5 (by decide)).symm)
  | ⟨1, _⟩ => exact ((Layer3.dat (Vof (Wi m 3)) c).arrAt_in 1 rfl _).trans ((Layer3.A_eq (Vof (Wi m 3)) c 1).trans (Gen.V8_of m (outs m) c main_arg7 (by decide)).symm)
  | ⟨2, _⟩ => exact ((Layer3.dat (Vof (Wi m 3)) c).arrAt_in 2 rfl _).trans ((Layer3.A_eq (Vof (Wi m 3)) c 2).trans (Gen.V8_of m (outs m) c main_v6 (by decide)).symm)
  | ⟨3, _⟩ => exact (outs_main_v7 m 8 c).symm.trans (V8_v7 m (outs m) c).symm
/-- and every buffer that is none of its arrays as it found it. -/
theorem hrest3 (c : Dev nD) (b : Ref sig .tc) (hb : b ∉ Finset.univ.image (Pipeline.arrRef spec3)) :
    Vof (Gen.V8 m (outs m)) c b = Vof (Wi m 3) c b :=
  Gen.V8_of m (outs m) c b (fun h => hb (by
    rw [List.mem_singleton] at h; subst h
    exact Finset.mem_image.mpr ⟨3, Finset.mem_univ _, rfl⟩))

/-! ## The run -/

set_option backward.isDefEq.respectTransparency.types false in
/-- Every weakly fair execution of @main from memory `m` with zero counters terminates; the result buffer ends
    at the last valuation's contents for it and every argument as launched. At any float instance. -/
theorem run (ρ : Dev nD → PrngReg) :
    θ_run defs (onTc (τ := τ) (main (F := F))) ⟨m, fun _ => 0, ρ⟩ (fun r => ∀ c : Dev nD,
      r.2.mem ((c.tc : Thread nD τ).loc main_v7) = Gen.V8 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_named m (emb₁ : Emb (URounds (GSem nD τ sig) Unit) 𝕄) () Variants.none Lz lvz (fun _ _ => rfl) ρ (outs m) (pdats (Wi m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := Layer0.reg (Wi m) (Gen.V2 m (outs m)) (hF0 m) (hrest0 m)) (hpre0 := fun _ => .rfl) (hpost0 := fun _ => .rfl)
    (R1 := Layer1.reg (Wi m) (Gen.V4 m (outs m)) (hF1 m) (hrest1 m)) (hpre1 := fun _ => .rfl) (hpost1 := fun _ => .rfl)
    (R2 := Layer2.reg (Wi m) (Gen.V6 m (outs m)) (hF2 m) (hrest2 m)) (hpre2 := fun _ => .rfl) (hpost2 := fun _ => .rfl)
    (R3 := Layer3.reg (Wi m) (Gen.V8 m (outs m)) (hF3 m) (hrest3 m)) (hpre3 := fun _ => .rfl) (hpost3 := fun _ => .rfl)

end Cert.Kernel.Whole

end
-- ==== Proof.KernelIdeal.Body0.lean ====
/-
  One dense layer's kernel, point by point.  The grid is (row block, column block, contraction block), the
  contraction block innermost.  A scratch accumulator is cleared where the contraction block is the first,
  every point adds the product of its activation block and its transposed weight block to it, and where the
  contraction block is the last the accumulator plus the bias row, clamped below at zero, is stored to the output block.
  Here: what the scratch holds after each point (a fold that restarts every 4 points), the body's run in
  each of the three positions of a point, the proof data of the pipeline over it, and the body obligation —
  all at a parameter `V`, the buffers' contents when the region is entered, and at any float instance.
-/
import proofs.«118080_j56341380989394_1_alg».proof.Proof.Gen.KernelIdeal.Launch
import proofs.«118080_j56341380989394_1_alg».proof.Proof.Gen.KernelIdeal.Skeleton
import proofs.«118080_j56341380989394_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 4 -/

/-- The contraction block is the first: the accumulator is cleared before it is added to. -/
abbrev isFirst (i : grid0.Coords) : Prop := (Scalar.cmpi .ne (Scalar.extui (Scalar.cmpi .eq (BitVec.ofNat 32 (i 2).val) 0#32)) 0#32) = 1#1
/-- The contraction block is the last: the output block is stored. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- Off the last contraction block nothing is stored into the output window and it is not written back; -/
theorem out_idle : ∀ t : Fin cfg0.N, ¬isLast (grid0.coords t) → cfg0.idle 3 (grid0.coords t) = true := by decide +kernel
theorem out_noflush : ∀ t : Fin cfg0.N, ¬isLast (grid0.coords t) → (cfg0.win 3).flush t = false := by decide +kernel
/-- on it the window is live. -/
theorem out_live : ∀ t : Fin cfg0.N, isLast (grid0.coords t) → cfg0.idle 3 (grid0.coords t) = false := by decide +kernel
theorem in_live0 : ∀ t : Fin cfg0.N, cfg0.idle 0 (grid0.coords t) = false := by decide +kernel
theorem in_live1 : ∀ t : Fin cfg0.N, cfg0.idle 1 (grid0.coords t) = false := by decide +kernel
theorem in_live2 : ∀ t : Fin cfg0.N, cfg0.idle 2 (grid0.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst i) (hl : ¬isLast i)
    (x0 : Vec F S512x512 .f32) (x1 : Vec F S1024x512 .f32) (x2 : Vec F S1x1024 .f32) (xo : Vec F S512x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay2 x0 x1 k0_pay1)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : ¬isLast i)
    (x0 : Vec F S512x512 .f32) (x1 : Vec F S1024x512 .f32) (x2 : Vec F S1x1024 .f32) (xo : Vec F S512x1024 .bf16) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay2 x0 x1 xs)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : isLast i)
    (x0 : Vec F S512x512 .f32) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (k0_pay2 x0 x1 xs) x2) ∗ owns (c : Thread nD τ) arg7 fullShare (k0_pay2 x0 x1 xs)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.KernelIdeal.Layer0

end
-- ==== Proof.KernelIdeal.Frame0.lean ====
/-
  One dense layer's pipeline data.  After point `n` the scratch holds the fold of the accumulate step over
  the points since the last multiple of 4: at a multiple of 4 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.KernelIdeal.Body0

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The scratch after each point -/

/-- What the scratch holds after point `n`. -/
def accAt (c : Dev nD) : (n : ℕ) → n < cfg0.N → Vec F S512x1024 .f32
  | 0, hn => k0_pay2 (iblk V c 0 ⟨0, hn⟩) (iblk V c 1 ⟨0, hn⟩) k0_pay1
  | n + 1, hn =>
    if (n + 1) % 4 = 0 then k0_pay2 (iblk V c 0 ⟨n + 1, hn⟩) (iblk V c 1 ⟨n + 1, hn⟩) k0_pay1
    else k0_pay2 (iblk V c 0 ⟨n + 1, hn⟩) (iblk V c 1 ⟨n + 1, hn⟩) (accAt c n (Nat.lt_of_succ_lt hn))

/-- At a multiple of 4 the fold restarts from the zero fill. -/
theorem accAt_reset (c : Dev nD) (n : ℕ) (hn : n < cfg0.N) (h : n % 4 = 0) :
    accAt V c n hn = k0_pay2 (iblk V c 0 ⟨n, hn⟩) (iblk V c 1 ⟨n, hn⟩) k0_pay1 := by
  cases n with
  | zero => rfl
  | succ n => exact if_pos h

/-- Elsewhere it steps from what the point before left. -/
theorem accAt_step (c : Dev nD) (n : ℕ) (hn : n + 1 < cfg0.N) (h : ¬(n + 1) % 4 = 0) :
    accAt V c (n + 1) hn = k0_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc0_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg0.N), n = k + 1 → d = accAt V c k hk⌝ ∗ owns (c : Thread nD τ) scM fullShare d)
    ∗ Pipeline.scopedRestBut (Ix := Unit) (Name := ℕ) (U := UR sig nD τ) (Lvl := ℕ) (Val := Elt F) spec0 c [cc0_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt) (iblk V c 2 t)
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = k0_pay3 (accAt V c t.val t.isLt) (iblk V c 2 t) := by dsimp only [dat]

/-- An input's current staging buffer holds its block at every point, fetched there or not: where it is not
    fetched its block index has not moved. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 4 says
    which run applies; the invariant hands over the scratch at what the point before left and takes it back
    at this point's fold. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st0_0 t) fullShare ((dat V c).after 0 t) from by
      unfold Dat.leavesExact; rw [in_live0 t],
    show (dat V c).leavesExact 1 t = owns (c : Thread nD τ) (st0_1 t) fullShare ((dat V c).after 1 t) from by
      unfold Dat.leavesExact; rw [in_live1 t],
    show (dat V c).leavesExact 2 t = owns (c : Thread nD τ) (st0_2 t) fullShare ((dat V c).after 2 t) from by
      unfold Dat.leavesExact; rw [in_live2 t],
    after_0, after_1, after_2]
  unfold PhiS
  by_cases h0 : t.val % 4 = 0
  · have hf := (isFirst_iff t).mpr h0
    have hl : ¬isLast (grid0.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid0.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg0.N := by have := t.isLt; omega
    have hstep : accAt V c t.val t.isLt = k0_pay2 (iblk V c 0 t) (iblk V c 1 t) (accAt V c n hnN) := by
      obtain ⟨tv, ht⟩ := t
      dsimp only at hn h0 ⊢
      subst hn
      exact accAt_step V c n ht h0
    by_cases h1 : t.val % 4 = 3
    · have hf : ¬isFirst (grid0.coords t) := fun h => h0 ((isFirst_iff t).mp h)
      have hl := (isLast_iff t).mpr h1
      rw [show (dat V c).leavesExact 3 t = owns (c : Thread nD τ) (st0_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid0.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid0.coords t) := fun h => h0 ((isFirst_iff t).mp h)
      have hl : ¬isLast (grid0.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid0.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## Entering and leaving the region -/

/-- What the region is entered with — every scoped buffer that is no staging buffer at some contents, the
    generator register at some state — is the invariant before the first point. -/
theorem phi_in (c : Dev nD) : (Pipeline.ΦA spec0 c : sProp 𝕄) ⊢ (dat V c).Φ 0 := by
  rw [show (dat V c).Φ 0 = PhiS V c 0 from rfl]
  unfold Pipeline.ΦA PhiS
  rw [scopedRest0_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg0.N) ⊢ (Pipeline.ΦA spec0 c : sProp 𝕄) := by
  rw [show (dat V c).Φ (Fin.last cfg0.N) = PhiS V c cfg0.N from rfl]
  unfold Pipeline.ΦA PhiS
  rw [scopedRest0_split]
  simp only [owns_whole]
  iintro ⟨⟨%d, -, Hs⟩, Hrest, Hg⟩
  isplitl [Hs Hrest]
  · isplitl [Hs]
    · iexists d; iexact Hs
    iexact Hrest
  iexact Hg

end Cert.KernelIdeal.Layer0

end
-- ==== Proof.KernelIdeal.Body1.lean ====
/-
  One dense layer's kernel, point by point.  The grid is (row block, column block, contraction block), the
  contraction block innermost.  A scratch accumulator is cleared where the contraction block is the first,
  every point adds the product of its activation block and its transposed weight block to it, and where the
  contraction block is the last the accumulator plus the bias row, clamped below at zero, is stored to the output block.
  Here: what the scratch holds after each point (a fold that restarts every 8 points), the body's run in
  each of the three positions of a point, the proof data of the pipeline over it, and the body obligation —
  all at a parameter `V`, the buffers' contents when the region is entered, and at any float instance.
-/
import proofs.«118080_j56341380989394_1_alg».proof.Proof.Gen.KernelIdeal.Launch
import proofs.«118080_j56341380989394_1_alg».proof.Proof.Gen.KernelIdeal.Skeleton
import proofs.«118080_j56341380989394_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 8 -/

/-- The contraction block is the first: the accumulator is cleared before it is added to. -/
abbrev isFirst (i : grid1.Coords) : Prop := (Scalar.cmpi .ne (Scalar.extui (Scalar.cmpi .eq (BitVec.ofNat 32 (i 2).val) 0#32)) 0#32) = 1#1
/-- The contraction block is the last: the output block is stored. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-- Off the last contraction block nothing is stored into the output window and it is not written back; -/
theorem out_idle : ∀ t : Fin cfg1.N, ¬isLast (grid1.coords t) → cfg1.idle 3 (grid1.coords t) = true := by decide +kernel
theorem out_noflush : ∀ t : Fin cfg1.N, ¬isLast (grid1.coords t) → (cfg1.win 3).flush t = false := by decide +kernel
/-- on it the window is live. -/
theorem out_live : ∀ t : Fin cfg1.N, isLast (grid1.coords t) → cfg1.idle 3 (grid1.coords t) = false := by decide +kernel
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid1.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst i) (hl : ¬isLast i)
    (x0 : Vec F S512x512 .bf16) (x1 : Vec F S1024x512 .f32) (x2 : Vec F S1x1024 .f32) (xo : Vec F S512x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k1_pay2 x0 x1 k1_pay1)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid1.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : ¬isLast i)
    (x0 : Vec F S512x512 .bf16) (x1 : Vec F S1024x512 .f32) (x2 : Vec F S1x1024 .f32) (xo : Vec F S512x1024 .bf16) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k1_pay2 x0 x1 xs)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid1.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : isLast i)
    (x0 : Vec F S512x512 .bf16) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.KernelIdeal.Layer1

end
-- ==== Proof.KernelIdeal.Frame1.lean ====
/-
  One dense layer's pipeline data.  After point `n` the scratch holds the fold of the accumulate step over
  the points since the last multiple of 8: at a multiple of 8 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.KernelIdeal.Body1

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch after each point -/

/-- What the scratch holds after point `n`. -/
def accAt (c : Dev nD) : (n : ℕ) → n < cfg1.N → Vec F S512x1024 .f32
  | 0, hn => k1_pay2 (iblk V c 0 ⟨0, hn⟩) (iblk V c 1 ⟨0, hn⟩) k1_pay1
  | n + 1, hn =>
    if (n + 1) % 8 = 0 then k1_pay2 (iblk V c 0 ⟨n + 1, hn⟩) (iblk V c 1 ⟨n + 1, hn⟩) k1_pay1
    else k1_pay2 (iblk V c 0 ⟨n + 1, hn⟩) (iblk V c 1 ⟨n + 1, hn⟩) (accAt c n (Nat.lt_of_succ_lt hn))

/-- At a multiple of 8 the fold restarts from the zero fill. -/
theorem accAt_reset (c : Dev nD) (n : ℕ) (hn : n < cfg1.N) (h : n % 8 = 0) :
    accAt V c n hn = k1_pay2 (iblk V c 0 ⟨n, hn⟩) (iblk V c 1 ⟨n, hn⟩) k1_pay1 := by
  cases n with
  | zero => rfl
  | succ n => exact if_pos h

/-- Elsewhere it steps from what the point before left. -/
theorem accAt_step (c : Dev nD) (n : ℕ) (hn : n + 1 < cfg1.N) (h : ¬(n + 1) % 8 = 0) :
    accAt V c (n + 1) hn = k1_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc1_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg1.N), n = k + 1 → d = accAt V c k hk⌝ ∗ owns (c : Thread nD τ) scM fullShare d)
    ∗ Pipeline.scopedRestBut (Ix := Unit) (Name := ℕ) (U := UR sig nD τ) (Lvl := ℕ) (Val := Elt F) spec1 c [cc1_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay3 (accAt V c t.val t.isLt) (iblk V c 2 t)
  Φ t := PhiS V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = k1_pay3 (accAt V c t.val t.isLt) (iblk V c 2 t) := by dsimp only [dat]

/-- An input's current staging buffer holds its block at every point, fetched there or not: where it is not
    fetched its block index has not moved. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 8 says
    which run applies; the invariant hands over the scratch at what the point before left and takes it back
    at this point's fold. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st1_0 t) fullShare ((dat V c).after 0 t) from by
      unfold Dat.leavesExact; rw [in_live0 t],
    show (dat V c).leavesExact 1 t = owns (c : Thread nD τ) (st1_1 t) fullShare ((dat V c).after 1 t) from by
      unfold Dat.leavesExact; rw [in_live1 t],
    show (dat V c).leavesExact 2 t = owns (c : Thread nD τ) (st1_2 t) fullShare ((dat V c).after 2 t) from by
      unfold Dat.leavesExact; rw [in_live2 t],
    after_0, after_1, after_2]
  unfold PhiS
  by_cases h0 : t.val % 8 = 0
  · have hf := (isFirst_iff t).mpr h0
    have hl : ¬isLast (grid1.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid1.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg1.N := by have := t.isLt; omega
    have hstep : accAt V c t.val t.isLt = k1_pay2 (iblk V c 0 t) (iblk V c 1 t) (accAt V c n hnN) := by
      obtain ⟨tv, ht⟩ := t
      dsimp only at hn h0 ⊢
      subst hn
      exact accAt_step V c n ht h0
    by_cases h1 : t.val % 8 = 7
    · have hf : ¬isFirst (grid1.coords t) := fun h => h0 ((isFirst_iff t).mp h)
      have hl := (isLast_iff t).mpr h1
      rw [show (dat V c).leavesExact 3 t = owns (c : Thread nD τ) (st1_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid1.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid1.coords t) := fun h => h0 ((isFirst_iff t).mp h)
      have hl : ¬isLast (grid1.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid1.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the region is entered with — every scoped buffer that is no staging buffer at some contents, the
    generator register at some state — is the invariant before the first point. -/
theorem phi_in (c : Dev nD) : (Pipeline.ΦA spec1 c : sProp 𝕄) ⊢ (dat V c).Φ 0 := by
  rw [show (dat V c).Φ 0 = PhiS V c 0 from rfl]
  unfold Pipeline.ΦA PhiS
  rw [scopedRest1_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg1.N) ⊢ (Pipeline.ΦA spec1 c : sProp 𝕄) := by
  rw [show (dat V c).Φ (Fin.last cfg1.N) = PhiS V c cfg1.N from rfl]
  unfold Pipeline.ΦA PhiS
  rw [scopedRest1_split]
  simp only [owns_whole]
  iintro ⟨⟨%d, -, Hs⟩, Hrest, Hg⟩
  isplitl [Hs Hrest]
  · isplitl [Hs]
    · iexists d; iexact Hs
    iexact Hrest
  iexact Hg

end Cert.KernelIdeal.Layer1

end
-- ==== Proof.KernelIdeal.Body2.lean ====
/-
  One dense layer's kernel, point by point.  The grid is (row block, column block, contraction block), the
  contraction block innermost.  A scratch accumulator is cleared where the contraction block is the first,
  every point adds the product of its activation block and its transposed weight block to it, and where the
  contraction block is the last the accumulator plus the bias row, clamped below at zero, is stored to the output block.
  Here: what the scratch holds after each point (a fold that restarts every 8 points), the body's run in
  each of the three positions of a point, the proof data of the pipeline over it, and the body obligation —
  all at a parameter `V`, the buffers' contents when the region is entered, and at any float instance.
-/
import proofs.«118080_j56341380989394_1_alg».proof.Proof.Gen.KernelIdeal.Launch
import proofs.«118080_j56341380989394_1_alg».proof.Proof.Gen.KernelIdeal.Skeleton
import proofs.«118080_j56341380989394_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 8 -/

/-- The contraction block is the first: the accumulator is cleared before it is added to. -/
abbrev isFirst (i : grid2.Coords) : Prop := (Scalar.cmpi .ne (Scalar.extui (Scalar.cmpi .eq (BitVec.ofNat 32 (i 2).val) 0#32)) 0#32) = 1#1
/-- The contraction block is the last: the output block is stored. -/
abbrev isLast (i : grid2.Coords) : Prop := k2_cond2 i = 1#1

theorem isFirst_iff : ∀ t : Fin cfg2.N, isFirst (grid2.coords t) ↔ t.val % 8 = 0 :=
  (by decide +kernel : ∀ t : Fin grid2.N, isFirst (grid2.coords t) ↔ t.val % 8 = 0)
theorem isLast_iff : ∀ t : Fin cfg2.N, isLast (grid2.coords t) ↔ t.val % 8 = 7 :=
  (by decide +kernel : ∀ t : Fin grid2.N, isLast (grid2.coords t) ↔ t.val % 8 = 7)

/-- Off the last contraction block nothing is stored into the output window and it is not written back; -/
theorem out_idle : ∀ t : Fin cfg2.N, ¬isLast (grid2.coords t) → cfg2.idle 3 (grid2.coords t) = true := by decide +kernel
theorem out_noflush : ∀ t : Fin cfg2.N, ¬isLast (grid2.coords t) → (cfg2.win 3).flush t = false := by decide +kernel
/-- on it the window is live. -/
theorem out_live : ∀ t : Fin cfg2.N, isLast (grid2.coords t) → cfg2.idle 3 (grid2.coords t) = false := by decide +kernel
theorem in_live0 : ∀ t : Fin cfg2.N, cfg2.idle 0 (grid2.coords t) = false := by decide +kernel
theorem in_live1 : ∀ t : Fin cfg2.N, cfg2.idle 1 (grid2.coords t) = false := by decide +kernel
theorem in_live2 : ∀ t : Fin cfg2.N, cfg2.idle 2 (grid2.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid2.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst i) (hl : ¬isLast i)
    (x0 : Vec F S512x512 .bf16) (x1 : Vec F S1024x512 .f32) (x2 : Vec F S1x1024 .f32) (xo : Vec F S512x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k2_pay2 x0 x1 k2_pay1)) -∗ K ⟨⟩))
      ⊢ wp frame (wpE (defs₀ (F := F)) Variants.none c none) E (cc2__linear_kernel i arg3 harg3 arg4 harg4 arg5 harg5 arg6 harg6 arg7 harg7) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid2.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : ¬isLast i)
    (x0 : Vec F S512x512 .bf16) (x1 : Vec F S1024x512 .f32) (x2 : Vec F S1x1024 .f32) (xo : Vec F S512x1024 .bf16) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k2_pay2 x0 x1 xs)) -∗ K ⟨⟩))
      ⊢ wp frame (wpE (defs₀ (F := F)) Variants.none c none) E (cc2__linear_kernel i arg3 harg3 arg4 harg4 arg5 harg5 arg6 harg6 arg7 harg7) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid2.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst i) (hl : isLast i)
    (x0 : Vec F S512x512 .bf16) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k2_pay3 (k2_pay2 x0 x1 xs) x2) ∗ owns (c : Thread nD τ) arg7 fullShare (k2_pay2 x0 x1 xs)) -∗ K ⟨⟩))
      ⊢ wp frame (wpE (defs₀ (F := F)) Variants.none c none) E (cc2__linear_kernel i arg3 harg3 arg4 harg4 arg5 harg5 arg6 harg6 arg7 harg7) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.KernelIdeal.Layer2

end
-- ==== Proof.KernelIdeal.Frame2.lean ====
/-
  One dense layer's pipeline data.  After point `n` the scratch holds the fold of the accumulate step over
  the points since the last multiple of 8: at a multiple of 8 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.KernelIdeal.Body2

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch after each point -/

/-- What the scratch holds after point `n`. -/
def accAt (c : Dev nD) : (n : ℕ) → n < cfg2.N → Vec F S512x1024 .f32
  | 0, hn => k2_pay2 (iblk V c 0 ⟨0, hn⟩) (iblk V c 1 ⟨0, hn⟩) k2_pay1
  | n + 1, hn =>
    if (n + 1) % 8 = 0 then k2_pay2 (iblk V c 0 ⟨n + 1, hn⟩) (iblk V c 1 ⟨n + 1, hn⟩) k2_pay1
    else k2_pay2 (iblk V c 0 ⟨n + 1, hn⟩) (iblk V c 1 ⟨n + 1, hn⟩) (accAt c n (Nat.lt_of_succ_lt hn))

/-- At a multiple of 8 the fold restarts from the zero fill. -/
theorem accAt_reset (c : Dev nD) (n : ℕ) (hn : n < cfg2.N) (h : n % 8 = 0) :
    accAt V c n hn = k2_pay2 (iblk V c 0 ⟨n, hn⟩) (iblk V c 1 ⟨n, hn⟩) k2_pay1 := by
  cases n with
  | zero => rfl
  | succ n => exact if_pos h

/-- Elsewhere it steps from what the point before left. -/
theorem accAt_step (c : Dev nD) (n : ℕ) (hn : n + 1 < cfg2.N) (h : ¬(n + 1) % 8 = 0) :
    accAt V c (n + 1) hn = k2_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc2_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg2.N), n = k + 1 → d = accAt V c k hk⌝ ∗ owns (c : Thread nD τ) scM fullShare d)
    ∗ Pipeline.scopedRestBut (Ix := Unit) (Name := ℕ) (U := UR sig nD τ) (Lvl := ℕ) (Val := Elt F) spec2 c [cc2_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accAt V c t.val t.isLt) (iblk V c 2 t)
  Φ t := PhiS V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) :
    (dat V c).after 3 t = k2_pay3 (accAt V c t.val t.isLt) (iblk V c 2 t) := by dsimp only [dat]

/-- An input's current staging buffer holds its block at every point, fetched there or not: where it is not
    fetched its block index has not moved. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 8 says
    which run applies; the invariant hands over the scratch at what the point before left and takes it back
    at this point's fold. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st2_0 t) fullShare ((dat V c).after 0 t) from by
      unfold Dat.leavesExact; rw [in_live0 t],
    show (dat V c).leavesExact 1 t = owns (c : Thread nD τ) (st2_1 t) fullShare ((dat V c).after 1 t) from by
      unfold Dat.leavesExact; rw [in_live1 t],
    show (dat V c).leavesExact 2 t = owns (c : Thread nD τ) (st2_2 t) fullShare ((dat V c).after 2 t) from by
      unfold Dat.leavesExact; rw [in_live2 t],
    after_0, after_1, after_2]
  unfold PhiS
  by_cases h0 : t.val % 8 = 0
  · have hf := (isFirst_iff t).mpr h0
    have hl : ¬isLast (grid2.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid2.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg2.N := by have := t.isLt; omega
    have hstep : accAt V c t.val t.isLt = k2_pay2 (iblk V c 0 t) (iblk V c 1 t) (accAt V c n hnN) := by
      obtain ⟨tv, ht⟩ := t
      dsimp only at hn h0 ⊢
      subst hn
      exact accAt_step V c n ht h0
    by_cases h1 : t.val % 8 = 7
    · have hf : ¬isFirst (grid2.coords t) := fun h => h0 ((isFirst_iff t).mp h)
      have hl := (isLast_iff t).mpr h1
      rw [show (dat V c).leavesExact 3 t = owns (c : Thread nD τ) (st2_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid2.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid2.coords t) := fun h => h0 ((isFirst_iff t).mp h)
      have hl : ¬isLast (grid2.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid2.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-! ## Entering and leaving the region -/

/-- What the region is entered with — every scoped buffer that is no staging buffer at some contents, the
    generator register at some state — is the invariant before the first point. -/
theorem phi_in (c : Dev nD) : (Pipeline.ΦA spec2 c : sProp 𝕄) ⊢ (dat V c).Φ 0 := by
  rw [show (dat V c).Φ 0 = PhiS V c 0 from rfl]
  unfold Pipeline.ΦA PhiS
  rw [scopedRest2_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg2.N) ⊢ (Pipeline.ΦA spec2 c : sProp 𝕄) := by
  rw [show (dat V c).Φ (Fin.last cfg2.N) = PhiS V c cfg2.N from rfl]
  unfold Pipeline.ΦA PhiS
  rw [scopedRest2_split]
  simp only [owns_whole]
  iintro ⟨⟨%d, -, Hs⟩, Hrest, Hg⟩
  isplitl [Hs Hrest]
  · isplitl [Hs]
    · iexists d; iexact Hs
    iexact Hrest
  iexact Hg

end Cert.KernelIdeal.Layer2

end
-- ==== Proof.KernelIdeal.Body3.lean ====
/-
  One dense layer's kernel, point by point.  The grid is (row block, column block, contraction block), the
  contraction block innermost.  A scratch accumulator is cleared where the contraction block is the first,
  every point adds the product of its activation block and its transposed weight block to it, and where the
  contraction block is the last the accumulator plus the bias row is stored to the output block.
  Here: what the scratch holds after each point (a fold that restarts every 8 points), the body's run in
  each of the three positions of a point, the proof data of the pipeline over it, and the body obligation —
  all at a parameter `V`, the buffers' contents when the region is entered, and at any float instance.
-/
import proofs.«118080_j56341380989394_1_alg».proof.Proof.Gen.KernelIdeal.Launch
import proofs.«118080_j56341380989394_1_alg».proof.Proof.Gen.KernelIdeal.Skeleton
import proofs.«118080_j56341380989394_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its run of 8 -/

/-- The contraction block is the first: the accumulator is cleared before it is added to. -/
abbrev isFirst (i : grid3.Coords) : Prop := (Scalar.cmpi .ne (Scalar.extui (Scalar.cmpi .eq (BitVec.ofNat 32 (i 2).val) 0#32)) 0#32) = 1#1
/-- The contraction block is the last: the output block is stored. -/
abbrev isLast (i : grid3.Coords) : Prop := k3_cond2 i = 1#1

theorem isFirst_iff : ∀ t : Fin cfg3.N, isFirst (grid3.coords t) ↔ t.val % 8 = 0 :=
  (by decide +kernel : ∀ t : Fin grid3.N, isFirst (grid3.coords t) ↔ t.val % 8 = 0)
theorem isLast_iff : ∀ t : Fin cfg3.N, isLast (grid3.coords t) ↔ t.val % 8 = 7 :=
  (by decide +kernel : ∀ t : Fin grid3.N, isLast (grid3.coords t) ↔ t.val % 8 = 7)

/-- Off the last contraction block nothing is stored into the output window and it is not written back; -/
theorem out_idle : ∀ t : Fin cfg3.N, ¬isLast (grid3.coords t) → cfg3.idle 3 (grid3.coords t) = true := by decide +kernel
theorem out_noflush : ∀ t : Fin cfg3.N, ¬isLast (grid3.coords t) → (cfg3.win 3).flush t = false := by decide +kernel
/-- on it the window is live. -/
theorem out_live : ∀ t : Fin cfg3.N, isLast (grid3.coords t) → cfg3.idle 3 (grid3.coords t) = false := by decide +kernel
theorem in_live0 : ∀ t : Fin cfg3.N, cfg3.idle 0 (grid3.coords t) = false := by decide +kernel
theorem in_live1 : ∀ t : Fin cfg3.N, cfg3.idle 1 (grid3.coords t) = false := by decide +kernel
theorem in_live2 : ∀ t : Fin cfg3.N, cfg3.idle 2 (grid3.coords t) = false := by decide +kernel

/-- The body's loads and stores all go through the whole-buffer rectangle at offsets zero. -/
theorem hz2 : (![0, 0] : Fin 2 → ℕ) = fun _ => 0 := by funext a; fin_cases a <;> rfl

/-! ## The body's run, by the point's position -/

set_option maxHeartbeats 1000000 in
/-- First contraction block (not also the last): the accumulator, whatever it held, ends at the zero fill plus
    this point's product; the output buffer is handed back untouched. -/
theorem run_first (c : Dev nD) (i : grid3.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hf : isFirst i) (hl : ¬isLast i)
    (x0 : Vec F S512x512 .bf16) (x1 : Vec F S1024x512 .f32) (x2 : Vec F S1x1024 .f32) (xo : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k3_pay2 x0 x1 k3_pay1)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_cons_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- A middle contraction block: the accumulator gains this point's product; the output buffer is handed back
    untouched. -/
theorem run_mid (c : Dev nD) (i : grid3.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hf : ¬isFirst i) (hl : ¬isLast i)
    (x0 : Vec F S512x512 .bf16) (x1 : Vec F S1024x512 .f32) (x2 : Vec F S1x1024 .f32) (xo : Vec F S512x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k3_pay2 x0 x1 xs)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

set_option maxHeartbeats 1000000 in
/-- Last contraction block (not also the first): the accumulator gains this point's product, and the output
    buffer, whatever it held, ends at the epilogue of the new accumulator and the bias row. -/
theorem run_last (c : Dev nD) (i : grid3.Coords) (arg3 : Memref sig .tc .vmem S512x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hf : ¬isFirst i) (hl : isLast i)
    (x0 : Vec F S512x512 .bf16) (x1 : Vec F S1024x512 .f32) (x2 : Vec F S1x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k3_pay3 (k3_pay2 x0 x1 xs) x2) ∗ owns (c : Thread nD τ) arg7 fullShare (k3_pay2 x0 x1 xs)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hf | exact hl)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.Mem.head _, View.mem_set_unit_zero hz2 inb_S512x1024_S512x1024_0_0 y⟩),
      View.canon_unit_zero (S := S512x1024) hz2]
    simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]
  iexists _; isplitr
  swap; · iexact HS
  ipureintro
  sl_unfold_words
  rw [View.read_writes_eq_canon _ _ _ (fun y => ⟨_, List.Mem.head _, View.mem_set_unit_zero hz2 inb_S512x1024_S512x1024_0_0 y⟩),
    View.canon_unit_zero (S := S512x1024) hz2]
  simp only [View.readAt_eq_ld, harg3.read_unread, harg4.read_unread, harg5.read_unread, harg7.read_unread, View.ld_unit_zero (S := S512x512) hz2, View.ld_unit_zero (S := S1024x512) hz2, View.ld_unit_zero (S := S512x1024) hz2, View.ld_unit_zero (S := S1x1024) hz2, View.readCov_unit_zero (S := S512x1024) _ hz2]

end Cert.KernelIdeal.Layer3

end
-- ==== Proof.KernelIdeal.Frame3.lean ====
/-
  One dense layer's pipeline data.  After point `n` the scratch holds the fold of the accumulate step over
  the points since the last multiple of 8: at a multiple of 8 the step applied to the zero fill, otherwise the
  step applied to what the point before left.  The output window's buffer, where it is stored (the last
  contraction block), holds the epilogue of that fold and the bias block.  The region invariant carries the
  scratch at that fold between points; the other scoped buffers and the generator register ride along
  unopened.  All at a parameter `V` (the buffers' contents when the region is entered) and any float instance.
-/
import proofs.«118080_j56341380989394_1_alg».proof.Proof.KernelIdeal.Body3

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The scratch after each point -/

/-- What the scratch holds after point `n`. -/
def accAt (c : Dev nD) : (n : ℕ) → n < cfg3.N → Vec F S512x1024 .f32
  | 0, hn => k3_pay2 (iblk V c 0 ⟨0, hn⟩) (iblk V c 1 ⟨0, hn⟩) k3_pay1
  | n + 1, hn =>
    if (n + 1) % 8 = 0 then k3_pay2 (iblk V c 0 ⟨n + 1, hn⟩) (iblk V c 1 ⟨n + 1, hn⟩) k3_pay1
    else k3_pay2 (iblk V c 0 ⟨n + 1, hn⟩) (iblk V c 1 ⟨n + 1, hn⟩) (accAt c n (Nat.lt_of_succ_lt hn))

/-- At a multiple of 8 the fold restarts from the zero fill. -/
theorem accAt_reset (c : Dev nD) (n : ℕ) (hn : n < cfg3.N) (h : n % 8 = 0) :
    accAt V c n hn = k3_pay2 (iblk V c 0 ⟨n, hn⟩) (iblk V c 1 ⟨n, hn⟩) k3_pay1 := by
  cases n with
  | zero => rfl
  | succ n => exact if_pos h

/-- Elsewhere it steps from what the point before left. -/
theorem accAt_step (c : Dev nD) (n : ℕ) (hn : n + 1 < cfg3.N) (h : ¬(n + 1) % 8 = 0) :
    accAt V c (n + 1) hn = k3_pay2 (iblk V c 0 ⟨n + 1, hn⟩) (iblk V c 1 ⟨n + 1, hn⟩) (accAt V c n (Nat.lt_of_succ_lt hn)) :=
  if_neg h

/-! ## The invariant and the proof data -/

/-- The kernel's scratch operand. -/
abbrev scM : Memref sig .tc .vmem S512x1024 .f32 := Memref.whole cc3_scratch0

/-- Before point `n`: the scratch at what point `n - 1` left (at anything before the first point), every other
    scoped buffer that is no staging buffer at some contents, the generator register at some state. -/
def PhiS (c : Dev nD) (n : ℕ) : sProp 𝕄 :=
  iprop((∃ d, ⌜∀ (k : ℕ) (hk : k < cfg3.N), n = k + 1 → d = accAt V c k hk⌝ ∗ owns (c : Thread nD τ) scM fullShare d)
    ∗ Pipeline.scopedRestBut (Ix := Unit) (Name := ℕ) (U := UR sig nD τ) (Lvl := ℕ) (Val := Elt F) spec3 c [cc3_scratch0]
    ∗ (∃ r, prngReg c r))

/-- The pipeline's proof data on core `c`: the arrays as the region finds them; after the body each input's
    buffer at its block, the output's at the epilogue of the scratch's fold and the bias block (consulted only
    where the output is stored); the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => k3_pay3 (accAt V c t.val t.isLt) (iblk V c 2 t)
  Φ t := PhiS V c t.val
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) :
    (dat V c).after 3 t = k3_pay3 (accAt V c t.val t.isLt) (iblk V c 2 t) := by dsimp only [dat]

/-- An input's current staging buffer holds its block at every point, fetched there or not: where it is not
    fetched its block index has not moved. -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: the inputs' buffers hold their blocks; the point's position in its run of 8 says
    which run applies; the invariant hands over the scratch at what the point before left and takes it back
    at this point's fold. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl,
    show (dat V c).Φ t.succ = PhiS V c (t.val + 1) from rfl,
    show (dat V c).Φ t.castSucc = PhiS V c t.val from rfl,
    show (dat V c).leavesExact 0 t = owns (c : Thread nD τ) (st3_0 t) fullShare ((dat V c).after 0 t) from by
      unfold Dat.leavesExact; rw [in_live0 t],
    show (dat V c).leavesExact 1 t = owns (c : Thread nD τ) (st3_1 t) fullShare ((dat V c).after 1 t) from by
      unfold Dat.leavesExact; rw [in_live1 t],
    show (dat V c).leavesExact 2 t = owns (c : Thread nD τ) (st3_2 t) fullShare ((dat V c).after 2 t) from by
      unfold Dat.leavesExact; rw [in_live2 t],
    after_0, after_1, after_2]
  unfold PhiS
  by_cases h0 : t.val % 8 = 0
  · have hf := (isFirst_iff t).mpr h0
    have hl : ¬isLast (grid3.coords t) := fun h => by have := (isLast_iff t).mp h; omega
    rw [Dat.leavesExact_idle (dat V c) 3 t (out_idle t hl) (out_noflush t hl)]
    iintro ⟨⟨⟨%d, -, HS⟩, Hrest, Hg⟩, Ho, ⟨%d0, H0⟩, ⟨%d1, H1⟩, ⟨%d2, H2⟩, ⟨%d3, H3⟩⟩
    iapply (run_first c (grid3.coords t) _ _ _ _ _ _ _ _ _ _ hf hl (iblk V c 0 t) (iblk V c 1 t) (iblk V c 2 t) _ Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS Hrest Hg]
    · isplitl [HS]
      · iexists _; isplitr
        · ipureintro; intro k hk e
          obtain rfl : k = t.val := by omega
          exact (accAt_reset V c t.val t.isLt h0).symm
        · iexact HS
      isplitl [Hrest]; · iexact Hrest
      iexact Hg
    isplitl [Ho]; · iexact Ho
    isplitl [H0]; · iexact H0
    isplitl [H1]; · iexact H1
    isplitl [H2]; · iexact H2
    iexists _; iexact H3
  · obtain ⟨n, hn⟩ : ∃ n, t.val = n + 1 := ⟨t.val - 1, by omega⟩
    have hnN : n < cfg3.N := by have := t.isLt; omega
    have hstep : accAt V c t.val t.isLt = k3_pay2 (iblk V c 0 t) (iblk V c 1 t) (accAt V c n hnN) := by
      obtain ⟨tv, ht⟩ := t
      dsimp only at hn h0 ⊢
      subst hn
      exact accAt_step V c n ht h0
    by_cases h1 : t.val % 8 = 7
    · have hf : ¬isFirst (grid3.coords t) := fun h => h0 ((isFirst_iff t).mp h)
      have hl := (isLast_iff t).mpr h1
      rw [show (dat V c).leavesExact 3 t = owns (c : Thread nD τ) (st3_3 t) fullShare ((dat V c).after 3 t) from by
        unfold Dat.leavesExact; rw [out_live t hl], after_3, hstep]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_last c (grid3.coords t) _ _ _ _ _ _ _ _ _ _ hf hl (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexact H3
    · have hf : ¬isFirst (grid3.coords t) := fun h => h0 ((isFirst_iff t).mp h)
      have hl : ¬isLast (grid3.coords t) := fun h => h1 ((isLast_iff t).mp h)
      rw [Dat.leavesExact_idle (dat V c) 3 t (out_idle t hl) (out_noflush t hl)]
      iintro ⟨⟨⟨%d, %hd, HS⟩, Hrest, Hg⟩, Ho, ⟨%d0, H0⟩, ⟨%d1, H1⟩, ⟨%d2, H2⟩, ⟨%d3, H3⟩⟩
      obtain rfl := hd n hnN hn
      iapply (run_mid c (grid3.coords t) _ _ _ _ _ _ _ _ _ _ hf hl (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitr
          · ipureintro; intro k hk e
            obtain rfl : k = t.val := by omega
            exact hstep.symm
          · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-! ## Entering and leaving the region -/

/-- What the region is entered with — every scoped buffer that is no staging buffer at some contents, the
    generator register at some state — is the invariant before the first point. -/
theorem phi_in (c : Dev nD) : (Pipeline.ΦA spec3 c : sProp 𝕄) ⊢ (dat V c).Φ 0 := by
  rw [show (dat V c).Φ 0 = PhiS V c 0 from rfl]
  unfold Pipeline.ΦA PhiS
  rw [scopedRest3_split]
  simp only [owns_whole]
  iintro ⟨⟨⟨%f, Hs⟩, Hrest⟩, Hg⟩
  isplitl [Hs]
  · iexists f; isplitr
    · ipureintro; intro k hk e; exact absurd e (Nat.succ_ne_zero k).symm
    · iexact Hs
  isplitl [Hrest]; · iexact Hrest
  iexact Hg

/-- After the last point the invariant gives the same back: the scratch's contents are forgotten. -/
theorem phi_out (c : Dev nD) : (dat V c).Φ (Fin.last cfg3.N) ⊢ (Pipeline.ΦA spec3 c : sProp 𝕄) := by
  rw [show (dat V c).Φ (Fin.last cfg3.N) = PhiS V c cfg3.N from rfl]
  unfold Pipeline.ΦA PhiS
  rw [scopedRest3_split]
  simp only [owns_whole]
  iintro ⟨⟨%d, -, Hs⟩, Hrest, Hg⟩
  isplitl [Hs Hrest]
  · isplitl [Hs]
    · iexists d; iexact Hs
    iexact Hrest
  iexact Hg

end Cert.KernelIdeal.Layer3

end
-- ==== Proof.KernelIdeal.Family.lean ====
/-
  The four layers' pipelines side by side: one family of proof data indexed by the pipeline, each layer's at the
  buffer contents its region is entered with, and what rides beside the buffers between @main's items (the
  generator register at some state, the core owing nothing).
-/
import proofs.«118080_j56341380989394_1_alg».proof.Proof.KernelIdeal.Frame0
import proofs.«118080_j56341380989394_1_alg».proof.Proof.KernelIdeal.Frame1
import proofs.«118080_j56341380989394_1_alg».proof.Proof.KernelIdeal.Frame2
import proofs.«118080_j56341380989394_1_alg».proof.Proof.KernelIdeal.Frame3
import proofs.«118080_j56341380989394_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the core's buffers read at the TensorCore's references. -/
abbrev Vof (W : Dev nD → Valuation τ sig (Elt F)) : (c : Dev nD) → (b : Ref sig .tc) → Buf (Elt F) ((c : Thread nD τ).loc b) :=
  fun c b => W c b

-- the buffer contents each of the four regions is entered with
variable (Wi : Fin 4 → Dev nD → Valuation τ sig (Elt F))

/-- Every pipeline's proof data, each at its region's entry contents. -/
def pdats : (p : Fin 4) → (c : Dev nD) → Dat τ (Elt F) Unit ℕ (UR sig nD τ) ℕ (cfgs p) c
  | ⟨0, _⟩ => fun c => Layer0.dat (Vof (Wi 0)) c
  | ⟨1, _⟩ => fun c => Layer1.dat (Vof (Wi 1)) c
  | ⟨2, _⟩ => fun c => Layer2.dat (Vof (Wi 2)) c
  | ⟨3, _⟩ => fun c => Layer3.dat (Vof (Wi 3)) c

/-- No core owes another anything: no level is assigned. -/
abbrev Lz : GSem nD τ sig → Finset Unit := fun _ => ∅
abbrev lvz : GSem nD τ sig → Unit → ℕ := fun _ _ => 0

/-- What rides beside the buffers through every item of @main. -/
abbrev Rr (c : Dev nD) : sProp 𝕄 :=
  iprop((∃ r, prngReg c r) ∗ ∃ W, owes (c : Thread nD τ) (0 : CellTallies nD τ sig Unit) W)

end Cert.KernelIdeal.Whole

end
-- ==== Proof.KernelIdeal.Reg0.lean ====
/-
  The layer's region as one item of @main: entered with every unscoped buffer at the contents `Wi 0`, left
  with them at `Wo`, which agrees with `Wi 0` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.KernelIdeal.Family
import Idealize.ShloMosaic.Lib.Pipeline.RegionsLoop

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 0)) c).arrAt w cfg0.N = Whole.Vof Wo c (Pipeline.arrRef spec0 w))
    (hrest : ∀ c b, b ∉ Finset.univ.image (Pipeline.arrRef spec0) → Whole.Vof Wo c b = Whole.Vof (Wi 0) c b) :
    Pipeline.RegionSeg (pcfgs (F := F)) Gen.adm (Whole.pdats Wi) () defs₀ Variants.none Whole.Lz Whole.lvz 0 where
  win := launch0.win.to₀
  block_pos := launch0.block_pos
  stage_whole := launch0.stage_whole
  K := PEmpty
  osem k := k.elim
  ho := Pipeline.OwnSemFacts.none _
  hbody c := (body_obligation (Whole.Vof (Wi 0)) c).loose
  hwaits := Pipeline.hwaits_of_owed_zero _ _ _ _ Whole.Lz Whole.lvz 0 fun _ _ => rfl
  pre c := iprop(StableHlo.held (c : Thread nD τ) (Pipeline.ucRefs τ sig) (Wi 0 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec0 c (Whole.Vof (Wi 0) c)
  hentry c := by
    rw [Pipeline.ownSems0_none]
    have hsplit := Pipeline.arrays_of_unscopedBufs (p := 0) (pcfgs (F := F)) Gen.adm (Whole.pdats Wi) launch0.win launch0.arr_whole c
      ((Whole.pdats Wi 0 c).share_full fun _ => rfl) (Whole.Vof (Wi 0) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 0)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 0)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (Whole.pdats Wi) ((Whole.pdats Wi 0 c).share_full fun _ => rfl)
      (Whole.Vof (Wi 0) c) (Whole.Vof Wo c) ((Whole.pdats Wi 0 c).arrAt · cfg0.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer0

end
-- ==== Proof.KernelIdeal.Reg1.lean ====
/-
  The layer's region as one item of @main: entered with every unscoped buffer at the contents `Wi 1`, left
  with them at `Wo`, which agrees with `Wi 1` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.KernelIdeal.Family
import Idealize.ShloMosaic.Lib.Pipeline.RegionsLoop

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 1)) c).arrAt w cfg1.N = Whole.Vof Wo c (Pipeline.arrRef spec1 w))
    (hrest : ∀ c b, b ∉ Finset.univ.image (Pipeline.arrRef spec1) → Whole.Vof Wo c b = Whole.Vof (Wi 1) c b) :
    Pipeline.RegionSeg (pcfgs (F := F)) Gen.adm (Whole.pdats Wi) () defs₀ Variants.none Whole.Lz Whole.lvz 1 where
  win := launch1.win.to₀
  block_pos := launch1.block_pos
  stage_whole := launch1.stage_whole
  K := PEmpty
  osem k := k.elim
  ho := Pipeline.OwnSemFacts.none _
  hbody c := (body_obligation (Whole.Vof (Wi 1)) c).loose
  hwaits := Pipeline.hwaits_of_owed_zero _ _ _ _ Whole.Lz Whole.lvz 1 fun _ _ => rfl
  pre c := iprop(StableHlo.held (c : Thread nD τ) (Pipeline.ucRefs τ sig) (Wi 1 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec1 c (Whole.Vof (Wi 1) c)
  hentry c := by
    rw [Pipeline.ownSems0_none]
    have hsplit := Pipeline.arrays_of_unscopedBufs (p := 1) (pcfgs (F := F)) Gen.adm (Whole.pdats Wi) launch1.win launch1.arr_whole c
      ((Whole.pdats Wi 1 c).share_full fun _ => rfl) (Whole.Vof (Wi 1) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 1)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 1)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (Whole.pdats Wi) ((Whole.pdats Wi 1 c).share_full fun _ => rfl)
      (Whole.Vof (Wi 1) c) (Whole.Vof Wo c) ((Whole.pdats Wi 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer1

end
-- ==== Proof.KernelIdeal.Reg2.lean ====
/-
  The layer's region as one item of @main: entered with every unscoped buffer at the contents `Wi 2`, left
  with them at `Wo`, which agrees with `Wi 2` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.KernelIdeal.Family
import Idealize.ShloMosaic.Lib.Pipeline.RegionsLoop

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 2)) c).arrAt w cfg2.N = Whole.Vof Wo c (Pipeline.arrRef spec2 w))
    (hrest : ∀ c b, b ∉ Finset.univ.image (Pipeline.arrRef spec2) → Whole.Vof Wo c b = Whole.Vof (Wi 2) c b) :
    Pipeline.RegionSeg (pcfgs (F := F)) Gen.adm (Whole.pdats Wi) () defs₀ Variants.none Whole.Lz Whole.lvz 2 where
  win := launch2.win.to₀
  block_pos := launch2.block_pos
  stage_whole := launch2.stage_whole
  K := PEmpty
  osem k := k.elim
  ho := Pipeline.OwnSemFacts.none _
  hbody c := (body_obligation (Whole.Vof (Wi 2)) c).loose
  hwaits := Pipeline.hwaits_of_owed_zero _ _ _ _ Whole.Lz Whole.lvz 2 fun _ _ => rfl
  pre c := iprop(StableHlo.held (c : Thread nD τ) (Pipeline.ucRefs τ sig) (Wi 2 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec2 c (Whole.Vof (Wi 2) c)
  hentry c := by
    rw [Pipeline.ownSems0_none]
    have hsplit := Pipeline.arrays_of_unscopedBufs (p := 2) (pcfgs (F := F)) Gen.adm (Whole.pdats Wi) launch2.win launch2.arr_whole c
      ((Whole.pdats Wi 2 c).share_full fun _ => rfl) (Whole.Vof (Wi 2) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 2)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 2)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (Whole.pdats Wi) ((Whole.pdats Wi 2 c).share_full fun _ => rfl)
      (Whole.Vof (Wi 2) c) (Whole.Vof Wo c) ((Whole.pdats Wi 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer2

end
-- ==== Proof.KernelIdeal.Reg3.lean ====
/-
  The layer's region as one item of @main: entered with every unscoped buffer at the contents `Wi 3`, left
  with them at `Wo`, which agrees with `Wi 3` off the layer's arrays and holds what the pipeline leaves in
  them.  The arrays are split out of the unscoped buffers at the entry and put back at the exit; the scratch
  and the generator register pass through the region invariant; nothing is owed and the kernel has no
  semaphore of its own.
-/
import proofs.«118080_j56341380989394_1_alg».proof.Proof.KernelIdeal.Family
import Idealize.ShloMosaic.Lib.Pipeline.RegionsLoop

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wi : Fin 4 → Dev nD → Valuation τ sig (Elt F)) (Wo : Dev nD → Valuation τ sig (Elt F))

set_option backward.isDefEq.respectTransparency.types false in
/-- The region's record. -/
def reg (hF : ∀ c w, (dat (Whole.Vof (Wi 3)) c).arrAt w cfg3.N = Whole.Vof Wo c (Pipeline.arrRef spec3 w))
    (hrest : ∀ c b, b ∉ Finset.univ.image (Pipeline.arrRef spec3) → Whole.Vof Wo c b = Whole.Vof (Wi 3) c b) :
    Pipeline.RegionSeg (pcfgs (F := F)) Gen.adm (Whole.pdats Wi) () defs₀ Variants.none Whole.Lz Whole.lvz 3 where
  win := launch3.win.to₀
  block_pos := launch3.block_pos
  stage_whole := launch3.stage_whole
  K := PEmpty
  osem k := k.elim
  ho := Pipeline.OwnSemFacts.none _
  hbody c := (body_obligation (Whole.Vof (Wi 3)) c).loose
  hwaits := Pipeline.hwaits_of_owed_zero _ _ _ _ Whole.Lz Whole.lvz 3 fun _ _ => rfl
  pre c := iprop(StableHlo.held (c : Thread nD τ) (Pipeline.ucRefs τ sig) (Wi 3 c) ∗ Whole.Rr c)
  post c := iprop(StableHlo.held (c : Thread nD τ) (Pipeline.ucRefs τ sig) (Wo c) ∗ Whole.Rr c)
  X c := iprop(∃ r, prngReg c r)
  Y c := iprop(∃ r, prngReg c r)
  Z c := Pipeline.unscopedRest (Ix := Unit) (Name := ℕ) (U := UR sig nD τ) (Lvl := ℕ) spec3 c (Whole.Vof (Wi 3) c)
  hentry c := by
    rw [Pipeline.ownSems0_none]
    have hsplit := Pipeline.arrays_of_unscopedBufs (p := 3) (pcfgs (F := F)) Gen.adm (Whole.pdats Wi) launch3.win launch3.arr_whole c
      ((Whole.pdats Wi 3 c).share_full fun _ => rfl) (Whole.Vof (Wi 3) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in (Whole.Vof (Wi 3)) c)
    unfold Pipeline.ΦA
    iintro ⟨Hp, -, Hr⟩
    isplitl [Hr]; · iexact Hr
    iexact Hp
  hout c := by
    rw [Pipeline.ownSems0_none]
    refine BIBase.Entails.trans (phi_out (Whole.Vof (Wi 3)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (Whole.pdats Wi) ((Whole.pdats Wi 3 c).share_full fun _ => rfl)
      (Whole.Vof (Wi 3) c) (Whole.Vof Wo c) ((Whole.pdats Wi 3 c).arrAt · cfg3.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer3

end
-- ==== Proof.KernelIdeal.Whole.lean ====
/-
  The whole program: four dense layers one after the other, each a kernel region between one-operation host
  stretches that lay a bias vector out as a row.  The buffer contents between the items are the launch
  memory, then each host stretch applied, then each region's output array replaced by what its pipeline
  writes back.  With every region's record at those contents, every weakly fair execution terminates, the
  arguments end as launched, and the result buffer ends at what the last layer's pipeline writes back.
-/
import proofs.«118080_j56341380989394_1_alg».proof.Proof.KernelIdeal.Reg0
import proofs.«118080_j56341380989394_1_alg».proof.Proof.KernelIdeal.Reg1
import proofs.«118080_j56341380989394_1_alg».proof.Proof.KernelIdeal.Reg2
import proofs.«118080_j56341380989394_1_alg».proof.Proof.KernelIdeal.Reg3
import proofs.«118080_j56341380989394_1_alg».proof.Proof.KernelIdeal.NamedRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave in their output arrays -/

/-- A table of contents with the entry of the reference `r₀` replaced. -/
def put (r₀ : Ref sig .tc) (x : (c : Dev nD) → Buf (Elt F) ((c : Thread nD τ).loc r₀)) (o : Gen.Outs (F := F)) : Gen.Outs (F := F) :=
  fun J r c => if h : r = r₀ then h ▸ x c else o J r c

theorem put_same (r₀ : Ref sig .tc) (x : (c : Dev nD) → Buf (Elt F) ((c : Thread nD τ).loc r₀)) (o : Gen.Outs (F := F)) (J : ℕ) (c : Dev nD) :
    put r₀ x o J r₀ c = x c := by unfold put; rw [dif_pos rfl]
theorem put_ne (r₀ : Ref sig .tc) (x : (c : Dev nD) → Buf (Elt F) ((c : Thread nD τ).loc r₀)) (o : Gen.Outs (F := F)) (J : ℕ) (r : Ref sig .tc) (c : Dev nD)
    (h : r ≠ r₀) : put r₀ x o J r c = o J r c := by unfold put; rw [dif_neg h]

/-- The first layer's output: what its pipeline writes back from the contents after the first host stretch. -/
def outsA : Gen.Outs (F := F) :=
  put main_v1 (fun c => (Layer0.dat (Vof (Gen.V1 m)) c).arrAt 3 cfg0.N) (fun _ r c => m ((c : Thread nD τ).loc r))
/-- The second layer's, from the contents that follow with the first layer's output in place. -/
def outsB : Gen.Outs (F := F) :=
  put main_v3 (fun c => (Layer1.dat (Vof (Gen.V3 m (outsA m))) c).arrAt 3 cfg1.N) (outsA m)
/-- The third layer's. -/
def outsC : Gen.Outs (F := F) :=
  put main_v5 (fun c => (Layer2.dat (Vof (Gen.V5 m (outsB m))) c).arrAt 3 cfg2.N) (outsB m)
/-- The fourth layer's: all four outputs. -/
def outs : Gen.Outs (F := F) :=
  put main_v7 (fun c => (Layer3.dat (Vof (Gen.V7 m (outsC m))) c).arrAt 3 cfg3.N) (outsC m)

theorem outsA_main_v1 (J : ℕ) (c : Dev nD) : outsA m J main_v1 c = (Layer0.dat (Vof (Gen.V1 m)) c).arrAt 3 cfg0.N := put_same _ _ _ J c
theorem outsB_main_v1 (J : ℕ) (c : Dev nD) : outsB m J main_v1 c = outsA m J main_v1 c := put_ne _ _ _ J _ c (by decide)
theorem outsB_main_v3 (J : ℕ) (c : Dev nD) : outsB m J main_v3 c = (Layer1.dat (Vof (Gen.V3 m (outsA m))) c).arrAt 3 cfg1.N := put_same _ _ _ J c
theorem outsC_main_v1 (J : ℕ) (c : Dev nD) : outsC m J main_v1 c = outsA m J main_v1 c := (put_ne _ _ _ J _ c (by decide)).trans (outsB_main_v1 m J c)
theorem outsC_main_v3 (J : ℕ) (c : Dev nD) : outsC m J main_v3 c = outsB m J main_v3 c := put_ne _ _ _ J _ c (by decide)
theorem outsC_main_v5 (J : ℕ) (c : Dev nD) : outsC m J main_v5 c = (Layer2.dat (Vof (Gen.V5 m (outsB m))) c).arrAt 3 cfg2.N := put_same _ _ _ J c
theorem outs_v1 (J : ℕ) (c : Dev nD) : outs m J main_v1 c = outsA m J main_v1 c := (put_ne _ _ _ J _ c (by decide)).trans (outsC_main_v1 m J c)
theorem outs_v3 (J : ℕ) (c : Dev nD) : outs m J main_v3 c = outsB m J main_v3 c := (put_ne _ _ _ J _ c (by decide)).trans (outsC_main_v3 m J c)
theorem outs_v5 (J : ℕ) (c : Dev nD) : outs m J main_v5 c = outsC m J main_v5 c := put_ne _ _ _ J _ c (by decide)
theorem outs_v7 (J : ℕ) (c : Dev nD) : outs m J main_v7 c = (Layer3.dat (Vof (Gen.V7 m (outsC m))) c).arrAt 3 cfg3.N := put_same _ _ _ J c

/-! ## The contents between the items depend only on the outputs already written -/

theorem V3_congr (o o' : Gen.Outs (F := F)) (h1 : ∀ c, o 2 main_v1 c = o' 2 main_v1 c) : Gen.V3 m o = Gen.V3 m o' := by
  funext c; simp only [Gen.V3, Gen.V2, h1 c]
theorem V5_congr (o o' : Gen.Outs (F := F)) (h1 : ∀ c, o 2 main_v1 c = o' 2 main_v1 c) (h3 : ∀ c, o 4 main_v3 c = o' 4 main_v3 c) :
    Gen.V5 m o = Gen.V5 m o' := by
  funext c; simp only [Gen.V5, Gen.V4, Gen.V3, Gen.V2, h1 c, h3 c]
theorem V7_congr (o o' : Gen.Outs (F := F)) (h1 : ∀ c, o 2 main_v1 c = o' 2 main_v1 c) (h3 : ∀ c, o 4 main_v3 c = o' 4 main_v3 c)
    (h5 : ∀ c, o 6 main_v5 c = o' 6 main_v5 c) : Gen.V7 m o = Gen.V7 m o' := by
  funext c; simp only [Gen.V7, Gen.V6, Gen.V5, Gen.V4, Gen.V3, Gen.V2, h1 c, h3 c, h5 c]

theorem V3_outs : Gen.V3 m (outs m) = Gen.V3 m (outsA m) := V3_congr m _ _ (fun c => outs_v1 m 2 c)
theorem V5_outs : Gen.V5 m (outs m) = Gen.V5 m (outsB m) :=
  V5_congr m _ _ (fun c => (outs_v1 m 2 c).trans (outsB_main_v1 m 2 c).symm) (fun c => outs_v3 m 4 c)
theorem V7_outs : Gen.V7 m (outs m) = Gen.V7 m (outsC m) :=
  V7_congr m _ _ (fun c => (outs_v1 m 2 c).trans (outsC_main_v1 m 2 c).symm) (fun c => (outs_v3 m 4 c).trans (outsC_main_v3 m 4 c).symm)
    (fun c => outs_v5 m 6 c)

/-- Right after a region the table's entry is what its output array holds. -/
theorem V2_v1 (o : Gen.Outs (F := F)) (c : Dev nD) : Gen.V2 m o c main_v1 = o 2 main_v1 c := by
  simp only [Gen.V2, Function.update_self]
theorem V4_v3 (o : Gen.Outs (F := F)) (c : Dev nD) : Gen.V4 m o c main_v3 = o 4 main_v3 c := by
  simp only [Gen.V4, Function.update_self]
theorem V6_v5 (o : Gen.Outs (F := F)) (c : Dev nD) : Gen.V6 m o c main_v5 = o 6 main_v5 c := by
  simp only [Gen.V6, Function.update_self]
theorem V8_v7 (o : Gen.Outs (F := F)) (c : Dev nD) : Gen.V8 m o c main_v7 = o 8 main_v7 c := by
  simp only [Gen.V8, Function.update_self]

/-! ## The regions' entry contents, and what each leaves, over the one table -/

/-- The contents each region is entered with. -/
def Wi : Fin 4 → Dev nD → Valuation τ sig (Elt F)
  | ⟨0, _⟩ => Gen.V1 m
  | ⟨1, _⟩ => Gen.V3 m (outs m)
  | ⟨2, _⟩ => Gen.V5 m (outs m)
  | ⟨3, _⟩ => Gen.V7 m (outs m)

theorem outs_main_v1 (J : ℕ) (c : Dev nD) : outs m J main_v1 c = (Layer0.dat (Vof (Wi m 0)) c).arrAt 3 cfg0.N :=
  (outs_v1 m J c).trans (outsA_main_v1 m J c)
theorem outs_main_v3 (J : ℕ) (c : Dev nD) : outs m J main_v3 c = (Layer1.dat (Vof (Wi m 1)) c).arrAt 3 cfg1.N := by
  rw [outs_v3, outsB_main_v3, show Wi m 1 = Gen.V3 m (outs m) from rfl, V3_outs]
theorem outs_main_v5 (J : ℕ) (c : Dev nD) : outs m J main_v5 c = (Layer2.dat (Vof (Wi m 2)) c).arrAt 3 cfg2.N := by
  rw [outs_v5, outsC_main_v5, show Wi m 2 = Gen.V5 m (outs m) from rfl, V5_outs]
theorem outs_main_v7 (J : ℕ) (c : Dev nD) : outs m J main_v7 c = (Layer3.dat (Vof (Wi m 3)) c).arrAt 3 cfg3.N := by
  rw [outs_v7, show Wi m 3 = Gen.V7 m (outs m) from rfl, V7_outs]

/-- Region 0 leaves its input arrays as it found them and its output array at what the pipeline wrote back; -/
theorem hF0 (c : Dev nD) (w : Fin cfg0.W) :
    (Layer0.dat (Vof (Wi m 0)) c).arrAt w cfg0.N = Vof (Gen.V2 m (outs m)) c (Pipeline.arrRef spec0 w) := by
  match w with
  | ⟨0, _⟩ => exact ((Layer0.dat (Vof (Wi m 0)) c).arrAt_in 0 rfl _).trans ((Layer0.A_eq (Vof (Wi m 0)) c 0).trans (Gen.V2_of m (outs m) c main_arg0 (by decide)).symm)
  | ⟨1, _⟩ => exact ((Layer0.dat (Vof (Wi m 0)) c).arrAt_in 1 rfl _).trans ((Layer0.A_eq (Vof (Wi m 0)) c 1).trans (Gen.V2_of m (outs m) c main_arg1 (by decide)).symm)
  | ⟨2, _⟩ => exact ((Layer0.dat (Vof (Wi m 0)) c).arrAt_in 2 rfl _).trans ((Layer0.A_eq (Vof (Wi m 0)) c 2).trans (Gen.V2_of m (outs m) c main_v0 (by decide)).symm)
  | ⟨3, _⟩ => exact (outs_main_v1 m 2 c).symm.trans (V2_v1 m (outs m) c).symm
/-- and every buffer that is none of its arrays as it found it. -/
theorem hrest0 (c : Dev nD) (b : Ref sig .tc) (hb : b ∉ Finset.univ.image (Pipeline.arrRef spec0)) :
    Vof (Gen.V2 m (outs m)) c b = Vof (Wi m 0) c b :=
  Gen.V2_of m (outs m) c b (fun h => hb (by
    rw [List.mem_singleton] at h; subst h
    exact Finset.mem_image.mpr ⟨3, Finset.mem_univ _, rfl⟩))

/-- Region 1 leaves its input arrays as it found them and its output array at what the pipeline wrote back; -/
theorem hF1 (c : Dev nD) (w : Fin cfg1.W) :
    (Layer1.dat (Vof (Wi m 1)) c).arrAt w cfg1.N = Vof (Gen.V4 m (outs m)) c (Pipeline.arrRef spec1 w) := by
  match w with
  | ⟨0, _⟩ => exact ((Layer1.dat (Vof (Wi m 1)) c).arrAt_in 0 rfl _).trans ((Layer1.A_eq (Vof (Wi m 1)) c 0).trans (Gen.V4_of m (outs m) c main_v1 (by decide)).symm)
  | ⟨1, _⟩ => exact ((Layer1.dat (Vof (Wi m 1)) c).arrAt_in 1 rfl _).trans ((Layer1.A_eq (Vof (Wi m 1)) c 1).trans (Gen.V4_of m (outs m) c main_arg3 (by decide)).symm)
  | ⟨2, _⟩ => exact ((Layer1.dat (Vof (Wi m 1)) c).arrAt_in 2 rfl _).trans ((Layer1.A_eq (Vof (Wi m 1)) c 2).trans (Gen.V4_of m (outs m) c main_v2 (by decide)).symm)
  | ⟨3, _⟩ => exact (outs_main_v3 m 4 c).symm.trans (V4_v3 m (outs m) c).symm
/-- and every buffer that is none of its arrays as it found it. -/
theorem hrest1 (c : Dev nD) (b : Ref sig .tc) (hb : b ∉ Finset.univ.image (Pipeline.arrRef spec1)) :
    Vof (Gen.V4 m (outs m)) c b = Vof (Wi m 1) c b :=
  Gen.V4_of m (outs m) c b (fun h => hb (by
    rw [List.mem_singleton] at h; subst h
    exact Finset.mem_image.mpr ⟨3, Finset.mem_univ _, rfl⟩))

/-- Region 2 leaves its input arrays as it found them and its output array at what the pipeline wrote back; -/
theorem hF2 (c : Dev nD) (w : Fin cfg2.W) :
    (Layer2.dat (Vof (Wi m 2)) c).arrAt w cfg2.N = Vof (Gen.V6 m (outs m)) c (Pipeline.arrRef spec2 w) := by
  match w with
  | ⟨0, _⟩ => exact ((Layer2.dat (Vof (Wi m 2)) c).arrAt_in 0 rfl _).trans ((Layer2.A_eq (Vof (Wi m 2)) c 0).trans (Gen.V6_of m (outs m) c main_v3 (by decide)).symm)
  | ⟨1, _⟩ => exact ((Layer2.dat (Vof (Wi m 2)) c).arrAt_in 1 rfl _).trans ((Layer2.A_eq (Vof (Wi m 2)) c 1).trans (Gen.V6_of m (outs m) c main_arg5 (by decide)).symm)
  | ⟨2, _⟩ => exact ((Layer2.dat (Vof (Wi m 2)) c).arrAt_in 2 rfl _).trans ((Layer2.A_eq (Vof (Wi m 2)) c 2).trans (Gen.V6_of m (outs m) c main_v4 (by decide)).symm)
  | ⟨3, _⟩ => exact (outs_main_v5 m 6 c).symm.trans (V6_v5 m (outs m) c).symm
/-- and every buffer that is none of its arrays as it found it. -/
theorem hrest2 (c : Dev nD) (b : Ref sig .tc) (hb : b ∉ Finset.univ.image (Pipeline.arrRef spec2)) :
    Vof (Gen.V6 m (outs m)) c b = Vof (Wi m 2) c b :=
  Gen.V6_of m (outs m) c b (fun h => hb (by
    rw [List.mem_singleton] at h; subst h
    exact Finset.mem_image.mpr ⟨3, Finset.mem_univ _, rfl⟩))

/-- Region 3 leaves its input arrays as it found them and its output array at what the pipeline wrote back; -/
theorem hF3 (c : Dev nD) (w : Fin cfg3.W) :
    (Layer3.dat (Vof (Wi m 3)) c).arrAt w cfg3.N = Vof (Gen.V8 m (outs m)) c (Pipeline.arrRef spec3 w) := by
  match w with
  | ⟨0, _⟩ => exact ((Layer3.dat (Vof (Wi m 3)) c).arrAt_in 0 rfl _).trans ((Layer3.A_eq (Vof (Wi m 3)) c 0).trans (Gen.V8_of m (outs m) c main_v5 (by decide)).symm)
  | ⟨1, _⟩ => exact ((Layer3.dat (Vof (Wi m 3)) c).arrAt_in 1 rfl _).trans ((Layer3.A_eq (Vof (Wi m 3)) c 1).trans (Gen.V8_of m (outs m) c main_arg7 (by decide)).symm)
  | ⟨2, _⟩ => exact ((Layer3.dat (Vof (Wi m 3)) c).arrAt_in 2 rfl _).trans ((Layer3.A_eq (Vof (Wi m 3)) c 2).trans (Gen.V8_of m (outs m) c main_v6 (by decide)).symm)
  | ⟨3, _⟩ => exact (outs_main_v7 m 8 c).symm.trans (V8_v7 m (outs m) c).symm
/-- and every buffer that is none of its arrays as it found it. -/
theorem hrest3 (c : Dev nD) (b : Ref sig .tc) (hb : b ∉ Finset.univ.image (Pipeline.arrRef spec3)) :
    Vof (Gen.V8 m (outs m)) c b = Vof (Wi m 3) c b :=
  Gen.V8_of m (outs m) c b (fun h => hb (by
    rw [List.mem_singleton] at h; subst h
    exact Finset.mem_image.mpr ⟨3, Finset.mem_univ _, rfl⟩))

/-! ## The run -/

set_option backward.isDefEq.respectTransparency.types false in
/-- Every weakly fair execution of @main from memory `m` with zero counters terminates; the result buffer ends
    at the last valuation's contents for it and every argument as launched. At any float instance. -/
theorem run (ρ : Dev nD → PrngReg) :
    θ_run defs (onTc (τ := τ) (main (F := F))) ⟨m, fun _ => 0, ρ⟩ (fun r => ∀ c : Dev nD,
      r.2.mem ((c.tc : Thread nD τ).loc main_v7) = Gen.V8 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_named m (emb₁ : Emb (URounds (GSem nD τ sig) Unit) 𝕄) () Variants.none Lz lvz (fun _ _ => rfl) ρ (outs m) (pdats (Wi m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := Layer0.reg (Wi m) (Gen.V2 m (outs m)) (hF0 m) (hrest0 m)) (hpre0 := fun _ => .rfl) (hpost0 := fun _ => .rfl)
    (R1 := Layer1.reg (Wi m) (Gen.V4 m (outs m)) (hF1 m) (hrest1 m)) (hpre1 := fun _ => .rfl) (hpost1 := fun _ => .rfl)
    (R2 := Layer2.reg (Wi m) (Gen.V6 m (outs m)) (hF2 m) (hrest2 m)) (hpre2 := fun _ => .rfl) (hpost2 := fun _ => .rfl)
    (R3 := Layer3.reg (Wi m) (Gen.V8 m (outs m)) (hF3 m) (hrest3 m)) (hpre3 := fun _ => .rfl) (hpost3 := fun _ => .rfl)

end Cert.KernelIdeal.Whole

end
-- ==== Proof.LayerSpec.lean ====
/-
  The function both programs compute, stated once over plain arrays of extended reals.
  A dense layer sends an activation array `h` (rows × contraction), a weight array `W` (columns ×
  contraction) and a one-row bias `b` to the array whose entry at row `r`, column `c` is the sum over the
  contraction index `k` of `h (r, k) * W (c, k)`, plus `b (0, c)`.  The first three layers are followed by a
  clamp below at zero.  Nothing here names a program.
-/
import Idealize.ShloMosaic.PureOps.Ideal.Laws
import Idealize.ShloMosaic.Lib.ValueIdx

noncomputable section

namespace Cert.LayerSpec

open Idealize.ShloMosaic Idealize.ShloMosaic.ValueIdx

/-- One dense layer: entry `(r, c)` is `∑ k, h (r, k) * W (c, k) + b (0, c)`. -/
def dense {M K N : ℕ} (h : (⟨2, ![M, K]⟩ : Shape).Idx → EReal) (W : (⟨2, ![N, K]⟩ : Shape).Idx → EReal)
    (b : (⟨2, ![1, N]⟩ : Shape).Idx → EReal) : (⟨2, ![M, N]⟩ : Shape).Idx → EReal :=
  fun j => (∑ k : Fin K, h (ix2 (j 0) k) * W (ix2 (j 1) k)) + b (ix2 0 (j 1))

theorem dense_apply {M K N : ℕ} (h : (⟨2, ![M, K]⟩ : Shape).Idx → EReal) (W : (⟨2, ![N, K]⟩ : Shape).Idx → EReal)
    (b : (⟨2, ![1, N]⟩ : Shape).Idx → EReal) (r : Fin M) (c : Fin N) :
    dense h W b (ix2 r c) = (∑ k : Fin K, h (ix2 r k) * W (ix2 c k)) + b (ix2 0 c) := rfl

/-- The clamp below at zero, entry by entry. -/
def clamp {S : Shape} (x : S.Idx → EReal) : S.Idx → EReal := fun j => max (x j) 0

theorem clamp_apply {S : Shape} (x : S.Idx → EReal) (j : S.Idx) : clamp x j = max (x j) 0 := rfl

/-- A vector laid out as one row. -/
def row {N : ℕ} (b : (⟨1, ![N]⟩ : Shape).Idx → EReal) : (⟨2, ![1, N]⟩ : Shape).Idx → EReal := fun j => b (ix1 (j 1))

theorem row_apply {N : ℕ} (b : (⟨1, ![N]⟩ : Shape).Idx → EReal) (c : Fin N) : row b (ix2 0 c) = b (ix1 c) := rfl

/-- The four layers in sequence: three clamped, the last not. -/
def net {M K0 N0 N1 N2 N3 : ℕ} (x : (⟨2, ![M, K0]⟩ : Shape).Idx → EReal)
    (W0 : (⟨2, ![N0, K0]⟩ : Shape).Idx → EReal) (b0 : (⟨1, ![N0]⟩ : Shape).Idx → EReal)
    (W1 : (⟨2, ![N1, N0]⟩ : Shape).Idx → EReal) (b1 : (⟨1, ![N1]⟩ : Shape).Idx → EReal)
    (W2 : (⟨2, ![N2, N1]⟩ : Shape).Idx → EReal) (b2 : (⟨1, ![N2]⟩ : Shape).Idx → EReal)
    (W3 : (⟨2, ![N3, N2]⟩ : Shape).Idx → EReal) (b3 : (⟨1, ![N3]⟩ : Shape).Idx → EReal) :
    (⟨2, ![M, N3]⟩ : Shape).Idx → EReal :=
  dense (clamp (dense (clamp (dense (clamp (dense x W0 (row b0))) W1 (row b1))) W2 (row b2))) W3 (row b3)

end Cert.LayerSpec

end
-- ==== Proof.KernelIdeal.Between.lean ====
/-
  What the buffers hold between the items of the main function, read back to the launch memory and to what
  the regions leave.  The main function alternates a host reshape (a bias vector laid out as one row) with a
  kernel region (one dense layer).  Before each region: its activation array is an argument or the previous
  region's output, its weight array is an argument, and its bias row is the reshape of an argument.  At the
  extended reals that reshape is the bias vector read as a one-row matrix.
-/
import proofs.«118080_j56341380989394_1_alg».proof.Proof.Gen.KernelIdeal.Regions
import proofs.«118080_j56341380989394_1_alg».proof.Proof.LayerSpec
import Idealize.ShloMosaic.Lib.StableHlo.Run
import Idealize.ShloMosaic.Lib.Pipeline.Value
import Idealize.ShloMosaic.Lib.ValueLayout

noncomputable section

namespace Cert.KernelIdeal.Between

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (o : Gen.Outs (F := F)) (c : Dev nD)

/-! ## Arguments read through: no earlier item writes them -/

theorem V1_arg0 : Gen.V1 m c main_arg0 = m ((c : Thread nD τ).loc main_arg0) :=
  (V1_of m c main_arg0 (by decide)).trans rfl

theorem V1_arg1 : Gen.V1 m c main_arg1 = m ((c : Thread nD τ).loc main_arg1) :=
  (V1_of m c main_arg1 (by decide)).trans rfl

theorem V3_arg3 : Gen.V3 m o c main_arg3 = m ((c : Thread nD τ).loc main_arg3) :=
  (V3_of m o c main_arg3 (by decide)).trans <| (V2_of m o c main_arg3 (by decide)).trans <|
    (V1_of m c main_arg3 (by decide)).trans rfl

theorem V5_arg5 : Gen.V5 m o c main_arg5 = m ((c : Thread nD τ).loc main_arg5) :=
  (V5_of m o c main_arg5 (by decide)).trans <| (V4_of m o c main_arg5 (by decide)).trans <|
    (V3_of m o c main_arg5 (by decide)).trans <| (V2_of m o c main_arg5 (by decide)).trans <|
    (V1_of m c main_arg5 (by decide)).trans rfl

theorem V7_arg7 : Gen.V7 m o c main_arg7 = m ((c : Thread nD τ).loc main_arg7) :=
  (V7_of m o c main_arg7 (by decide)).trans <| (V6_of m o c main_arg7 (by decide)).trans <|
    (V5_of m o c main_arg7 (by decide)).trans <| (V4_of m o c main_arg7 (by decide)).trans <|
    (V3_of m o c main_arg7 (by decide)).trans <| (V2_of m o c main_arg7 (by decide)).trans <|
    (V1_of m c main_arg7 (by decide)).trans rfl

/-! ## The bias rows: each the reshape of an argument -/

theorem V1_v0 : Gen.V1 m c main_v0 = shapeCast S1x4096 (m ((c : Thread nD τ).loc main_arg2)) shapeCasts_S4096_S1x4096 := by
  show StableHlo.after hostOps0 _ (Proc.devRef .tc main_v0) = _
  after_results
  rfl

theorem V3_v2 : Gen.V3 m o c main_v2 = shapeCast S1x4096 (m ((c : Thread nD τ).loc main_arg4)) shapeCasts_S4096_S1x4096 := by
  have e : Gen.V2 m o c main_arg4 = m ((c : Thread nD τ).loc main_arg4) :=
    (V2_of m o c main_arg4 (by decide)).trans <| (V1_of m c main_arg4 (by decide)).trans rfl
  show StableHlo.after hostOps1 _ (Proc.devRef .tc main_v2) = _
  after_results
  rw [e]
  rfl

theorem V5_v4 : Gen.V5 m o c main_v4 = shapeCast S1x4096 (m ((c : Thread nD τ).loc main_arg6)) shapeCasts_S4096_S1x4096 := by
  have e : Gen.V4 m o c main_arg6 = m ((c : Thread nD τ).loc main_arg6) :=
    (V4_of m o c main_arg6 (by decide)).trans <| (V3_of m o c main_arg6 (by decide)).trans <|
      (V2_of m o c main_arg6 (by decide)).trans <| (V1_of m c main_arg6 (by decide)).trans rfl
  show StableHlo.after hostOps2 _ (Proc.devRef .tc main_v4) = _
  after_results
  rw [e]
  rfl

theorem V7_v6 : Gen.V7 m o c main_v6 = shapeCast S1x1024 (m ((c : Thread nD τ).loc main_arg8)) shapeCasts_S1024_S1x1024 := by
  have e : Gen.V6 m o c main_arg8 = m ((c : Thread nD τ).loc main_arg8) :=
    (V6_of m o c main_arg8 (by decide)).trans <| (V5_of m o c main_arg8 (by decide)).trans <|
      (V4_of m o c main_arg8 (by decide)).trans <| (V3_of m o c main_arg8 (by decide)).trans <|
      (V2_of m o c main_arg8 (by decide)).trans <| (V1_of m c main_arg8 (by decide)).trans rfl
  show StableHlo.after hostOps3 _ (Proc.devRef .tc main_v6) = _
  after_results
  rw [e]
  rfl

/-! ## The previous layer's output read through the host reshape that follows it -/

theorem V3_v1 : Gen.V3 m o c main_v1 = o 2 main_v1 c :=
  (V3_of m o c main_v1 (by decide)).trans (Function.update_self _ _ _)

theorem V5_v3 : Gen.V5 m o c main_v3 = o 4 main_v3 c :=
  (V5_of m o c main_v3 (by decide)).trans (Function.update_self _ _ _)

theorem V7_v5 : Gen.V7 m o c main_v5 = o 6 main_v5 c :=
  (V7_of m o c main_v5 (by decide)).trans (Function.update_self _ _ _)

theorem V8_v7 : Gen.V8 m o c main_v7 = o 8 main_v7 c :=
  Function.update_self _ _ _

/-! ## On the extended reals the reshape of a vector to one row is the vector read as a row -/

open Idealize.ShloMosaic.ValueIdx in
theorem row_4096 (b : FVec Ideal S4096 .f32) : shapeCast S1x4096 b shapeCasts_S4096_S1x4096 = Cert.LayerSpec.row b := by
  funext j
  obtain ⟨u, q, rfl⟩ : ∃ (u : Fin 1) (q : Fin 4096), j = ix2 u q := ⟨j 0, j 1, eq_ix2 (n0 := 1) (n1 := 4096) j⟩
  exact shapeCast_a_1a_apply b _ u q

open Idealize.ShloMosaic.ValueIdx in
theorem row_1024 (b : FVec Ideal S1024 .f32) : shapeCast S1x1024 b shapeCasts_S1024_S1x1024 = Cert.LayerSpec.row b := by
  funext j
  obtain ⟨u, q, rfl⟩ : ∃ (u : Fin 1) (q : Fin 1024), j = ix2 u q := ⟨j 0, j 1, eq_ix2 (n0 := 1) (n1 := 1024) j⟩
  exact shapeCast_a_1a_apply b _ u q

end Cert.KernelIdeal.Between
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.KernelIdeal.Pay.lean ====
/-
  What the blocks of the dense-layer kernel compute, entry by entry, on the extended reals.

  The kernel works on a 512 x 1024 accumulator.  It is cleared (every entry zero); at every grid point the
  product of a 512 x 512 activation block and the transpose of a 1024 x 512 weight block is added to it,
  so entry (r, c) grows by the sum over k of x (r, k) * w (c, k); and at the last point the bias row is
  added to every row and, in the first three layers, the result is clamped below at zero.  On the extended
  reals a change of float format is the identity, so the narrowing steps disappear.  One group of three
  statements per layer: the layers differ only in the formats of the blocks, and the last has no clamp.
-/
import proofs.«118080_j56341380989394_1_alg».proof.Proof.Gen.KernelIdeal.Skeleton
import proofs.«118080_j56341380989394_1_alg».proof.Proof.LibPlainMatmul
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen
open Idealize.ShloMosaic Idealize.ShloMosaic.ValueIdx

/-- The kernel's dimension numbers are those of a plain 512 x 512 by 512 x 1024 product. -/
theorem dot_eq_plain : dot_S512x512_S512x1024_S512x1024_1_0_0_1_n_n = DotDims.plain 512 512 1024 := rfl

/-! ## Layer 0 -/

/-- The cleared accumulator is zero everywhere. -/
theorem pay1_0 (j : S512x1024.Idx) : k0_pay1 (F := Ideal) j = 0 := by
  unfold k0_pay1
  show shapeCast S512x1024 (broadcast S512x1024 (Ideal.ofBits .f32 0x00000000#32)) _ j = 0
  rw [shapeCast_self]
  exact Ideal.ofBits_zero_f32

/-- A grid point adds, at entry `(r, c)`, the sum over `k` of `x (r, k) * w (c, k)`. -/
theorem pay2_0 (x : Vec Ideal S512x512 .f32) (w : Vec Ideal S1024x512 .f32) (a : Vec Ideal S512x1024 .f32)
    (r : Fin 512) (c : Fin 1024) :
    k0_pay2 x w a (ix2 r c) = a (ix2 r c) + ∑ k : Fin 512, x (ix2 r k) * w (ix2 c k) := by
  unfold k0_pay2
  show shapeCast S512x1024 (addf (F := Ideal) (φ := .f32) a (matmul dot_S512x512_S512x1024_S512x1024_1_0_0_1_n_n none
      (truncf (F := Ideal) (φ := .f32) .bf16 x _) (transpose S512x1024 [1, 0] (truncf (F := Ideal) (φ := .f32) .bf16 w _) _)
      (constant S512x1024 .f32 0x00000000#32))) _ (ix2 r c) = _
  rw [shapeCast_self, addf_apply]
  refine congrArg (a (ix2 r c) + ·) ?_
  refine (Cert.PlainMatmul.matmul_plain_zero_apply _ _ none r c).trans ?_
  refine Finset.sum_congr rfl fun k _ => ?_
  rw [transpose_ix2_apply]
  rfl

/-- The last point stores the accumulator plus the bias row, clamped below at zero. -/
theorem pay3_0 (a : Vec Ideal S512x1024 .f32) (b : Vec Ideal S1x1024 .f32) (r : Fin 512) (c : Fin 1024) :
    k0_pay3 a b (ix2 r c) = max (a (ix2 r c) + b (ix2 0 c)) 0 := by
  unfold k0_pay3
  show max (a (ix2 r c) + broadcastTo S512x1024 (shapeCast S1x1024 b _) _ (ix2 r c)) (Ideal.ofBits .f32 0x00000000#32) = _
  rw [shapeCast_self, broadcastTo_1b_ab_apply, Ideal.ofBits_zero_f32]

/-! ## Layer 1 -/

/-- The cleared accumulator is zero everywhere. -/
theorem pay1_1 (j : S512x1024.Idx) : k1_pay1 (F := Ideal) j = 0 := by
  unfold k1_pay1
  show shapeCast S512x1024 (broadcast S512x1024 (Ideal.ofBits .f32 0x00000000#32)) _ j = 0
  rw [shapeCast_self]
  exact Ideal.ofBits_zero_f32

/-- A grid point adds, at entry `(r, c)`, the sum over `k` of `x (r, k) * w (c, k)`. -/
theorem pay2_1 (x : Vec Ideal S512x512 .bf16) (w : Vec Ideal S1024x512 .f32) (a : Vec Ideal S512x1024 .f32)
    (r : Fin 512) (c : Fin 1024) :
    k1_pay2 x w a (ix2 r c) = a (ix2 r c) + ∑ k : Fin 512, x (ix2 r k) * w (ix2 c k) := by
  unfold k1_pay2
  show shapeCast S512x1024 (addf (F := Ideal) (φ := .f32) a (matmul dot_S512x512_S512x1024_S512x1024_1_0_0_1_n_n none
      (φ₁ := .bf16) (φ₂ := .bf16) (shapeCast S512x512 x _)
      (transpose S512x1024 [1, 0] (truncf (F := Ideal) (φ := .f32) .bf16 w _) _)
      (constant S512x1024 .f32 0x00000000#32))) _ (ix2 r c) = _
  rw [shapeCast_self, shapeCast_self, addf_apply]
  refine congrArg (a (ix2 r c) + ·) ?_
  refine (Cert.PlainMatmul.matmul_plain_zero_apply _ _ none r c).trans ?_
  refine Finset.sum_congr rfl fun k _ => ?_
  rw [transpose_ix2_apply]
  rfl

/-- The last point stores the accumulator plus the bias row, clamped below at zero. -/
theorem pay3_1 (a : Vec Ideal S512x1024 .f32) (b : Vec Ideal S1x1024 .f32) (r : Fin 512) (c : Fin 1024) :
    k1_pay3 a b (ix2 r c) = max (a (ix2 r c) + b (ix2 0 c)) 0 := by
  unfold k1_pay3
  show max (a (ix2 r c) + broadcastTo S512x1024 (shapeCast S1x1024 b _) _ (ix2 r c)) (Ideal.ofBits .f32 0x00000000#32) = _
  rw [shapeCast_self, broadcastTo_1b_ab_apply, Ideal.ofBits_zero_f32]

/-! ## Layer 2 -/

/-- The cleared accumulator is zero everywhere. -/
theorem pay1_2 (j : S512x1024.Idx) : k2_pay1 (F := Ideal) j = 0 := by
  unfold k2_pay1
  show shapeCast S512x1024 (broadcast S512x1024 (Ideal.ofBits .f32 0x00000000#32)) _ j = 0
  rw [shapeCast_self]
  exact Ideal.ofBits_zero_f32

/-- A grid point adds, at entry `(r, c)`, the sum over `k` of `x (r, k) * w (c, k)`. -/
theorem pay2_2 (x : Vec Ideal S512x512 .bf16) (w : Vec Ideal S1024x512 .f32) (a : Vec Ideal S512x1024 .f32)
    (r : Fin 512) (c : Fin 1024) :
    k2_pay2 x w a (ix2 r c) = a (ix2 r c) + ∑ k : Fin 512, x (ix2 r k) * w (ix2 c k) := by
  unfold k2_pay2
  show shapeCast S512x1024 (addf (F := Ideal) (φ := .f32) a (matmul dot_S512x512_S512x1024_S512x1024_1_0_0_1_n_n none
      (φ₁ := .bf16) (φ₂ := .bf16) (shapeCast S512x512 x _)
      (transpose S512x1024 [1, 0] (truncf (F := Ideal) (φ := .f32) .bf16 w _) _)
      (constant S512x1024 .f32 0x00000000#32))) _ (ix2 r c) = _
  rw [shapeCast_self, shapeCast_self, addf_apply]
  refine congrArg (a (ix2 r c) + ·) ?_
  refine (Cert.PlainMatmul.matmul_plain_zero_apply _ _ none r c).trans ?_
  refine Finset.sum_congr rfl fun k _ => ?_
  rw [transpose_ix2_apply]
  rfl

/-- The last point stores the accumulator plus the bias row, clamped below at zero. -/
theorem pay3_2 (a : Vec Ideal S512x1024 .f32) (b : Vec Ideal S1x1024 .f32) (r : Fin 512) (c : Fin 1024) :
    k2_pay3 a b (ix2 r c) = max (a (ix2 r c) + b (ix2 0 c)) 0 := by
  unfold k2_pay3
  show max (a (ix2 r c) + broadcastTo S512x1024 (shapeCast S1x1024 b _) _ (ix2 r c)) (Ideal.ofBits .f32 0x00000000#32) = _
  rw [shapeCast_self, broadcastTo_1b_ab_apply, Ideal.ofBits_zero_f32]

/-! ## Layer 3 -/

/-- The cleared accumulator is zero everywhere. -/
theorem pay1_3 (j : S512x1024.Idx) : k3_pay1 (F := Ideal) j = 0 := by
  unfold k3_pay1
  show shapeCast S512x1024 (broadcast S512x1024 (Ideal.ofBits .f32 0x00000000#32)) _ j = 0
  rw [shapeCast_self]
  exact Ideal.ofBits_zero_f32

/-- A grid point adds, at entry `(r, c)`, the sum over `k` of `x (r, k) * w (c, k)`. -/
theorem pay2_3 (x : Vec Ideal S512x512 .bf16) (w : Vec Ideal S1024x512 .f32) (a : Vec Ideal S512x1024 .f32)
    (r : Fin 512) (c : Fin 1024) :
    k3_pay2 x w a (ix2 r c) = a (ix2 r c) + ∑ k : Fin 512, x (ix2 r k) * w (ix2 c k) := by
  unfold k3_pay2
  show shapeCast S512x1024 (addf (F := Ideal) (φ := .f32) a (matmul dot_S512x512_S512x1024_S512x1024_1_0_0_1_n_n none
      (φ₁ := .bf16) (φ₂ := .bf16) (shapeCast S512x512 x _)
      (transpose S512x1024 [1, 0] (truncf (F := Ideal) (φ := .f32) .bf16 w _) _)
      (constant S512x1024 .f32 0x00000000#32))) _ (ix2 r c) = _
  rw [shapeCast_self, shapeCast_self, addf_apply]
  refine congrArg (a (ix2 r c) + ·) ?_
  refine (Cert.PlainMatmul.matmul_plain_zero_apply _ _ none r c).trans ?_
  refine Finset.sum_congr rfl fun k _ => ?_
  rw [transpose_ix2_apply]
  rfl

/-- The last point stores the accumulator plus the bias row; this layer does not clamp. -/
theorem pay3_3 (a : Vec Ideal S512x1024 .f32) (b : Vec Ideal S1x1024 .f32) (r : Fin 512) (c : Fin 1024) :
    k3_pay3 a b (ix2 r c) = a (ix2 r c) + b (ix2 0 c) := by
  unfold k3_pay3
  show a (ix2 r c) + broadcastTo S512x1024 (shapeCast S1x1024 b _) _ (ix2 r c) = _
  rw [shapeCast_self, broadcastTo_1b_ab_apply]

end Cert.KernelIdeal.Pay
-- ==== Proof.LibBlockSum.lean ====
/-
  A sum taken block by block.  A sequence of `J * B` terms cut into `J` consecutive blocks of `B` terms — block
  `s` holds the terms at `s * B`, …, `s * B + (B - 1)` — has the same sum whether the blocks are summed one
  after another or the terms all at once.  The terms live in any commutative additive monoid.
-/
import Mathlib.Algebra.BigOperators.Fin
import Mathlib.Algebra.BigOperators.Group.Finset.Basic

namespace Cert.BlockSum

/-- The same over initial segments of the naturals: `J` blocks of `B` terms make up the first `J * B` terms
    (one more block extends the segment by `B` terms). -/
theorem sum_blocks_range {β : Type*} [AddCommMonoid β] (J B : ℕ) (f : ℕ → β) :
    ∑ s ∈ Finset.range J, ∑ k ∈ Finset.range B, f (s * B + k) = ∑ k ∈ Finset.range (J * B), f k := by
  induction J with
  | zero => rw [Nat.zero_mul, Finset.sum_range_zero, Finset.sum_range_zero]
  | succ J ih => rw [Finset.sum_range_succ, ih, Nat.succ_mul, Finset.sum_range_add]

/-- Summing `J` consecutive blocks of `B` terms of a sequence `f`, block `s` being the terms `f (s * B + k)` for
    `k < B`, gives the sum of the first `J * B` terms of `f`. -/
theorem sum_blocks {β : Type*} [AddCommMonoid β] (J B : ℕ) (f : ℕ → β) :
    ∑ s ∈ Finset.range J, ∑ k : Fin B, f (s * B + k.val) = ∑ k : Fin (J * B), f k.val :=
  calc ∑ s ∈ Finset.range J, ∑ k : Fin B, f (s * B + k.val)
      = ∑ s ∈ Finset.range J, ∑ k ∈ Finset.range B, f (s * B + k) :=
        Finset.sum_congr rfl fun s _ => (Finset.sum_range fun k => f (s * B + k)).symm
    _ = ∑ k ∈ Finset.range (J * B), f k := sum_blocks_range J B f
    _ = ∑ k : Fin (J * B), f k.val := Finset.sum_range f

end Cert.BlockSum
-- ==== Proof.KernelIdeal.Value0.lean ====
/-
  The output array of the first dense layer.  The grid has 128 points `t = ((i * 4) + jj) * 4 + k`: `i < 8` row
  blocks of 512 rows, `jj < 4` column blocks of 1024 columns, `k < 4` contraction blocks of 512 indices, `k`
  innermost.  At point `t` the activation block is rows `i * 512 …`, contraction indices `k * 512 …` of the
  activation array; the weight block rows `jj * 1024 …`, contraction indices `k * 512 …` of the weight array; the
  bias block columns `jj * 1024 …` of the bias row; the output block rows `i * 512 …`, columns `jj * 1024 …`.

  Over the run of four points that share `i` and `jj` the accumulator starts from zero and every point adds, at
  entry `(p, r)`, the sum over its 512 contraction indices of activation times weight; four consecutive blocks
  of 512 terms are the whole contraction of 2048 terms.  The run's last point writes back the accumulator plus
  the bias, clamped below at zero: the output block of the clamped dense layer.  The 32 blocks written back tile
  the 4096 x 4096 output array, so the array ends at the clamped dense layer of the three arrays.
-/
import proofs.«118080_j56341380989394_1_alg».proof.Proof.KernelIdeal.Frame0
import proofs.«118080_j56341380989394_1_alg».proof.Proof.LayerSpec
import proofs.«118080_j56341380989394_1_alg».proof.Proof.KernelIdeal.Pay
import proofs.«118080_j56341380989394_1_alg».proof.Proof.LibBlockSum
import Idealize.ShloMosaic.Lib.Pipeline.Value
import Idealize.ShloMosaic.Lib.ValueIdx

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block index maps over the grid -/

theorem idx_facts : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = 0 ∧ win0_2.index t (1 : Fin 2) = (t.val / 4) % 4
    ∧ win0_3.index t (0 : Fin 2) = t.val / 16 ∧ win0_3.index t (1 : Fin 2) = (t.val / 4) % 4 :=
  (by decide +kernel : ∀ t : Fin grid0.N, _)

variable (V : (c : Dev nD) → (b : Ref sig .tc) → Buf (Elt Ideal) ((c : Thread nD τ).loc b))

/-! ## The arrays and the blocks, at their literal types -/

/-- The activation array. -/
abbrev xarr (c : Dev nD) : Vec Ideal S4096x2048 .f32 := V c main_arg0
/-- The weight array. -/
abbrev warr (c : Dev nD) : Vec Ideal S4096x2048 .f32 := V c main_arg1
/-- The bias row. -/
abbrev barr (c : Dev nD) : Vec Ideal S1x4096 .f32 := V c main_v0

/-- The activation block at point `t`. -/
abbrev xblk (c : Dev nD) (t : Fin cfg0.N) : Vec Ideal S512x512 .f32 := iblk V c 0 t
/-- The weight block at point `t`. -/
abbrev wblk (c : Dev nD) (t : Fin cfg0.N) : Vec Ideal S1024x512 .f32 := iblk V c 1 t
/-- The bias block at point `t`. -/
abbrev bblk (c : Dev nD) (t : Fin cfg0.N) : Vec Ideal S1x1024 .f32 := iblk V c 2 t

/-- The activation block at `t` holds rows `(t / 16) * 512 + p`, contraction indices `(t % 4) * 512 + q`. -/
theorem xblk_apply (c : Dev nD) (t : Fin cfg0.N) (p q : Fin 512) (i : S4096x2048.Idx)
    (h0 : (i 0).val = t.val / 16 * 512 + p.val) (h1 : (i 1).val = t.val % 4 * 512 + q.val) :
    xblk V c t (ix2 p q) = xarr V c i := by
  obtain ⟨e0, e1, -⟩ := idx_facts t
  show V c main_arg0 (((cfg0.win 0).blk t).view.emb (ix2 p q)) = V c main_arg0 i
  congr 1
  funext a
  apply Fin.ext
  match a with
  | ⟨0, _⟩ => show win0_0.index t (0 : Fin 2) * 512 + 1 * p.val = (i 0).val; rw [e0, h0]; omega
  | ⟨1, _⟩ => show win0_0.index t (1 : Fin 2) * 512 + 1 * q.val = (i 1).val; rw [e1, h1]; omega

/-- The weight block at `t` holds columns `((t / 4) % 4) * 1024 + p`, contraction indices `(t % 4) * 512 + q`. -/
theorem wblk_apply (c : Dev nD) (t : Fin cfg0.N) (p : Fin 1024) (q : Fin 512) (i : S4096x2048.Idx)
    (h0 : (i 0).val = (t.val / 4) % 4 * 1024 + p.val) (h1 : (i 1).val = t.val % 4 * 512 + q.val) :
    wblk V c t (ix2 p q) = warr V c i := by
  obtain ⟨-, -, e0, e1, -⟩ := idx_facts t
  show V c main_arg1 (((cfg0.win 1).blk t).view.emb (ix2 p q)) = V c main_arg1 i
  congr 1
  funext a
  apply Fin.ext
  match a with
  | ⟨0, _⟩ => show win0_1.index t (0 : Fin 2) * 1024 + 1 * p.val = (i 0).val; rw [e0, h0]; omega
  | ⟨1, _⟩ => show win0_1.index t (1 : Fin 2) * 512 + 1 * q.val = (i 1).val; rw [e1, h1]; omega

/-- The bias block at `t` holds columns `((t / 4) % 4) * 1024 + q` of the one row. -/
theorem bblk_apply (c : Dev nD) (t : Fin cfg0.N) (q : Fin 1024) (i : S1x4096.Idx)
    (h1 : (i 1).val = (t.val / 4) % 4 * 1024 + q.val) :
    bblk V c t (ix2 0 q) = barr V c i := by
  obtain ⟨-, -, -, -, e0, e1, -⟩ := idx_facts t
  show V c main_v0 (((cfg0.win 2).blk t).view.emb (ix2 0 q)) = V c main_v0 i
  congr 1
  funext a
  apply Fin.ext
  match a with
  | ⟨0, _⟩ => show win0_2.index t (0 : Fin 2) * 1 + 1 * 0 = (i 0).val; rw [e0]; have : (i 0).val < 1 := (i 0).isLt; omega
  | ⟨1, _⟩ => show win0_2.index t (1 : Fin 2) * 1024 + 1 * q.val = (i 1).val; rw [e1, h1]; omega

/-! ## The scratch over one run of four points -/

/-- What point `n` adds at entry `(p, r)`: its activation block's row `p` against its weight block's row `r`. -/
def addend (c : Dev nD) (n : ℕ) (p : Fin 512) (r : Fin 1024) : EReal :=
  if h : n < cfg0.N then ∑ kk : Fin 512, xblk V c ⟨n, h⟩ (ix2 p kk) * wblk V c ⟨n, h⟩ (ix2 r kk) else 0

/-- After the point at offset `j` of the run starting at `4 * q` the scratch holds the sum of the addends so far. -/
theorem accAt_run (c : Dev nD) (q : ℕ) : ∀ (j : ℕ) (hj : j < 4) (h : 4 * q + j < cfg0.N) (p : Fin 512) (r : Fin 1024),
    accAt V c (4 * q + j) h (ix2 p r) = ∑ s ∈ Finset.range (j + 1), addend V c (4 * q + s) p r
  | 0, _, h, p, r => by
    rw [accAt_reset V c (4 * q + 0) h (by omega)]
    refine (Cert.KernelIdeal.Pay.pay2_0 (xblk V c ⟨4 * q + 0, h⟩) (wblk V c ⟨4 * q + 0, h⟩) (k0_pay1 (F := Ideal)) p r).trans ?_
    rw [Cert.KernelIdeal.Pay.pay1_0, zero_add, Finset.sum_range_one]
    unfold addend
    rw [dif_pos h]
  | j + 1, hj, h, p, r => by
    show accAt V c (4 * q + j + 1) h (ix2 p r) = _
    rw [accAt_step V c (4 * q + j) h (by omega)]
    refine (Cert.KernelIdeal.Pay.pay2_0 (xblk V c ⟨4 * q + j + 1, h⟩) (wblk V c ⟨4 * q + j + 1, h⟩)
      (accAt V c (4 * q + j) (Nat.lt_of_succ_lt h)) p r).trans ?_
    rw [accAt_run c q j (by omega) (Nat.lt_of_succ_lt h) p r, Finset.sum_range_succ _ (j + 1)]
    refine congrArg (_ + ·) ?_
    unfold addend
    rw [dif_pos h]
    rfl

/-! ## The addends as entries of the whole arrays -/

/-- Row `i` of the activations against row `j` of the weights at contraction index `k` (zero past the extent). -/
def term (c : Dev nD) (i j : Fin 4096) (k : ℕ) : EReal :=
  if h : k < 2048 then xarr V c (ix2 i ⟨k, h⟩) * warr V c (ix2 j ⟨k, h⟩) else 0

/-- The point at offset `s` of run `q` adds the contraction indices `s * 512 … s * 512 + 511` of row `(q / 4) * 512 + p`
    against row `(q % 4) * 1024 + r`. -/
theorem addend_eq (c : Dev nD) (q s : ℕ) (hs : s < 4) (h : 4 * q + s < cfg0.N) (p : Fin 512) (r : Fin 1024)
    (i j : Fin 4096) (hi : i.val = q / 4 * 512 + p.val) (hj : j.val = q % 4 * 1024 + r.val) :
    addend V c (4 * q + s) p r = ∑ kk : Fin 512, term V c i j (s * 512 + kk.val) := by
  unfold addend
  rw [dif_pos h]
  refine Finset.sum_congr rfl fun kk _ => ?_
  have hk : s * 512 + kk.val < 2048 := by have := kk.isLt; omega
  unfold term
  rw [dif_pos hk]
  exact congrArg₂ (· * ·)
    (xblk_apply V c ⟨4 * q + s, h⟩ p kk (ix2 i ⟨s * 512 + kk.val, hk⟩)
      (by show i.val = (4 * q + s) / 16 * 512 + p.val; omega)
      (by show s * 512 + kk.val = (4 * q + s) % 4 * 512 + kk.val; omega))
    (wblk_apply V c ⟨4 * q + s, h⟩ r kk (ix2 j ⟨s * 512 + kk.val, hk⟩)
      (by show j.val = (4 * q + s) / 4 % 4 * 1024 + r.val; omega)
      (by show s * 512 + kk.val = (4 * q + s) % 4 * 512 + kk.val; omega))

/-- After its last point a run's scratch holds, at `(p, r)`, the whole contraction of the two rows. -/
theorem acc_last (c : Dev nD) (q : ℕ) (h : 4 * q + 3 < cfg0.N) (p : Fin 512) (r : Fin 1024)
    (i j : Fin 4096) (hi : i.val = q / 4 * 512 + p.val) (hj : j.val = q % 4 * 1024 + r.val) :
    accAt V c (4 * q + 3) h (ix2 p r) = ∑ k : Fin 2048, xarr V c (ix2 i k) * warr V c (ix2 j k) := by
  rw [accAt_run V c q 3 (by omega) h p r]
  rw [Finset.sum_congr rfl (fun s hs => addend_eq V c q s (Finset.mem_range.mp hs)
    (by have := Finset.mem_range.mp hs; omega) p r i j hi hj)]
  refine (Cert.BlockSum.sum_blocks 4 512 (term V c i j)).trans ?_
  show ∑ k : Fin 2048, term V c i j k.val = _
  refine Finset.sum_congr rfl fun k _ => ?_
  unfold term
  rw [dif_pos k.isLt]

/-- The same at any point that ends a run, named by itself. -/
theorem acc_flush (c : Dev nD) (n : ℕ) (hn : n < cfg0.N) (h3 : n % 4 = 3) (p : Fin 512) (r : Fin 1024)
    (i j : Fin 4096) (hi : i.val = n / 16 * 512 + p.val) (hj : j.val = n / 4 % 4 * 1024 + r.val) :
    accAt V c n hn (ix2 p r) = ∑ k : Fin 2048, xarr V c (ix2 i k) * warr V c (ix2 j k) := by
  obtain ⟨q, rfl⟩ : ∃ q, n = 4 * q + 3 := ⟨n / 4, by omega⟩
  exact acc_last V c q hn p r i j (by omega) (by omega)

/-! ## What a run's last point writes back -/

/-- What the output array ends holding: the clamped dense layer of the three arrays. -/
abbrev result (c : Dev nD) : Vec Ideal S4096x4096 .bf16 :=
  Cert.LayerSpec.clamp (Cert.LayerSpec.dense (xarr V c) (warr V c) (barr V c))

/-- A point that writes back writes its block of the clamped dense layer. -/
theorem flushed_eq (c : Dev nD) (t : Fin cfg0.N) (hf : (cfg0.win 3).flush t = true) :
    (dat V c).flushed 3 t = ((cfg0.win 3).blk t).view.read (Elt Ideal) (result V c) := by
  have h3 : t.val % 4 = 3 := (flush0_3 t).mp hf
  have hN : cfg0.N = 128 := N_0
  have ht : t.val < 128 := hN ▸ t.isLt
  obtain ⟨-, -, -, -, -, -, e0, e1⟩ := idx_facts t
  show (cfg0.win 3).cut (grid0.coords t) ((dat V c).after 3 t) = _
  rw [after_3]
  funext y
  obtain ⟨p, r, rfl⟩ : ∃ (p : Fin 512) (r : Fin 1024), y = ix2 p r := ⟨y 0, y 1, eq_ix2 (n0 := 512) (n1 := 1024) y⟩
  show k0_pay3 (accAt V c t.val t.isLt) (bblk V c t) (ix2 p r) = result V c (((cfg0.win 3).blk t).view.emb (ix2 p r))
  refine (Cert.KernelIdeal.Pay.pay3_0 (accAt V c t.val t.isLt) (bblk V c t) p r).trans ?_
  have hp := p.isLt
  have hr := r.isLt
  obtain ⟨i, hi⟩ : ∃ i : Fin 4096, i.val = t.val / 16 * 512 + p.val := ⟨⟨t.val / 16 * 512 + p.val, by omega⟩, rfl⟩
  obtain ⟨j, hj⟩ : ∃ j : Fin 4096, j.val = t.val / 4 % 4 * 1024 + r.val := ⟨⟨t.val / 4 % 4 * 1024 + r.val, by omega⟩, rfl⟩
  have hemb : ((cfg0.win 3).blk t).view.emb (ix2 p r) = (ix2 i j : S4096x4096.Idx) := by
    funext a
    apply Fin.ext
    match a with
    | ⟨0, _⟩ => show win0_3.index t (0 : Fin 2) * 512 + 1 * p.val = i.val; rw [e0, hi]; omega
    | ⟨1, _⟩ => show win0_3.index t (1 : Fin 2) * 1024 + 1 * r.val = j.val; rw [e1, hj]; omega
  rw [hemb, acc_flush V c t.val t.isLt h3 p r i j hi hj, bblk_apply V c t r (ix2 0 j) hj]
  rfl

/-! ## The blocks written back tile the output array -/

/-- An index of the output array is in point `t`'s block iff each coordinate is in the block's range on its axis. -/
theorem mem_blk (t : Fin cfg0.N) (i : S4096x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Entry `(r, col)` lies in the block written back at the last point of the run of row block `r / 512` and
    column block `col / 1024`. -/
theorem cover (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 128 := N_0
  obtain ⟨t, ht⟩ : ∃ t : Fin cfg0.N, t.val = ((i 0).val / 512 * 4 + (i 1).val / 1024) * 4 + 3 :=
    ⟨⟨((i 0).val / 512 * 4 + (i 1).val / 1024) * 4 + 3, by rw [hN]; omega⟩, rfl⟩
  obtain ⟨-, -, -, -, -, -, e0, e1⟩ := idx_facts t
  refine ⟨t, (flush0_3 t).mpr (by rw [ht]; omega), ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1024 ≤ (i 1).val ∧ (i 1).val < win0_3.index t (1 : Fin 2) * 1024 + 1024
    rw [e1, ht]; omega

/-! ## The output array after the region -/

/-- The output array ends at the clamped dense layer of the activation array, the weight array and the bias row. -/
theorem out_eq (c : Dev nD) :
    (dat (F := Ideal) V c).arrAt 3 cfg0.N
      = Cert.LayerSpec.clamp (Cert.LayerSpec.dense (V c main_arg0) (V c main_arg1) (V c main_v0)) :=
  (dat V c).arrAt_eq_of_cover 3 (result V c) (flushed_eq V c) cover

end Cert.KernelIdeal.Layer0

end
-- ==== Proof.KernelIdeal.Value1.lean ====
/-
  The second dense layer's pipeline, read as one array.  The grid's points run over row blocks, column
  blocks and, innermost, eight contraction blocks of 512.  Over one run of eight points the scratch gathers,
  at entry (p, r), the contraction over all 4096 indices of an activation row against a weight row; the
  last point of the run adds the bias entry of the column and clamps below at zero, and that block is what
  the output array receives.  The output's blocks tile the array, so the array ends as the dense layer
  followed by the clamp.
-/
import proofs.«118080_j56341380989394_1_alg».proof.Proof.KernelIdeal.Frame1
import proofs.«118080_j56341380989394_1_alg».proof.Proof.KernelIdeal.Pay
import proofs.«118080_j56341380989394_1_alg».proof.Proof.LibBlockSum
import proofs.«118080_j56341380989394_1_alg».proof.Proof.LayerSpec

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block index maps over the grid -/

/-- Point `t` is row block `t / 32`, column block `(t / 8) % 4`, contraction block `t % 8`. -/
theorem idx_facts : ∀ t : Fin cfg1.N,
    win1_0.index t (0 : Fin 2) = t.val / 32 ∧ win1_0.index t (1 : Fin 2) = t.val % 8
    ∧ win1_1.index t (0 : Fin 2) = (t.val / 8) % 4 ∧ win1_1.index t (1 : Fin 2) = t.val % 8
    ∧ win1_2.index t (0 : Fin 2) = 0 ∧ win1_2.index t (1 : Fin 2) = (t.val / 8) % 4
    ∧ win1_3.index t (0 : Fin 2) = t.val / 32 ∧ win1_3.index t (1 : Fin 2) = (t.val / 8) % 4 :=
  (by decide +kernel : ∀ t : Fin grid1.N, _)

variable (V : (c : Dev nD) → (b : Ref sig .tc) → Buf (Elt Ideal) ((c : Thread nD τ).loc b))

/-! ## The arrays and the blocks, at their literal types -/

/-- The activation array. -/
abbrev xarr (c : Dev nD) : Vec Ideal S4096x4096 .bf16 := V c main_v1
/-- The weight array. -/
abbrev warr (c : Dev nD) : Vec Ideal S4096x4096 .f32 := V c main_arg3
/-- The bias row. -/
abbrev barr (c : Dev nD) : Vec Ideal S1x4096 .f32 := V c main_v2

/-- The activation block at point `t`. -/
abbrev xblk (c : Dev nD) (t : Fin cfg1.N) : Vec Ideal S512x512 .bf16 := iblk V c 0 t
/-- The weight block at point `t`. -/
abbrev wblk (c : Dev nD) (t : Fin cfg1.N) : Vec Ideal S1024x512 .f32 := iblk V c 1 t
/-- The bias block at point `t`. -/
abbrev bblk (c : Dev nD) (t : Fin cfg1.N) : Vec Ideal S1x1024 .f32 := iblk V c 2 t

/-- The activation block at `t` holds rows `(t / 32) * 512 + p`, contraction indices `(t % 8) * 512 + q`. -/
theorem xblk_apply (c : Dev nD) (t : Fin cfg1.N) (p q : Fin 512) (i : S4096x4096.Idx)
    (h0 : (i 0).val = t.val / 32 * 512 + p.val) (h1 : (i 1).val = t.val % 8 * 512 + q.val) :
    xblk V c t (ix2 p q) = xarr V c i := by
  obtain ⟨e0, e1, -⟩ := idx_facts t
  show V c main_v1 (((cfg1.win 0).blk t).view.emb (ix2 p q)) = V c main_v1 i
  congr 1
  funext a
  apply Fin.ext
  match a with
  | ⟨0, _⟩ => show win1_0.index t (0 : Fin 2) * 512 + 1 * p.val = (i 0).val; rw [e0, h0]; omega
  | ⟨1, _⟩ => show win1_0.index t (1 : Fin 2) * 512 + 1 * q.val = (i 1).val; rw [e1, h1]; omega

/-- The weight block at `t` holds rows `((t / 8) % 4) * 1024 + p`, contraction indices `(t % 8) * 512 + q`. -/
theorem wblk_apply (c : Dev nD) (t : Fin cfg1.N) (p : Fin 1024) (q : Fin 512) (i : S4096x4096.Idx)
    (h0 : (i 0).val = (t.val / 8) % 4 * 1024 + p.val) (h1 : (i 1).val = t.val % 8 * 512 + q.val) :
    wblk V c t (ix2 p q) = warr V c i := by
  obtain ⟨-, -, e0, e1, -⟩ := idx_facts t
  show V c main_arg3 (((cfg1.win 1).blk t).view.emb (ix2 p q)) = V c main_arg3 i
  congr 1
  funext a
  apply Fin.ext
  match a with
  | ⟨0, _⟩ => show win1_1.index t (0 : Fin 2) * 1024 + 1 * p.val = (i 0).val; rw [e0, h0]; omega
  | ⟨1, _⟩ => show win1_1.index t (1 : Fin 2) * 512 + 1 * q.val = (i 1).val; rw [e1, h1]; omega

/-- The bias block at `t` holds columns `((t / 8) % 4) * 1024 + q` of the one row. -/
theorem bblk_apply (c : Dev nD) (t : Fin cfg1.N) (q : Fin 1024) (i : S1x4096.Idx)
    (h1 : (i 1).val = (t.val / 8) % 4 * 1024 + q.val) :
    bblk V c t (ix2 0 q) = barr V c i := by
  obtain ⟨-, -, -, -, e0, e1, -⟩ := idx_facts t
  show V c main_v2 (((cfg1.win 2).blk t).view.emb (ix2 0 q)) = V c main_v2 i
  congr 1
  funext a
  apply Fin.ext
  match a with
  | ⟨0, _⟩ => show win1_2.index t (0 : Fin 2) * 1 + 1 * 0 = (i 0).val; rw [e0]; have : (i 0).val < 1 := (i 0).isLt; omega
  | ⟨1, _⟩ => show win1_2.index t (1 : Fin 2) * 1024 + 1 * q.val = (i 1).val; rw [e1, h1]; omega

/-! ## The scratch over one run of eight points -/

/-- What point `n` adds at entry `(p, r)`: row `p` of its activation block against row `r` of its weight block. -/
def addend (c : Dev nD) (n : ℕ) (p : Fin 512) (r : Fin 1024) : EReal :=
  if h : n < cfg1.N then ∑ kk : Fin 512, xblk V c ⟨n, h⟩ (ix2 p kk) * wblk V c ⟨n, h⟩ (ix2 r kk) else 0

/-- After the point at offset `j` of the run starting at `8 * q` the scratch holds the sum of the addends so far. -/
theorem accAt_run (c : Dev nD) (q : ℕ) : ∀ (j : ℕ) (hj : j < 8) (h : 8 * q + j < cfg1.N) (p : Fin 512) (r : Fin 1024),
    accAt V c (8 * q + j) h (ix2 p r) = ∑ s ∈ Finset.range (j + 1), addend V c (8 * q + s) p r
  | 0, _, h, p, r => by
    rw [accAt_reset V c (8 * q + 0) h (by omega)]
    refine (Cert.KernelIdeal.Pay.pay2_1 (xblk V c ⟨8 * q + 0, h⟩) (wblk V c ⟨8 * q + 0, h⟩) (k1_pay1 (F := Ideal)) p r).trans ?_
    rw [Cert.KernelIdeal.Pay.pay1_1, zero_add, Finset.sum_range_one]
    unfold addend
    rw [dif_pos h]
  | j + 1, hj, h, p, r => by
    show accAt V c (8 * q + j + 1) h (ix2 p r) = _
    rw [accAt_step V c (8 * q + j) h (by omega)]
    refine (Cert.KernelIdeal.Pay.pay2_1 (xblk V c ⟨8 * q + j + 1, h⟩) (wblk V c ⟨8 * q + j + 1, h⟩)
      (accAt V c (8 * q + j) (Nat.lt_of_succ_lt h)) p r).trans ?_
    rw [accAt_run c q j (by omega) (Nat.lt_of_succ_lt h) p r, Finset.sum_range_succ _ (j + 1)]
    refine congrArg (_ + ·) ?_
    unfold addend
    rw [dif_pos h]
    rfl

/-! ## The addends as entries of the whole arrays -/

/-- Row `i` of the activations against row `j` of the weights at contraction index `k` (zero past the extent). -/
def term (c : Dev nD) (i j : Fin 4096) (k : ℕ) : EReal :=
  if h : k < 4096 then xarr V c (ix2 i ⟨k, h⟩) * warr V c (ix2 j ⟨k, h⟩) else 0

/-- The point at offset `s` of run `q` adds the contraction indices `s * 512 … s * 512 + 511` of activation row
    `(q / 4) * 512 + p` against weight row `(q % 4) * 1024 + r`. -/
theorem addend_eq (c : Dev nD) (q s : ℕ) (hs : s < 8) (h : 8 * q + s < cfg1.N) (p : Fin 512) (r : Fin 1024)
    (i j : Fin 4096) (hi : i.val = q / 4 * 512 + p.val) (hj : j.val = q % 4 * 1024 + r.val) :
    addend V c (8 * q + s) p r = ∑ kk : Fin 512, term V c i j (s * 512 + kk.val) := by
  unfold addend
  rw [dif_pos h]
  refine Finset.sum_congr rfl fun kk _ => ?_
  have hk : s * 512 + kk.val < 4096 := by have := kk.isLt; omega
  unfold term
  rw [dif_pos hk]
  exact congrArg₂ (· * ·)
    (xblk_apply V c ⟨8 * q + s, h⟩ p kk (ix2 i ⟨s * 512 + kk.val, hk⟩)
      (by show i.val = (8 * q + s) / 32 * 512 + p.val; omega)
      (by show s * 512 + kk.val = (8 * q + s) % 8 * 512 + kk.val; omega))
    (wblk_apply V c ⟨8 * q + s, h⟩ r kk (ix2 j ⟨s * 512 + kk.val, hk⟩)
      (by show j.val = (8 * q + s) / 8 % 4 * 1024 + r.val; omega)
      (by show s * 512 + kk.val = (8 * q + s) % 8 * 512 + kk.val; omega))

/-- After its last point a run's scratch holds, at `(p, r)`, the whole contraction of the two rows. -/
theorem acc_last (c : Dev nD) (q : ℕ) (h : 8 * q + 7 < cfg1.N) (p : Fin 512) (r : Fin 1024)
    (i j : Fin 4096) (hi : i.val = q / 4 * 512 + p.val) (hj : j.val = q % 4 * 1024 + r.val) :
    accAt V c (8 * q + 7) h (ix2 p r) = ∑ k : Fin 4096, xarr V c (ix2 i k) * warr V c (ix2 j k) := by
  rw [accAt_run V c q 7 (by omega) h p r]
  rw [Finset.sum_congr rfl (fun s hs => addend_eq V c q s (Finset.mem_range.mp hs)
    (by have := Finset.mem_range.mp hs; omega) p r i j hi hj)]
  refine (Cert.BlockSum.sum_blocks 8 512 (term V c i j)).trans ?_
  show ∑ k : Fin 4096, term V c i j k.val = _
  refine Finset.sum_congr rfl fun k _ => ?_
  unfold term
  rw [dif_pos k.isLt]

/-! ## What a storing point writes back, and the whole array -/

/-- The layer's result as one array: the dense layer of the activations, the weights and the bias row, clamped
    below at zero. -/
abbrev result (c : Dev nD) : Vec Ideal S4096x4096 .bf16 :=
  Cert.LayerSpec.clamp (Cert.LayerSpec.dense (V c main_v1) (V c main_arg3) (V c main_v2))

/-- Entry `(i, j)` of the result. -/
theorem result_apply (c : Dev nD) (i j : Fin 4096) :
    result V c (ix2 i j) = max ((∑ k : Fin 4096, xarr V c (ix2 i k) * warr V c (ix2 j k)) + barr V c (ix2 0 j)) 0 := rfl

/-- The point that ends a run of eight writes back its block of the result. -/
theorem flushed_eq (c : Dev nD) (t : Fin cfg1.N) (hf : (cfg1.win 3).flush t = true) :
    (dat V c).flushed 3 t = ((cfg1.win 3).blk t).view.read (Elt Ideal) (result V c) := by
  have h7 : t.val % 8 = 7 := (flush1_3 t).mp hf
  have hN : t.val < 256 := lt_of_lt_of_eq t.isLt N_1
  obtain ⟨-, -, -, -, -, -, e0, e1⟩ := idx_facts t
  show (cfg1.win 3).cut (grid1.coords t) ((dat V c).after 3 t) = _
  rw [after_3]
  funext y
  obtain ⟨p, r, rfl⟩ : ∃ (p : Fin 512) (r : Fin 1024), y = ix2 p r := ⟨y 0, y 1, eq_ix2 y⟩
  show k1_pay3 (accAt V c t.val t.isLt) (bblk V c t) (ix2 p r) = result V c (((cfg1.win 3).blk t).view.emb (ix2 p r))
  have hi : t.val / 32 * 512 + p.val < 4096 := by have := p.isLt; omega
  have hj : t.val / 8 % 4 * 1024 + r.val < 4096 := by have := r.isLt; omega
  have hemb : ((cfg1.win 3).blk t).view.emb (ix2 p r)
      = ix2 (⟨t.val / 32 * 512 + p.val, hi⟩ : Fin 4096) (⟨t.val / 8 % 4 * 1024 + r.val, hj⟩ : Fin 4096) := by
    funext a
    apply Fin.ext
    match a with
    | ⟨0, _⟩ => show win1_3.index t (0 : Fin 2) * 512 + 1 * p.val = t.val / 32 * 512 + p.val; rw [e0]; omega
    | ⟨1, _⟩ => show win1_3.index t (1 : Fin 2) * 1024 + 1 * r.val = t.val / 8 % 4 * 1024 + r.val; rw [e1]; omega
  rw [hemb, result_apply]
  refine (Cert.KernelIdeal.Pay.pay3_1 (accAt V c t.val t.isLt) (bblk V c t) p r).trans ?_
  have hq : 8 * (t.val / 8) + 7 < cfg1.N := lt_of_lt_of_eq (by omega : 8 * (t.val / 8) + 7 < 256) N_1.symm
  have same : ∀ (u : ℕ) (hu : u < cfg1.N), u = t.val → accAt V c u hu = accAt V c t.val t.isLt :=
    fun u hu e => by subst e; rfl
  rw [← same _ hq (by omega),
    acc_last V c (t.val / 8) hq p r ⟨t.val / 32 * 512 + p.val, hi⟩ ⟨t.val / 8 % 4 * 1024 + r.val, hj⟩
      (by show t.val / 32 * 512 + p.val = t.val / 8 / 4 * 512 + p.val; omega) rfl,
    bblk_apply V c t r (ix2 0 ⟨t.val / 8 % 4 * 1024 + r.val, hj⟩) rfl]

/-- An index of the output array is in point `t`'s block iff each coordinate is in the block's range on its axis. -/
theorem mem_blk (t : Fin cfg1.N) (i : S4096x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v3).slice (win1_3.rect t)).set ↔ _
  rw [View.set_slice_whole, Rect.mem_set_unit]
  exact Iff.rfl

/-- Every index of the output array lies in the block of a storing point: row `i`, column `j` in that of the last
    point of the run of row block `i / 512` and column block `j / 1024`. -/
theorem cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨tv, htv⟩ : ∃ tv : ℕ, tv = ((i 0).val / 512 * 4 + (i 1).val / 1024) * 8 + 7 := ⟨_, rfl⟩
  have hlt : tv < cfg1.N := by rw [show cfg1.N = 256 from N_1]; omega
  refine ⟨⟨tv, hlt⟩, (flush1_3 ⟨tv, hlt⟩).mpr (by show tv % 8 = 7; omega), ?_⟩
  obtain ⟨-, -, -, -, -, -, e0, e1⟩ := idx_facts ⟨tv, hlt⟩
  rw [mem_blk]
  intro a
  match a with
  | ⟨0, _⟩ =>
    show win1_3.index ⟨tv, hlt⟩ (0 : Fin 2) * 512 ≤ (i 0).val ∧ (i 0).val < win1_3.index ⟨tv, hlt⟩ (0 : Fin 2) * 512 + 512
    rw [e0]
    show tv / 32 * 512 ≤ (i 0).val ∧ (i 0).val < tv / 32 * 512 + 512
    omega
  | ⟨1, _⟩ =>
    show win1_3.index ⟨tv, hlt⟩ (1 : Fin 2) * 1024 ≤ (i 1).val ∧ (i 1).val < win1_3.index ⟨tv, hlt⟩ (1 : Fin 2) * 1024 + 1024
    rw [e1]
    show tv / 8 % 4 * 1024 ≤ (i 1).val ∧ (i 1).val < tv / 8 % 4 * 1024 + 1024
    omega

/-- After the region the output array is the dense layer of the activations, the weights and the bias row, clamped
    below at zero. -/
theorem out_eq (V : (c : Dev nD) → (b : Ref sig .tc) → Buf (Elt Ideal) ((c : Thread nD τ).loc b)) (c : Dev nD) :
    (dat (F := Ideal) V c).arrAt 3 cfg1.N
      = Cert.LayerSpec.clamp (Cert.LayerSpec.dense (V c main_v1) (V c main_arg3) (V c main_v2)) :=
  (dat V c).arrAt_eq_of_cover 3 (result V c) (flushed_eq V c) cover

end Cert.KernelIdeal.Layer1

end
-- ==== Proof.KernelIdeal.Value2.lean ====
/-
  The third dense layer's pipeline, read as one array.  The grid's points run over row blocks, column
  blocks and, innermost, eight contraction blocks of 512.  Over one run of eight points the scratch gathers,
  at entry (p, r), the contraction over all 4096 indices of an activation row against a weight row; the
  last point of the run adds the bias entry of the column and clamps below at zero, and that block is what
  the output array receives.  The output's blocks tile the array, so the array ends as the dense layer
  followed by the clamp.
-/
import proofs.«118080_j56341380989394_1_alg».proof.Proof.KernelIdeal.Frame2
import proofs.«118080_j56341380989394_1_alg».proof.Proof.KernelIdeal.Pay
import proofs.«118080_j56341380989394_1_alg».proof.Proof.LibBlockSum
import proofs.«118080_j56341380989394_1_alg».proof.Proof.LayerSpec

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block index maps over the grid -/

/-- Point `t` is row block `t / 32`, column block `(t / 8) % 4`, contraction block `t % 8`. -/
theorem idx_facts : ∀ t : Fin cfg2.N,
    win2_0.index t (0 : Fin 2) = t.val / 32 ∧ win2_0.index t (1 : Fin 2) = t.val % 8
    ∧ win2_1.index t (0 : Fin 2) = (t.val / 8) % 4 ∧ win2_1.index t (1 : Fin 2) = t.val % 8
    ∧ win2_2.index t (0 : Fin 2) = 0 ∧ win2_2.index t (1 : Fin 2) = (t.val / 8) % 4
    ∧ win2_3.index t (0 : Fin 2) = t.val / 32 ∧ win2_3.index t (1 : Fin 2) = (t.val / 8) % 4 :=
  (by decide +kernel : ∀ t : Fin grid2.N, _)

variable (V : (c : Dev nD) → (b : Ref sig .tc) → Buf (Elt Ideal) ((c : Thread nD τ).loc b))

/-! ## The arrays and the blocks, at their literal types -/

/-- The activation array. -/
abbrev xarr (c : Dev nD) : Vec Ideal S4096x4096 .bf16 := V c main_v3
/-- The weight array. -/
abbrev warr (c : Dev nD) : Vec Ideal S4096x4096 .f32 := V c main_arg5
/-- The bias row. -/
abbrev barr (c : Dev nD) : Vec Ideal S1x4096 .f32 := V c main_v4

/-- The activation block at point `t`. -/
abbrev xblk (c : Dev nD) (t : Fin cfg2.N) : Vec Ideal S512x512 .bf16 := iblk V c 0 t
/-- The weight block at point `t`. -/
abbrev wblk (c : Dev nD) (t : Fin cfg2.N) : Vec Ideal S1024x512 .f32 := iblk V c 1 t
/-- The bias block at point `t`. -/
abbrev bblk (c : Dev nD) (t : Fin cfg2.N) : Vec Ideal S1x1024 .f32 := iblk V c 2 t

/-- The activation block at `t` holds rows `(t / 32) * 512 + p`, contraction indices `(t % 8) * 512 + q`. -/
theorem xblk_apply (c : Dev nD) (t : Fin cfg2.N) (p q : Fin 512) (i : S4096x4096.Idx)
    (h0 : (i 0).val = t.val / 32 * 512 + p.val) (h1 : (i 1).val = t.val % 8 * 512 + q.val) :
    xblk V c t (ix2 p q) = xarr V c i := by
  obtain ⟨e0, e1, -⟩ := idx_facts t
  show V c main_v3 (((cfg2.win 0).blk t).view.emb (ix2 p q)) = V c main_v3 i
  congr 1
  funext a
  apply Fin.ext
  match a with
  | ⟨0, _⟩ => show win2_0.index t (0 : Fin 2) * 512 + 1 * p.val = (i 0).val; rw [e0, h0]; omega
  | ⟨1, _⟩ => show win2_0.index t (1 : Fin 2) * 512 + 1 * q.val = (i 1).val; rw [e1, h1]; omega

/-- The weight block at `t` holds rows `((t / 8) % 4) * 1024 + p`, contraction indices `(t % 8) * 512 + q`. -/
theorem wblk_apply (c : Dev nD) (t : Fin cfg2.N) (p : Fin 1024) (q : Fin 512) (i : S4096x4096.Idx)
    (h0 : (i 0).val = (t.val / 8) % 4 * 1024 + p.val) (h1 : (i 1).val = t.val % 8 * 512 + q.val) :
    wblk V c t (ix2 p q) = warr V c i := by
  obtain ⟨-, -, e0, e1, -⟩ := idx_facts t
  show V c main_arg5 (((cfg2.win 1).blk t).view.emb (ix2 p q)) = V c main_arg5 i
  congr 1
  funext a
  apply Fin.ext
  match a with
  | ⟨0, _⟩ => show win2_1.index t (0 : Fin 2) * 1024 + 1 * p.val = (i 0).val; rw [e0, h0]; omega
  | ⟨1, _⟩ => show win2_1.index t (1 : Fin 2) * 512 + 1 * q.val = (i 1).val; rw [e1, h1]; omega

/-- The bias block at `t` holds columns `((t / 8) % 4) * 1024 + q` of the one row. -/
theorem bblk_apply (c : Dev nD) (t : Fin cfg2.N) (q : Fin 1024) (i : S1x4096.Idx)
    (h1 : (i 1).val = (t.val / 8) % 4 * 1024 + q.val) :
    bblk V c t (ix2 0 q) = barr V c i := by
  obtain ⟨-, -, -, -, e0, e1, -⟩ := idx_facts t
  show V c main_v4 (((cfg2.win 2).blk t).view.emb (ix2 0 q)) = V c main_v4 i
  congr 1
  funext a
  apply Fin.ext
  match a with
  | ⟨0, _⟩ => show win2_2.index t (0 : Fin 2) * 1 + 1 * 0 = (i 0).val; rw [e0]; have : (i 0).val < 1 := (i 0).isLt; omega
  | ⟨1, _⟩ => show win2_2.index t (1 : Fin 2) * 1024 + 1 * q.val = (i 1).val; rw [e1, h1]; omega

/-! ## The scratch over one run of eight points -/

/-- What point `n` adds at entry `(p, r)`: row `p` of its activation block against row `r` of its weight block. -/
def addend (c : Dev nD) (n : ℕ) (p : Fin 512) (r : Fin 1024) : EReal :=
  if h : n < cfg2.N then ∑ kk : Fin 512, xblk V c ⟨n, h⟩ (ix2 p kk) * wblk V c ⟨n, h⟩ (ix2 r kk) else 0

/-- After the point at offset `j` of the run starting at `8 * q` the scratch holds the sum of the addends so far. -/
theorem accAt_run (c : Dev nD) (q : ℕ) : ∀ (j : ℕ) (hj : j < 8) (h : 8 * q + j < cfg2.N) (p : Fin 512) (r : Fin 1024),
    accAt V c (8 * q + j) h (ix2 p r) = ∑ s ∈ Finset.range (j + 1), addend V c (8 * q + s) p r
  | 0, _, h, p, r => by
    rw [accAt_reset V c (8 * q + 0) h (by omega)]
    refine (Cert.KernelIdeal.Pay.pay2_2 (xblk V c ⟨8 * q + 0, h⟩) (wblk V c ⟨8 * q + 0, h⟩) (k2_pay1 (F := Ideal)) p r).trans ?_
    rw [Cert.KernelIdeal.Pay.pay1_2, zero_add, Finset.sum_range_one]
    unfold addend
    rw [dif_pos h]
  | j + 1, hj, h, p, r => by
    show accAt V c (8 * q + j + 1) h (ix2 p r) = _
    rw [accAt_step V c (8 * q + j) h (by omega)]
    refine (Cert.KernelIdeal.Pay.pay2_2 (xblk V c ⟨8 * q + j + 1, h⟩) (wblk V c ⟨8 * q + j + 1, h⟩)
      (accAt V c (8 * q + j) (Nat.lt_of_succ_lt h)) p r).trans ?_
    rw [accAt_run c q j (by omega) (Nat.lt_of_succ_lt h) p r, Finset.sum_range_succ _ (j + 1)]
    refine congrArg (_ + ·) ?_
    unfold addend
    rw [dif_pos h]
    rfl

/-! ## The addends as entries of the whole arrays -/

/-- Row `i` of the activations against row `j` of the weights at contraction index `k` (zero past the extent). -/
def term (c : Dev nD) (i j : Fin 4096) (k : ℕ) : EReal :=
  if h : k < 4096 then xarr V c (ix2 i ⟨k, h⟩) * warr V c (ix2 j ⟨k, h⟩) else 0

/-- The point at offset `s` of run `q` adds the contraction indices `s * 512 … s * 512 + 511` of activation row
    `(q / 4) * 512 + p` against weight row `(q % 4) * 1024 + r`. -/
theorem addend_eq (c : Dev nD) (q s : ℕ) (hs : s < 8) (h : 8 * q + s < cfg2.N) (p : Fin 512) (r : Fin 1024)
    (i j : Fin 4096) (hi : i.val = q / 4 * 512 + p.val) (hj : j.val = q % 4 * 1024 + r.val) :
    addend V c (8 * q + s) p r = ∑ kk : Fin 512, term V c i j (s * 512 + kk.val) := by
  unfold addend
  rw [dif_pos h]
  refine Finset.sum_congr rfl fun kk _ => ?_
  have hk : s * 512 + kk.val < 4096 := by have := kk.isLt; omega
  unfold term
  rw [dif_pos hk]
  exact congrArg₂ (· * ·)
    (xblk_apply V c ⟨8 * q + s, h⟩ p kk (ix2 i ⟨s * 512 + kk.val, hk⟩)
      (by show i.val = (8 * q + s) / 32 * 512 + p.val; omega)
      (by show s * 512 + kk.val = (8 * q + s) % 8 * 512 + kk.val; omega))
    (wblk_apply V c ⟨8 * q + s, h⟩ r kk (ix2 j ⟨s * 512 + kk.val, hk⟩)
      (by show j.val = (8 * q + s) / 8 % 4 * 1024 + r.val; omega)
      (by show s * 512 + kk.val = (8 * q + s) % 8 * 512 + kk.val; omega))

/-- After its last point a run's scratch holds, at `(p, r)`, the whole contraction of the two rows. -/
theorem acc_last (c : Dev nD) (q : ℕ) (h : 8 * q + 7 < cfg2.N) (p : Fin 512) (r : Fin 1024)
    (i j : Fin 4096) (hi : i.val = q / 4 * 512 + p.val) (hj : j.val = q % 4 * 1024 + r.val) :
    accAt V c (8 * q + 7) h (ix2 p r) = ∑ k : Fin 4096, xarr V c (ix2 i k) * warr V c (ix2 j k) := by
  rw [accAt_run V c q 7 (by omega) h p r]
  rw [Finset.sum_congr rfl (fun s hs => addend_eq V c q s (Finset.mem_range.mp hs)
    (by have := Finset.mem_range.mp hs; omega) p r i j hi hj)]
  refine (Cert.BlockSum.sum_blocks 8 512 (term V c i j)).trans ?_
  show ∑ k : Fin 4096, term V c i j k.val = _
  refine Finset.sum_congr rfl fun k _ => ?_
  unfold term
  rw [dif_pos k.isLt]

/-! ## What a storing point writes back, and the whole array -/

/-- The layer's result as one array: the dense layer of the activations, the weights and the bias row, clamped
    below at zero. -/
abbrev result (c : Dev nD) : Vec Ideal S4096x4096 .bf16 :=
  Cert.LayerSpec.clamp (Cert.LayerSpec.dense (V c main_v3) (V c main_arg5) (V c main_v4))

/-- Entry `(i, j)` of the result. -/
theorem result_apply (c : Dev nD) (i j : Fin 4096) :
    result V c (ix2 i j) = max ((∑ k : Fin 4096, xarr V c (ix2 i k) * warr V c (ix2 j k)) + barr V c (ix2 0 j)) 0 := rfl

/-- The point that ends a run of eight writes back its block of the result. -/
theorem flushed_eq (c : Dev nD) (t : Fin cfg2.N) (hf : (cfg2.win 3).flush t = true) :
    (dat V c).flushed 3 t = ((cfg2.win 3).blk t).view.read (Elt Ideal) (result V c) := by
  have h7 : t.val % 8 = 7 := (flush2_3 t).mp hf
  have hN : t.val < 256 := lt_of_lt_of_eq t.isLt N_2
  obtain ⟨-, -, -, -, -, -, e0, e1⟩ := idx_facts t
  show (cfg2.win 3).cut (grid2.coords t) ((dat V c).after 3 t) = _
  rw [after_3]
  funext y
  obtain ⟨p, r, rfl⟩ : ∃ (p : Fin 512) (r : Fin 1024), y = ix2 p r := ⟨y 0, y 1, eq_ix2 y⟩
  show k2_pay3 (accAt V c t.val t.isLt) (bblk V c t) (ix2 p r) = result V c (((cfg2.win 3).blk t).view.emb (ix2 p r))
  have hi : t.val / 32 * 512 + p.val < 4096 := by have := p.isLt; omega
  have hj : t.val / 8 % 4 * 1024 + r.val < 4096 := by have := r.isLt; omega
  have hemb : ((cfg2.win 3).blk t).view.emb (ix2 p r)
      = ix2 (⟨t.val / 32 * 512 + p.val, hi⟩ : Fin 4096) (⟨t.val / 8 % 4 * 1024 + r.val, hj⟩ : Fin 4096) := by
    funext a
    apply Fin.ext
    match a with
    | ⟨0, _⟩ => show win2_3.index t (0 : Fin 2) * 512 + 1 * p.val = t.val / 32 * 512 + p.val; rw [e0]; omega
    | ⟨1, _⟩ => show win2_3.index t (1 : Fin 2) * 1024 + 1 * r.val = t.val / 8 % 4 * 1024 + r.val; rw [e1]; omega
  rw [hemb, result_apply]
  refine (Cert.KernelIdeal.Pay.pay3_2 (accAt V c t.val t.isLt) (bblk V c t) p r).trans ?_
  have hq : 8 * (t.val / 8) + 7 < cfg2.N := lt_of_lt_of_eq (by omega : 8 * (t.val / 8) + 7 < 256) N_2.symm
  have same : ∀ (u : ℕ) (hu : u < cfg2.N), u = t.val → accAt V c u hu = accAt V c t.val t.isLt :=
    fun u hu e => by subst e; rfl
  rw [← same _ hq (by omega),
    acc_last V c (t.val / 8) hq p r ⟨t.val / 32 * 512 + p.val, hi⟩ ⟨t.val / 8 % 4 * 1024 + r.val, hj⟩
      (by show t.val / 32 * 512 + p.val = t.val / 8 / 4 * 512 + p.val; omega) rfl,
    bblk_apply V c t r (ix2 0 ⟨t.val / 8 % 4 * 1024 + r.val, hj⟩) rfl]

/-- An index of the output array is in point `t`'s block iff each coordinate is in the block's range on its axis. -/
theorem mem_blk (t : Fin cfg2.N) (i : S4096x4096.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v5).slice (win2_3.rect t)).set ↔ _
  rw [View.set_slice_whole, Rect.mem_set_unit]
  exact Iff.rfl

/-- Every index of the output array lies in the block of a storing point: row `i`, column `j` in that of the last
    point of the run of row block `i / 512` and column block `j / 1024`. -/
theorem cover (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨tv, htv⟩ : ∃ tv : ℕ, tv = ((i 0).val / 512 * 4 + (i 1).val / 1024) * 8 + 7 := ⟨_, rfl⟩
  have hlt : tv < cfg2.N := by rw [show cfg2.N = 256 from N_2]; omega
  refine ⟨⟨tv, hlt⟩, (flush2_3 ⟨tv, hlt⟩).mpr (by show tv % 8 = 7; omega), ?_⟩
  obtain ⟨-, -, -, -, -, -, e0, e1⟩ := idx_facts ⟨tv, hlt⟩
  rw [mem_blk]
  intro a
  match a with
  | ⟨0, _⟩ =>
    show win2_3.index ⟨tv, hlt⟩ (0 : Fin 2) * 512 ≤ (i 0).val ∧ (i 0).val < win2_3.index ⟨tv, hlt⟩ (0 : Fin 2) * 512 + 512
    rw [e0]
    show tv / 32 * 512 ≤ (i 0).val ∧ (i 0).val < tv / 32 * 512 + 512
    omega
  | ⟨1, _⟩ =>
    show win2_3.index ⟨tv, hlt⟩ (1 : Fin 2) * 1024 ≤ (i 1).val ∧ (i 1).val < win2_3.index ⟨tv, hlt⟩ (1 : Fin 2) * 1024 + 1024
    rw [e1]
    show tv / 8 % 4 * 1024 ≤ (i 1).val ∧ (i 1).val < tv / 8 % 4 * 1024 + 1024
    omega

/-- After the region the output array is the dense layer of the activations, the weights and the bias row, clamped
    below at zero. -/
theorem out_eq (V : (c : Dev nD) → (b : Ref sig .tc) → Buf (Elt Ideal) ((c : Thread nD τ).loc b)) (c : Dev nD) :
    (dat (F := Ideal) V c).arrAt 3 cfg2.N
      = Cert.LayerSpec.clamp (Cert.LayerSpec.dense (V c main_v3) (V c main_arg5) (V c main_v4)) :=
  (dat V c).arrAt_eq_of_cover 3 (result V c) (flushed_eq V c) cover

end Cert.KernelIdeal.Layer2

end
-- ==== Proof.KernelIdeal.Value3.lean ====
/-
  The last dense layer's output array.  The grid is (row block, 1, contraction block), the contraction block
  innermost: point `t` is row block `t / 8` and contraction block `t % 8`.  Over a run of eight points the
  scratch gathers, block by block, the whole contraction of a row of the activations against a row of the
  weights; the run's last point adds the bias row and writes the block back, with no clamp.  The eight blocks
  written back tile the output array, which therefore ends at the dense layer of the three arrays.
-/
import proofs.«118080_j56341380989394_1_alg».proof.Proof.KernelIdeal.Frame3
import proofs.«118080_j56341380989394_1_alg».proof.Proof.KernelIdeal.Pay
import proofs.«118080_j56341380989394_1_alg».proof.Proof.LibBlockSum
import proofs.«118080_j56341380989394_1_alg».proof.Proof.LayerSpec

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block index maps over the grid -/

/-- Point `t` reads row block `t / 8` and contraction block `t % 8` of the activations, contraction block
    `t % 8` of the weights, the one bias block, and owns row block `t / 8` of the output. -/
theorem idx_facts : ∀ t : Fin cfg3.N,
    win3_0.index t (0 : Fin 2) = t.val / 8 ∧ win3_0.index t (1 : Fin 2) = t.val % 8
    ∧ win3_1.index t (0 : Fin 2) = 0 ∧ win3_1.index t (1 : Fin 2) = t.val % 8
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

variable (V : (c : Dev nD) → (b : Ref sig .tc) → Buf (Elt Ideal) ((c : Thread nD τ).loc b))

/-! ## The arrays and the blocks, at their literal types -/

/-- The activation array. -/
abbrev xarr (c : Dev nD) : Vec Ideal S4096x4096 .bf16 := V c main_v5
/-- The weight array. -/
abbrev warr (c : Dev nD) : Vec Ideal S1024x4096 .f32 := V c main_arg7
/-- The bias row. -/
abbrev barr (c : Dev nD) : Vec Ideal S1x1024 .f32 := V c main_v6

/-- The activation block at point `t`. -/
abbrev xblk (c : Dev nD) (t : Fin cfg3.N) : Vec Ideal S512x512 .bf16 := iblk V c 0 t
/-- The weight block at point `t`. -/
abbrev wblk (c : Dev nD) (t : Fin cfg3.N) : Vec Ideal S1024x512 .f32 := iblk V c 1 t
/-- The bias block at point `t`. -/
abbrev bblk (c : Dev nD) (t : Fin cfg3.N) : Vec Ideal S1x1024 .f32 := iblk V c 2 t

/-- The activation block at `t` holds rows `(t / 8) * 512 + p`, contraction indices `(t % 8) * 512 + q`. -/
theorem xblk_apply (c : Dev nD) (t : Fin cfg3.N) (p q : Fin 512) (i : S4096x4096.Idx)
    (h0 : (i 0).val = t.val / 8 * 512 + p.val) (h1 : (i 1).val = t.val % 8 * 512 + q.val) :
    xblk V c t (ix2 p q) = xarr V c i := by
  obtain ⟨e0, e1, -⟩ := idx_facts t
  show V c main_v5 (((cfg3.win 0).blk t).view.emb (ix2 p q)) = V c main_v5 i
  congr 1
  funext a
  apply Fin.ext
  match a with
  | ⟨0, _⟩ => show win3_0.index t (0 : Fin 2) * 512 + 1 * p.val = (i 0).val; rw [e0, h0]; omega
  | ⟨1, _⟩ => show win3_0.index t (1 : Fin 2) * 512 + 1 * q.val = (i 1).val; rw [e1, h1]; omega

/-- The weight block at `t` holds every row `p`, contraction indices `(t % 8) * 512 + q`. -/
theorem wblk_apply (c : Dev nD) (t : Fin cfg3.N) (p : Fin 1024) (q : Fin 512) (i : S1024x4096.Idx)
    (h0 : (i 0).val = p.val) (h1 : (i 1).val = t.val % 8 * 512 + q.val) :
    wblk V c t (ix2 p q) = warr V c i := by
  obtain ⟨-, -, e0, e1, -⟩ := idx_facts t
  show V c main_arg7 (((cfg3.win 1).blk t).view.emb (ix2 p q)) = V c main_arg7 i
  congr 1
  funext a
  apply Fin.ext
  match a with
  | ⟨0, _⟩ => show win3_1.index t (0 : Fin 2) * 1024 + 1 * p.val = (i 0).val; rw [e0, h0]; omega
  | ⟨1, _⟩ => show win3_1.index t (1 : Fin 2) * 512 + 1 * q.val = (i 1).val; rw [e1, h1]; omega

/-- The bias block is the whole bias row at every point. -/
theorem bblk_apply (c : Dev nD) (t : Fin cfg3.N) (q : Fin 1024) :
    bblk V c t (ix2 0 q) = barr V c (ix2 0 q) := by
  obtain ⟨-, -, -, -, e0, e1, -⟩ := idx_facts t
  show V c main_v6 (((cfg3.win 2).blk t).view.emb (ix2 0 q)) = V c main_v6 (ix2 0 q)
  congr 1
  funext a
  apply Fin.ext
  match a with
  | ⟨0, _⟩ => show win3_2.index t (0 : Fin 2) * 1 + 1 * 0 = 0; rw [e0]
  | ⟨1, _⟩ => show win3_2.index t (1 : Fin 2) * 1024 + 1 * q.val = q.val; rw [e1]; omega

/-! ## The scratch over one run of eight points -/

/-- What point `n` adds at entry `(p, r)`: its activation block's row `p` against its weight block's row `r`. -/
def addend (c : Dev nD) (n : ℕ) (p : Fin 512) (r : Fin 1024) : EReal :=
  if h : n < cfg3.N then ∑ kk : Fin 512, xblk V c ⟨n, h⟩ (ix2 p kk) * wblk V c ⟨n, h⟩ (ix2 r kk) else 0

/-- After the point at offset `j` of the run starting at `8 * q` the scratch holds the sum of the addends so far. -/
theorem accAt_run (c : Dev nD) (q : ℕ) : ∀ (j : ℕ) (hj : j < 8) (h : 8 * q + j < cfg3.N) (p : Fin 512) (r : Fin 1024),
    accAt V c (8 * q + j) h (ix2 p r) = ∑ s ∈ Finset.range (j + 1), addend V c (8 * q + s) p r
  | 0, _, h, p, r => by
    rw [accAt_reset V c (8 * q + 0) h (by omega)]
    refine (Cert.KernelIdeal.Pay.pay2_3 (xblk V c ⟨8 * q + 0, h⟩) (wblk V c ⟨8 * q + 0, h⟩) (k3_pay1 (F := Ideal)) p r).trans ?_
    rw [Cert.KernelIdeal.Pay.pay1_3, zero_add, Finset.sum_range_one]
    unfold addend
    rw [dif_pos h]
  | j + 1, hj, h, p, r => by
    show accAt V c (8 * q + j + 1) h (ix2 p r) = _
    rw [accAt_step V c (8 * q + j) h (by omega)]
    refine (Cert.KernelIdeal.Pay.pay2_3 (xblk V c ⟨8 * q + j + 1, h⟩) (wblk V c ⟨8 * q + j + 1, h⟩)
      (accAt V c (8 * q + j) (Nat.lt_of_succ_lt h)) p r).trans ?_
    rw [accAt_run c q j (by omega) (Nat.lt_of_succ_lt h) p r, Finset.sum_range_succ _ (j + 1)]
    refine congrArg (_ + ·) ?_
    unfold addend
    rw [dif_pos h]
    rfl

/-! ## The addends as entries of the whole arrays -/

/-- Row `i` of the activations against row `j` of the weights at contraction index `k` (zero past the extent). -/
def term (c : Dev nD) (i : Fin 4096) (j : Fin 1024) (k : ℕ) : EReal :=
  if h : k < 4096 then xarr V c (ix2 i ⟨k, h⟩) * warr V c (ix2 j ⟨k, h⟩) else 0

/-- The point at offset `s` of run `q` adds the contraction indices `s * 512 … s * 512 + 511` of row `q * 512 + p`
    of the activations against row `r` of the weights. -/
theorem addend_eq (c : Dev nD) (q s : ℕ) (hs : s < 8) (h : 8 * q + s < cfg3.N) (p : Fin 512) (r : Fin 1024)
    (i : Fin 4096) (hi : i.val = q * 512 + p.val) :
    addend V c (8 * q + s) p r = ∑ kk : Fin 512, term V c i r (s * 512 + kk.val) := by
  unfold addend
  rw [dif_pos h]
  refine Finset.sum_congr rfl fun kk _ => ?_
  have hk : s * 512 + kk.val < 4096 := by have := kk.isLt; omega
  unfold term
  rw [dif_pos hk]
  exact congrArg₂ (· * ·)
    (xblk_apply V c ⟨8 * q + s, h⟩ p kk (ix2 i ⟨s * 512 + kk.val, hk⟩)
      (by show i.val = (8 * q + s) / 8 * 512 + p.val; omega)
      (by show s * 512 + kk.val = (8 * q + s) % 8 * 512 + kk.val; omega))
    (wblk_apply V c ⟨8 * q + s, h⟩ r kk (ix2 r ⟨s * 512 + kk.val, hk⟩)
      (by show r.val = r.val; rfl)
      (by show s * 512 + kk.val = (8 * q + s) % 8 * 512 + kk.val; omega))

/-- After its last point a run's scratch holds, at `(p, r)`, the whole contraction of the two rows. -/
theorem acc_last (c : Dev nD) (q : ℕ) (h : 8 * q + 7 < cfg3.N) (p : Fin 512) (r : Fin 1024)
    (i : Fin 4096) (hi : i.val = q * 512 + p.val) :
    accAt V c (8 * q + 7) h (ix2 p r) = ∑ k : Fin 4096, xarr V c (ix2 i k) * warr V c (ix2 r k) := by
  rw [accAt_run V c q 7 (by omega) h p r]
  rw [Finset.sum_congr rfl (fun s hs => addend_eq V c q s (Finset.mem_range.mp hs)
    (by have := Finset.mem_range.mp hs; omega) p r i hi)]
  refine (Cert.BlockSum.sum_blocks 8 512 (term V c i r)).trans ?_
  show ∑ k : Fin 4096, term V c i r k.val = _
  refine Finset.sum_congr rfl fun k _ => ?_
  unfold term
  rw [dif_pos k.isLt]

/-- The same at any point that ends a run, named by itself. -/
theorem acc_flush (c : Dev nD) (n : ℕ) (hn : n < cfg3.N) (h7 : n % 8 = 7) (p : Fin 512) (r : Fin 1024)
    (i : Fin 4096) (hi : i.val = n / 8 * 512 + p.val) :
    accAt V c n hn (ix2 p r) = ∑ k : Fin 4096, xarr V c (ix2 i k) * warr V c (ix2 r k) := by
  obtain ⟨q, rfl⟩ : ∃ q, n = 8 * q + 7 := ⟨n / 8, by omega⟩
  exact acc_last V c q hn p r i (by omega)

/-! ## What a run's last point writes back -/

/-- What the output array ends holding: the dense layer of the three arrays. -/
abbrev result (c : Dev nD) : Vec Ideal S4096x1024 .f32 :=
  Cert.LayerSpec.dense (xarr V c) (warr V c) (barr V c)

/-- A point that writes back writes its block of the dense layer. -/
theorem flushed_eq (c : Dev nD) (t : Fin cfg3.N) (hf : (cfg3.win 3).flush t = true) :
    (dat V c).flushed 3 t = ((cfg3.win 3).blk t).view.read (Elt Ideal) (result V c) := by
  have h7 : t.val % 8 = 7 := (flush3_3 t).mp hf
  have hN : cfg3.N = 64 := N_3
  have ht : t.val < 64 := hN ▸ t.isLt
  obtain ⟨-, -, -, -, -, -, e0, e1⟩ := idx_facts t
  show (cfg3.win 3).cut (grid3.coords t) ((dat V c).after 3 t) = _
  rw [after_3]
  funext y
  obtain ⟨p, r, rfl⟩ : ∃ (p : Fin 512) (r : Fin 1024), y = ix2 p r := ⟨y 0, y 1, eq_ix2 (n0 := 512) (n1 := 1024) y⟩
  show k3_pay3 (accAt V c t.val t.isLt) (bblk V c t) (ix2 p r) = result V c (((cfg3.win 3).blk t).view.emb (ix2 p r))
  refine (Cert.KernelIdeal.Pay.pay3_3 (accAt V c t.val t.isLt) (bblk V c t) p r).trans ?_
  have hp := p.isLt
  have hr := r.isLt
  obtain ⟨i, hi⟩ : ∃ i : Fin 4096, i.val = t.val / 8 * 512 + p.val := ⟨⟨t.val / 8 * 512 + p.val, by omega⟩, rfl⟩
  have hemb : ((cfg3.win 3).blk t).view.emb (ix2 p r) = (ix2 i r : S4096x1024.Idx) := by
    funext a
    apply Fin.ext
    match a with
    | ⟨0, _⟩ => show win3_3.index t (0 : Fin 2) * 512 + 1 * p.val = i.val; rw [e0, hi]; omega
    | ⟨1, _⟩ => show win3_3.index t (1 : Fin 2) * 1024 + 1 * r.val = r.val; rw [e1]; omega
  rw [hemb, acc_flush V c t.val t.isLt h7 p r i hi, bblk_apply V c t r]
  rfl

/-! ## The blocks written back tile the output array -/

/-- An index of the output array is in point `t`'s block iff each coordinate is in the block's range on its axis. -/
theorem mem_blk (t : Fin cfg3.N) (i : S4096x1024.Idx) :
    i ∈ ((cfg3.win 3).blk t).view.set ↔ ∀ a : Fin 2, win3_3.index t a * S512x1024.size a ≤ (i a).val
      ∧ (i a).val < win3_3.index t a * S512x1024.size a + S512x1024.size a := by
  show i ∈ ((View.whole main_v7).slice (win3_3.rect t)).set ↔ _
  rw [View.set_slice_whole, Rect.mem_set_unit]
  exact Iff.rfl

/-- Entry `(row, col)` lies in the block written back at the last point of the run of row block `row / 512`. -/
theorem cover (i : S4096x1024.Idx) :
    ∃ t : Fin cfg3.N, (cfg3.win 3).flush t = true ∧ i ∈ ((cfg3.win 3).blk t).view.set := by
  have h0 : (i 0).val < 4096 := (i 0).isLt
  have h1 : (i 1).val < 1024 := (i 1).isLt
  have hN : cfg3.N = 64 := N_3
  obtain ⟨t, ht⟩ : ∃ t : Fin cfg3.N, t.val = (i 0).val / 512 * 8 + 7 :=
    ⟨⟨(i 0).val / 512 * 8 + 7, by rw [hN]; omega⟩, rfl⟩
  obtain ⟨-, -, -, -, -, -, e0, e1⟩ := idx_facts t
  refine ⟨t, (flush3_3 t).mpr (by rw [ht]; omega), ?_⟩
  rw [mem_blk]
  intro a
  match a with
  | ⟨0, _⟩ =>
    show win3_3.index t (0 : Fin 2) * 512 ≤ (i 0).val ∧ (i 0).val < win3_3.index t (0 : Fin 2) * 512 + 512
    rw [e0, ht]; omega
  | ⟨1, _⟩ =>
    show win3_3.index t (1 : Fin 2) * 1024 ≤ (i 1).val ∧ (i 1).val < win3_3.index t (1 : Fin 2) * 1024 + 1024
    rw [e1]; omega

/-! ## The output array after the region -/

/-- The output array ends at the dense layer of the activation array, the weight array and the bias row. -/
theorem out_eq (c : Dev nD) :
    (dat (F := Ideal) V c).arrAt 3 cfg3.N
      = Cert.LayerSpec.dense (V c main_v5) (V c main_arg7) (V c main_v6) :=
  (dat V c).arrAt_eq_of_cover 3 (result V c) (flushed_eq V c) cover

end Cert.KernelIdeal.Layer3

end
-- ==== Proof.KernelIdeal.NetValue.lean ====
/-
  What the result buffer holds at the end, at the extended reals: the last layer's pipeline leaves the dense
  layer of the third layer's output, which is the clamped dense layer of the second's, and so on down to the
  arguments; the bias rows between are the bias vectors laid out as rows.  So the result is the four-layer
  network of the argument arrays.
-/
import proofs.«118080_j56341380989394_1_alg».proof.Proof.KernelIdeal.Whole
import proofs.«118080_j56341380989394_1_alg».proof.Proof.KernelIdeal.Between
import proofs.«118080_j56341380989394_1_alg».proof.Proof.KernelIdeal.Value0
import proofs.«118080_j56341380989394_1_alg».proof.Proof.KernelIdeal.Value1
import proofs.«118080_j56341380989394_1_alg».proof.Proof.KernelIdeal.Value2
import proofs.«118080_j56341380989394_1_alg».proof.Proof.KernelIdeal.Value3

set_option maxRecDepth 16384

noncomputable section

namespace Cert.KernelIdeal.Whole

open Cert.KernelIdeal Cert.KernelIdeal.Gen
open Idealize.ShloMosaic Idealize.ShloMosaic.TcCoe Idealize.SL.Sem
open Cert.LayerSpec

variable (m : (ℓ : Loc nD τ sig) → Buf (Elt Ideal) ℓ)

/-- The first layer's output array. -/
theorem layer0_eq (c : Dev nD) :
    outs m 2 main_v1 c = clamp (dense (m ((c.tc : Thread nD τ).loc main_arg0)) (m ((c.tc : Thread nD τ).loc main_arg1)) (row (m ((c.tc : Thread nD τ).loc main_arg2)))) := by
  rw [outs_main_v1, Layer0.out_eq]
  show clamp (dense (Gen.V1 m c main_arg0) (Gen.V1 m c main_arg1) (Gen.V1 m c main_v0)) = _
  rw [Between.V1_arg0, Between.V1_arg1, Between.V1_v0, Between.row_4096]

/-- The second layer's. -/
theorem layer1_eq (c : Dev nD) :
    outs m 4 main_v3 c = clamp (dense (outs m 2 main_v1 c) (m ((c.tc : Thread nD τ).loc main_arg3)) (row (m ((c.tc : Thread nD τ).loc main_arg4)))) := by
  rw [outs_main_v3, Layer1.out_eq]
  show clamp (dense (Gen.V3 m (outs m) c main_v1) (Gen.V3 m (outs m) c main_arg3) (Gen.V3 m (outs m) c main_v2)) = _
  rw [Between.V3_v1, Between.V3_arg3, Between.V3_v2, Between.row_4096]

/-- The third layer's. -/
theorem layer2_eq (c : Dev nD) :
    outs m 6 main_v5 c = clamp (dense (outs m 4 main_v3 c) (m ((c.tc : Thread nD τ).loc main_arg5)) (row (m ((c.tc : Thread nD τ).loc main_arg6)))) := by
  rw [outs_main_v5, Layer2.out_eq]
  show clamp (dense (Gen.V5 m (outs m) c main_v3) (Gen.V5 m (outs m) c main_arg5) (Gen.V5 m (outs m) c main_v4)) = _
  rw [Between.V5_v3, Between.V5_arg5, Between.V5_v4, Between.row_4096]

/-- The last layer's: no clamp. -/
theorem layer3_eq (c : Dev nD) :
    outs m 8 main_v7 c = dense (outs m 6 main_v5 c) (m ((c.tc : Thread nD τ).loc main_arg7)) (row (m ((c.tc : Thread nD τ).loc main_arg8))) := by
  rw [outs_main_v7, Layer3.out_eq]
  show dense (Gen.V7 m (outs m) c main_v5) (Gen.V7 m (outs m) c main_arg7) (Gen.V7 m (outs m) c main_v6) = _
  rw [Between.V7_v5, Between.V7_arg7, Between.V7_v6, Between.row_1024]

/-- The result buffer at the end is the four-layer network of the arguments. -/
theorem result_eq (c : Dev nD) :
    Gen.V8 m (outs m) c main_v7
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  rw [Between.V8_v7, layer3_eq, layer2_eq, layer1_eq, layer0_eq]
  rfl

end Cert.KernelIdeal.Whole

end
-- ==== Proof.RefLayers.lean ====
/-
  The reference program read as four dense layers: each result entry is the bias plus the sum, over the
  contracted axis, of products of an activation entry and a weight entry, clamped below at zero on the
  first three layers.
-/
import proofs.«118080_j56341380989394_1_alg».proof.Proof.Gen.ReferenceIdeal.Read
import proofs.«118080_j56341380989394_1_alg».proof.Proof.LayerSpec

noncomputable section

namespace Cert.ReferenceIdeal.RefLayers

open Idealize.ShloMosaic Idealize.ShloMosaic.TcCoe Idealize.SL.Sem
open Cert.ReferenceIdeal.Gen Cert.ReferenceIdeal.Read Idealize.ShloMosaic.ValueIdx Cert.LayerSpec

/-! ## The first layer

Entry `(r, c)` of the product of `x` with the transposed weights is `∑ k, x (r, k) * W0 (c, k)`; the
bias, laid out as one row and repeated down the rows, adds `b0 c`. -/

/-- The first layer before its clamp is the dense layer of `x`, `W0` and the row of `b0`. -/
theorem layer0 (x W0 : FVec Ideal S4096x2048 .f32) (b0 : FVec Ideal S4096 .f32) :
    val_main_v4 (F := Ideal) x W0 b0 = dense x W0 (row b0) := by
  funext j
  obtain ⟨r, c, rfl⟩ : ∃ r c, j = ix2 r c := ⟨j 0, j 1, eq_ix2 j⟩
  rw [val_main_v4_apply, val_main_v1_apply, val_main_v3_apply, val_main_v2_apply]
  show (∑ k : Fin 2048, x (lidx_main_v1 (ix2 r c) k) * val_main_v0 (F := Ideal) W0 (ridx_main_v1 (ix2 r c) k))
      + b0 (idx_main_v2 (idx_main_v3 (ix2 r c)))
    = (∑ k : Fin 2048, x (ix2 r k) * W0 (ix2 c k)) + b0 (ix1 c)
  have hb : idx_main_v2 (idx_main_v3 (ix2 r c)) = ix1 c := by
    funext a; match a with | ⟨0, _⟩ => rfl
  rw [hb]
  refine congrArg (· + b0 (ix1 c)) (Finset.sum_congr rfl fun k _ => ?_)
  rw [val_main_v0_apply]
  have hl : lidx_main_v1 (ix2 r c) k = ix2 r k := by
    funext a; match a with | ⟨0, _⟩ => rfl | ⟨1, _⟩ => rfl
  have hr : idx_main_v0 (ridx_main_v1 (ix2 r c) k) = ix2 c k := by
    funext a; match a with | ⟨0, _⟩ => rfl | ⟨1, _⟩ => rfl
  rw [hl, hr]

/-- The first clamp: the maximum with the zero constant spread over the array is the clamp below at zero. -/
theorem relu0 (x W0 : FVec Ideal S4096x2048 .f32) (b0 : FVec Ideal S4096 .f32) :
    val_main_v5 (F := Ideal) x W0 b0 = clamp (val_main_v4 (F := Ideal) x W0 b0) := by
  funext j
  rw [val_main_v5_apply, val_main_call0_v0_apply, val_main_call0_cst_apply]
  show max (val_main_v4 (F := Ideal) x W0 b0 j) (Ideal.ofBits .f32 0x00000000#32) = max (val_main_v4 (F := Ideal) x W0 b0 j) 0
  rw [Ideal.ofBits_zero_f32]

/-! ## The second layer -/

/-- The second layer before its clamp is the dense layer of the first layer's result, `W1` and the row of `b1`. -/
theorem layer1 (x W0 : FVec Ideal S4096x2048 .f32) (b0 : FVec Ideal S4096 .f32) (W1 : FVec Ideal S4096x4096 .f32)
    (b1 : FVec Ideal S4096 .f32) :
    val_main_v10 (F := Ideal) x W0 b0 W1 b1 = dense (val_main_v5 (F := Ideal) x W0 b0) W1 (row b1) := by
  funext j
  obtain ⟨r, c, rfl⟩ : ∃ r c, j = ix2 r c := ⟨j 0, j 1, eq_ix2 j⟩
  rw [val_main_v10_apply, val_main_v7_apply, val_main_v9_apply, val_main_v8_apply]
  show (∑ k : Fin 4096, val_main_v5 (F := Ideal) x W0 b0 (lidx_main_v7 (ix2 r c) k)
        * val_main_v6 (F := Ideal) W1 (ridx_main_v7 (ix2 r c) k))
      + b1 (idx_main_v8 (idx_main_v9 (ix2 r c)))
    = (∑ k : Fin 4096, val_main_v5 (F := Ideal) x W0 b0 (ix2 r k) * W1 (ix2 c k)) + b1 (ix1 c)
  have hb : idx_main_v8 (idx_main_v9 (ix2 r c)) = ix1 c := by
    funext a; match a with | ⟨0, _⟩ => rfl
  rw [hb]
  refine congrArg (· + b1 (ix1 c)) (Finset.sum_congr rfl fun k _ => ?_)
  rw [val_main_v6_apply]
  have hl : lidx_main_v7 (ix2 r c) k = ix2 r k := by
    funext a; match a with | ⟨0, _⟩ => rfl | ⟨1, _⟩ => rfl
  have hr : idx_main_v6 (ridx_main_v7 (ix2 r c) k) = ix2 c k := by
    funext a; match a with | ⟨0, _⟩ => rfl | ⟨1, _⟩ => rfl
  rw [hl, hr]

/-- The second clamp. -/
theorem relu1 (x W0 : FVec Ideal S4096x2048 .f32) (b0 : FVec Ideal S4096 .f32) (W1 : FVec Ideal S4096x4096 .f32)
    (b1 : FVec Ideal S4096 .f32) :
    val_main_v11 (F := Ideal) x W0 b0 W1 b1 = clamp (val_main_v10 (F := Ideal) x W0 b0 W1 b1) := by
  funext j
  rw [val_main_v11_apply, val_main_call1_v0_apply, val_main_call1_cst_apply]
  show max (val_main_v10 (F := Ideal) x W0 b0 W1 b1 j) (Ideal.ofBits .f32 0x00000000#32)
    = max (val_main_v10 (F := Ideal) x W0 b0 W1 b1 j) 0
  rw [Ideal.ofBits_zero_f32]

/-! ## The third layer -/

/-- The third layer before its clamp is the dense layer of the second layer's result, `W2` and the row of `b2`. -/
theorem layer2 (x W0 : FVec Ideal S4096x2048 .f32) (b0 : FVec Ideal S4096 .f32) (W1 : FVec Ideal S4096x4096 .f32)
    (b1 : FVec Ideal S4096 .f32) (W2 : FVec Ideal S4096x4096 .f32) (b2 : FVec Ideal S4096 .f32) :
    val_main_v16 (F := Ideal) x W0 b0 W1 b1 W2 b2 = dense (val_main_v11 (F := Ideal) x W0 b0 W1 b1) W2 (row b2) := by
  funext j
  obtain ⟨r, c, rfl⟩ : ∃ r c, j = ix2 r c := ⟨j 0, j 1, eq_ix2 j⟩
  rw [val_main_v16_apply, val_main_v13_apply, val_main_v15_apply, val_main_v14_apply]
  show (∑ k : Fin 4096, val_main_v11 (F := Ideal) x W0 b0 W1 b1 (lidx_main_v13 (ix2 r c) k)
        * val_main_v12 (F := Ideal) W2 (ridx_main_v13 (ix2 r c) k))
      + b2 (idx_main_v14 (idx_main_v15 (ix2 r c)))
    = (∑ k : Fin 4096, val_main_v11 (F := Ideal) x W0 b0 W1 b1 (ix2 r k) * W2 (ix2 c k)) + b2 (ix1 c)
  have hb : idx_main_v14 (idx_main_v15 (ix2 r c)) = ix1 c := by
    funext a; match a with | ⟨0, _⟩ => rfl
  rw [hb]
  refine congrArg (· + b2 (ix1 c)) (Finset.sum_congr rfl fun k _ => ?_)
  rw [val_main_v12_apply]
  have hl : lidx_main_v13 (ix2 r c) k = ix2 r k := by
    funext a; match a with | ⟨0, _⟩ => rfl | ⟨1, _⟩ => rfl
  have hr : idx_main_v12 (ridx_main_v13 (ix2 r c) k) = ix2 c k := by
    funext a; match a with | ⟨0, _⟩ => rfl | ⟨1, _⟩ => rfl
  rw [hl, hr]

/-- The third clamp. -/
theorem relu2 (x W0 : FVec Ideal S4096x2048 .f32) (b0 : FVec Ideal S4096 .f32) (W1 : FVec Ideal S4096x4096 .f32)
    (b1 : FVec Ideal S4096 .f32) (W2 : FVec Ideal S4096x4096 .f32) (b2 : FVec Ideal S4096 .f32) :
    val_main_v17 (F := Ideal) x W0 b0 W1 b1 W2 b2 = clamp (val_main_v16 (F := Ideal) x W0 b0 W1 b1 W2 b2) := by
  funext j
  rw [val_main_v17_apply, val_main_call2_v0_apply, val_main_call2_cst_apply]
  show max (val_main_v16 (F := Ideal) x W0 b0 W1 b1 W2 b2 j) (Ideal.ofBits .f32 0x00000000#32)
    = max (val_main_v16 (F := Ideal) x W0 b0 W1 b1 W2 b2 j) 0
  rw [Ideal.ofBits_zero_f32]

/-! ## The last layer -/

/-- The last layer, which has no clamp, is the dense layer of the third layer's result, `W3` and the row of `b3`. -/
theorem layer3 (x W0 : FVec Ideal S4096x2048 .f32) (b0 : FVec Ideal S4096 .f32) (W1 : FVec Ideal S4096x4096 .f32)
    (b1 : FVec Ideal S4096 .f32) (W2 : FVec Ideal S4096x4096 .f32) (b2 : FVec Ideal S4096 .f32)
    (W3 : FVec Ideal S1024x4096 .f32) (b3 : FVec Ideal S1024 .f32) :
    val_main_v22 (F := Ideal) x W0 b0 W1 b1 W2 b2 W3 b3
      = dense (val_main_v17 (F := Ideal) x W0 b0 W1 b1 W2 b2) W3 (row b3) := by
  funext j
  obtain ⟨r, c, rfl⟩ : ∃ r c, j = ix2 r c := ⟨j 0, j 1, eq_ix2 j⟩
  rw [val_main_v22_apply, val_main_v19_apply, val_main_v21_apply, val_main_v20_apply]
  show (∑ k : Fin 4096, val_main_v17 (F := Ideal) x W0 b0 W1 b1 W2 b2 (lidx_main_v19 (ix2 r c) k)
        * val_main_v18 (F := Ideal) W3 (ridx_main_v19 (ix2 r c) k))
      + b3 (idx_main_v20 (idx_main_v21 (ix2 r c)))
    = (∑ k : Fin 4096, val_main_v17 (F := Ideal) x W0 b0 W1 b1 W2 b2 (ix2 r k) * W3 (ix2 c k)) + b3 (ix1 c)
  have hb : idx_main_v20 (idx_main_v21 (ix2 r c)) = ix1 c := by
    funext a; match a with | ⟨0, _⟩ => rfl
  rw [hb]
  refine congrArg (· + b3 (ix1 c)) (Finset.sum_congr rfl fun k _ => ?_)
  rw [val_main_v18_apply]
  have hl : lidx_main_v19 (ix2 r c) k = ix2 r k := by
    funext a; match a with | ⟨0, _⟩ => rfl | ⟨1, _⟩ => rfl
  have hr : idx_main_v18 (ridx_main_v19 (ix2 r c) k) = ix2 c k := by
    funext a; match a with | ⟨0, _⟩ => rfl | ⟨1, _⟩ => rfl
  rw [hl, hr]

/-! ## The whole program -/

/-- The reference program's result, as one term of its nine argument arrays, is the four layers in sequence. -/
theorem ref_eq (x : FVec Ideal S4096x2048 .f32) (W0 : FVec Ideal S4096x2048 .f32) (b0 : FVec Ideal S4096 .f32)
    (W1 : FVec Ideal S4096x4096 .f32) (b1 : FVec Ideal S4096 .f32) (W2 : FVec Ideal S4096x4096 .f32)
    (b2 : FVec Ideal S4096 .f32) (W3 : FVec Ideal S1024x4096 .f32) (b3 : FVec Ideal S1024 .f32) :
    addf (Host.dotGeneral dot_S4096x4096_S4096x1024_S4096x1024_1_0_0_1_n_n none (maximumf (addf (Host.dotGeneral dot_S4096x4096_S4096x4096_S4096x4096_1_0_0_1_n_n none (maximumf (addf (Host.dotGeneral dot_S4096x4096_S4096x4096_S4096x4096_1_0_0_1_n_n none (maximumf (addf (Host.dotGeneral dot_S4096x2048_S2048x4096_S4096x4096_1_0_0_1_n_n none (x) (transpose S2048x4096 [1, 0] (W0) transposes_S4096x2048_S2048x4096_1_0)) (broadcastInDim S4096x4096 ![0, 1] bcast_S1x4096_S4096x4096_0_1 (broadcastInDim S1x4096 ![1] bcast_S4096_S1x4096_1 (b0)))) (broadcastInDim S4096x4096 ![] bcast_S_S4096x4096 (constant (F := Ideal) S_ .f32 0x00000000#32))) (transpose S4096x4096 [1, 0] (W1) transposes_S4096x4096_S4096x4096_1_0)) (broadcastInDim S4096x4096 ![0, 1] bcast_S1x4096_S4096x4096_0_1 (broadcastInDim S1x4096 ![1] bcast_S4096_S1x4096_1 (b1)))) (broadcastInDim S4096x4096 ![] bcast_S_S4096x4096 (constant (F := Ideal) S_ .f32 0x00000000#32))) (transpose S4096x4096 [1, 0] (W2) transposes_S4096x4096_S4096x4096_1_0)) (broadcastInDim S4096x4096 ![0, 1] bcast_S1x4096_S4096x4096_0_1 (broadcastInDim S1x4096 ![1] bcast_S4096_S1x4096_1 (b2)))) (broadcastInDim S4096x4096 ![] bcast_S_S4096x4096 (constant (F := Ideal) S_ .f32 0x00000000#32))) (transpose S4096x1024 [1, 0] (W3) transposes_S1024x4096_S4096x1024_1_0)) (broadcastInDim S4096x1024 ![0, 1] bcast_S1x1024_S4096x1024_0_1 (broadcastInDim S1x1024 ![1] bcast_S1024_S1x1024_1 (b3)))
      = Cert.LayerSpec.net x W0 b0 W1 b1 W2 b2 W3 b3 := by
  refine (val_main_v22_eq (F := Ideal) x W0 b0 W1 b1 W2 b2 W3 b3).trans ?_
  rw [layer3, relu2, layer2, relu1, layer1, relu0, layer0]
  rfl

end Cert.ReferenceIdeal.RefLayers

end
-- ==== Proof.lean ====
/-
  A four-layer dense network, computed by four blocked matrix-product kernels, against its plain reference.
  Each kernel walks a grid of (row block, column block, contraction block): a scratch accumulator is cleared
  at the first contraction block, every point adds the product of an activation block with a transposed
  weight block, and at the last contraction block the accumulator plus the bias row — clamped below at zero
  on the first three layers — is written to the output block.  At the extended reals a change of float format
  is the identity and a sum may be regrouped, so each kernel's output array is the dense layer of its inputs:
  entry (r, c) is the sum over k of h (r, k) * W (c, k), plus b (c).  The reference computes the same four
  layers with whole-array products.  Both programs end with equal results; each runs to the end without
  fault and leaves its arguments as launched; the idealization rewrote nothing.
-/
import proofs.«118080_j56341380989394_1_alg».proof.Defs
import proofs.«118080_j56341380989394_1_alg».proof.Proof.Gen.Kernel
import proofs.«118080_j56341380989394_1_alg».proof.Proof.Gen.KernelIdeal
import proofs.«118080_j56341380989394_1_alg».proof.Proof.Gen.ReferenceIdeal
import proofs.«118080_j56341380989394_1_alg».proof.Proof.Gen.Pre_finite_inputs
import proofs.«118080_j56341380989394_1_alg».proof.Proof.Gen.ReferenceIdeal.Run
import proofs.«118080_j56341380989394_1_alg».proof.Proof.Kernel.Whole
import proofs.«118080_j56341380989394_1_alg».proof.Proof.KernelIdeal.NetValue
import proofs.«118080_j56341380989394_1_alg».proof.Proof.RefLayers
import Idealize.ShloMosaic.Adequacy
import Idealize.ShloMosaic.Init

noncomputable section

namespace Cert.Proof

open Idealize.ShloMosaic Idealize.ShloMosaic.TcCoe Idealize.SL.Sem

/-- The kernel program at the word level runs to the end and leaves its arguments as launched: its run with the
    result dropped. -/
theorem frame_k : Cert.frame_Kernel := fun m ρ _ =>
  (θ_run Cert.Kernel.defs _ _).mono (fun _ h c => (h c).2) (Cert.Kernel.Whole.run (F := Bits) m ρ)

/-- The same at the extended reals. -/
theorem frame_ki : Cert.frame_KernelIdeal := fun m ρ _ =>
  (θ_run Cert.KernelIdeal.defs _ _).mono (fun _ h c => (h c).2) (Cert.KernelIdeal.Whole.run (F := Ideal) m ρ)

/-- The reference runs to the end and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the four-layer network of the arguments in
    their result buffers. -/
theorem algebraic : Cert.algebraic_KernelIdeal_ReferenceIdeal := by
  intro m ρ m' ρ' _ hagree
  refine ⟨fun c => Cert.KernelIdeal.Gen.V8 m (Cert.KernelIdeal.Whole.outs m) c Cert.KernelIdeal.main_v7,
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.ReferenceIdeal.RefLayers.ref_eq _ _ _ _ _ _ _ _ _).trans (Cert.KernelIdeal.Whole.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
